-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S1x512x512x2 : Shape := ⟨4, ![1, 512, 512, 2]⟩
abbrev S1x512x512x1 : Shape := ⟨4, ![1, 512, 512, 1]⟩
abbrev S512 : Shape := ⟨1, ![512]⟩
abbrev S512x512x2 : Shape := ⟨3, ![512, 512, 2]⟩
abbrev S512x512x1 : Shape := ⟨3, ![512, 512, 1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S1x512x512x2 : S_.BroadcastsInDim S1x512x512x2 (![] : Fin 0 → Fin S1x512x512x2.rank)
  reducesTo_S1x512x512x2_S_d0_1_2_3 : S1x512x512x2.ReducesTo [0, 1, 2, 3] S_
  bcast_S_S1x512x512x1 : S_.BroadcastsInDim S1x512x512x1 (![] : Fin 0 → Fin S1x512x512x1.rank)
  reducesTo_S1x512x512x1_S_d0_1_2_3 : S1x512x512x1.ReducesTo [0, 1, 2, 3] S_
  bcast_S_S512 : S_.BroadcastsInDim S512 (![] : Fin 0 → Fin S512.rank)
  reducesTo_S512_S_d0 : S512.ReducesTo [0] S_
  bcast_S_S512x512x2 : S_.BroadcastsInDim S512x512x2 (![] : Fin 0 → Fin S512x512x2.rank)
  reducesTo_S512x512x2_S_d0_1_2 : S512x512x2.ReducesTo [0, 1, 2] S_
  bcast_S_S512x512x1 : S_.BroadcastsInDim S512x512x1 (![] : Fin 0 → Fin S512x512x1.rank)
  reducesTo_S512x512x1_S_d0_1_2 : S512x512x1.ReducesTo [0, 1, 2] S_

variable [Facts]

def fn_part5 {F : FTy → Type} [FloatOps F] (main_v83 : IVec S_ 1) (main_v84 : FVec F S512x512x1 .f32) (main_cst_32 : FVec F S_ .f32) : IVec S_ 1 :=
  let main_v85 : FVec F S512x512x1 .f32 := broadcastInDim S512x512x1 ![] bcast_S_S512x512x1 main_cst_32
  let main_v86 : IVec S512x512x1 1 := cmpf .olt main_v84 main_v85
  let main_c_33 : IVec S_ 1 := constantI S_ 1 1#1
  let main_v87 : IVec S_ 1 := (fun x v => Host.reduce IntOp.andi x v reducesTo_S512x512x1_S_d0_1_2 h_S_) main_v86 main_c_33
  let main_v88 : IVec S_ 1 := andi main_v83 main_v87
  main_v88

def fn_part4 {F : FTy → Type} [FloatOps F] (main_arg14 : FVec F S512x512x2 .f32) (main_arg15 : FVec F S512x512x2 .f32) (main_arg16 : FVec F S512x512x1 .f32) (main_arg17 : FVec F S512x512x1 .f32) (main_v63 : IVec S_ 1) (main_v67 : IVec S_ 1) : IVec S_ 1 :=
  let main_v68 : IVec S_ 1 := andi main_v63 main_v67
  let main_v69 : FVec F S512x512x2 .f32 := Host.absf main_arg14
  let main_cst_26 : FVec F S_ .f32 := constant S_ .f32 0x7F800000#32
  let main_v70 : FVec F S512x512x2 .f32 := broadcastInDim S512x512x2 ![] bcast_S_S512x512x2 main_cst_26
  let main_v71 : IVec S512x512x2 1 := cmpf .olt main_v69 main_v70
  let main_c_27 : IVec S_ 1 := constantI S_ 1 1#1
  let main_v72 : IVec S_ 1 := (fun x v => Host.reduce IntOp.andi x v reducesTo_S512x512x2_S_d0_1_2 h_S_) main_v71 main_c_27
  let main_v73 : IVec S_ 1 := andi main_v68 main_v72
  let main_v74 : FVec F S512x512x2 .f32 := Host.absf main_arg15
  let main_cst_28 : FVec F S_ .f32 := constant S_ .f32 0x7F800000#32
  let main_v75 : FVec F S512x512x2 .f32 := broadcastInDim S512x512x2 ![] bcast_S_S512x512x2 main_cst_28
  let main_v76 : IVec S512x512x2 1 := cmpf .olt main_v74 main_v75
  let main_c_29 : IVec S_ 1 := constantI S_ 1 1#1
  let main_v77 : IVec S_ 1 := (fun x v => Host.reduce IntOp.andi x v reducesTo_S512x512x2_S_d0_1_2 h_S_) main_v76 main_c_29
  let main_v78 : IVec S_ 1 := andi main_v73 main_v77
  let main_v79 : FVec F S512x512x1 .f32 := Host.absf main_arg16
  let main_cst_30 : FVec F S_ .f32 := constant S_ .f32 0x7F800000#32
  let main_v80 : FVec F S512x512x1 .f32 := broadcastInDim S512x512x1 ![] bcast_S_S512x512x1 main_cst_30
  let main_v81 : IVec S512x512x1 1 := cmpf .olt main_v79 main_v80
  let main_c_31 : IVec S_ 1 := constantI S_ 1 1#1
  let main_v82 : IVec S_ 1 := (fun x v => Host.reduce IntOp.andi x v reducesTo_S512x512x1_S_d0_1_2 h_S_) main_v81 main_c_31
  let main_v83 : IVec S_ 1 := andi main_v78 main_v82
  let main_v84 : FVec F S512x512x1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S512 .f32) (main_arg12 : FVec F S512x512x2 .f32) (main_arg13 : FVec F S512x512x2 .f32) (main_arg14 : FVec F S512x512x2 .f32) (main_arg15 : FVec F S512x512x2 .f32) (main_arg16 : FVec F S512x512x1 .f32) (main_arg17 : FVec F S512x512x1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512x2 .f32 := Host.absf main_arg12
  let main_cst_22 : FVec F S_ .f32 := constant S_ .f32 0x7F800000#32
  let main_v60 : FVec F S512x512x2 .f32 := broadcastInDim S512x512x2 ![] bcast_S_S512x512x2 main_cst_22
  let main_v61 : IVec S512x512x2 1 := cmpf .olt main_v59 main_v60
  let main_c_23 : IVec S_ 1 := constantI S_ 1 1#1
  let main_v62 : IVec S_ 1 := (fun x v => Host.reduce IntOp.andi x v reducesTo_S512x512x2_S_d0_1_2 h_S_) main_v61 main_c_23
  let main_v63 : IVec S_ 1 := andi main_v58 main_v62
  let main_v64 : FVec F S512x512x2 .f32 := Host.absf main_arg13
  let main_cst_24 : FVec F S_ .f32 := constant S_ .f32 0x7F800000#32
  let main_v65 : FVec F S512x512x2 .f32 := broadcastInDim S512x512x2 ![] bcast_S_S512x512x2 main_cst_24
  let main_v66 : IVec S512x512x2 1 := cmpf .olt main_v64 main_v65
  let main_c_25 : IVec S_ 1 := constantI S_ 1 1#1
  let main_v67 : IVec S_ 1 := (fun x v => Host.reduce IntOp.andi x v reducesTo_S512x512x2_S_d0_1_2 h_S_) main_v66 main_c_25
  fn_part4 (F := F) main_arg14 main_arg15 main_arg16 main_arg17 main_v63 main_v67

def fn_part2 {F : FTy → Type} [FloatOps F] (main_arg7 : FVec F S1x512x512x2 .f32) (main_arg8 : FVec F S1x512x512x1 .f32) (main_arg9 : FVec F S512 .f32) (main_arg10 : FVec F S512 .f32) (main_arg11 : FVec F S512 .f32) (main_arg12 : FVec F S512x512x2 .f32) (main_arg13 : FVec F S512x512x2 .f32) (main_arg14 : FVec F S512x512x2 .f32) (main_arg15 : FVec F S512x512x2 .f32) (main_arg16 : FVec F S512x512x1 .f32) (main_arg17 : FVec F S512x512x1 .f32) (main_v33 : IVec S_ 1) : IVec S_ 1 :=
  let main_v34 : FVec F S1x512x512x2 .f32 := Host.absf main_arg7
  let main_cst_12 : FVec F S_ .f32 := constant S_ .f32 0x7F800000#32
  let main_v35 : FVec F S1x512x512x2 .f32 := broadcastInDim S1x512x512x2 ![] bcast_S_S1x512x512x2 main_cst_12
  let main_v36 : IVec S1x512x512x2 1 := cmpf .olt main_v34 main_v35
  let main_c_13 : IVec S_ 1 := constantI S_ 1 1#1
  let main_v37 : IVec S_ 1 := (fun x v => Host.reduce IntOp.andi x v reducesTo_S1x512x512x2_S_d0_1_2_3 h_S_) main_v36 main_c_13
  let main_v38 : IVec S_ 1 := andi main_v33 main_v37
  let main_v39 : FVec F S1x512x512x1 .f32 := Host.absf main_arg8
  let main_cst_14 : FVec F S_ .f32 := constant S_ .f32 0x7F800000#32
  let main_v40 : FVec F S1x512x512x1 .f32 := broadcastInDim S1x512x512x1 ![] bcast_S_S1x512x512x1 main_cst_14
  let main_v41 : IVec S1x512x512x1 1 := cmpf .olt main_v39 main_v40
  let main_c_15 : IVec S_ 1 := constantI S_ 1 1#1
  let main_v42 : IVec S_ 1 := (fun x v => Host.reduce IntOp.andi x v reducesTo_S1x512x512x1_S_d0_1_2_3 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_v48 main_v49 main_v50

def fn_part1 {F : FTy → Type} [FloatOps F] (main_arg4 : FVec F S1x512x512x2 .f32) (main_arg5 : FVec F S1x512x512x1 .f32) (main_arg6 : FVec F S1x512x512x1 .f32) (main_arg7 : FVec F S1x512x512x2 .f32) (main_arg8 : FVec F S1x512x512x1 .f32) (main_arg9 : FVec F S512 .f32) (main_arg10 : FVec F S512 .f32) (main_arg11 : FVec F S512 .f32) (main_arg12 : FVec F S512x512x2 .f32) (main_arg13 : FVec F S512x512x2 .f32) (main_arg14 : FVec F S512x512x2 .f32) (main_arg15 : FVec F S512x512x2 .f32) (main_arg16 : FVec F S512x512x1 .f32) (main_arg17 : FVec F S512x512x1 .f32) (main_v13 : IVec S_ 1) (main_v16 : IVec S1x512x512x2 1) : IVec S_ 1 :=
  let main_c_5 : IVec S_ 1 := constantI S_ 1 1#1
  let main_v17 : IVec S_ 1 := (fun x v => Host.reduce IntOp.andi x v reducesTo_S1x512x512x2_S_d0_1_2_3 h_S_) main_v16 main_c_5
  let main_v18 : IVec S_ 1 := andi main_v13 main_v17
  let main_v19 : FVec F S1x512x512x2 .f32 := Host.absf main_arg4
  let main_cst_6 : FVec F S_ .f32 := constant S_ .f32 0x7F800000#32
  let main_v20 : FVec F S1x512x512x2 .f32 := broadcastInDim S1x512x512x2 ![] bcast_S_S1x512x512x2 main_cst_6
  let main_v21 : IVec S1x512x512x2 1 := cmpf .olt main_v19 main_v20
  let main_c_7 : IVec S_ 1 := constantI S_ 1 1#1
  let main_v22 : IVec S_ 1 := (fun x v => Host.reduce IntOp.andi x v reducesTo_S1x512x512x2_S_d0_1_2_3 h_S_) main_v21 main_c_7
  let main_v23 : IVec S_ 1 := andi main_v18 main_v22
  let main_v24 : FVec F S1x512x512x1 .f32 := Host.absf main_arg5
  let main_cst_8 : FVec F S_ .f32 := constant S_ .f32 0x7F800000#32
  let main_v25 : FVec F S1x512x512x1 .f32 := broadcastInDim S1x512x512x1 ![] bcast_S_S1x512x512x1 main_cst_8
  let main_v26 : IVec S1x512x512x1 1 := cmpf .olt main_v24 main_v25
  let main_c_9 : IVec S_ 1 := constantI S_ 1 1#1
  let main_v27 : IVec S_ 1 := (fun x v => Host.reduce IntOp.andi x v reducesTo_S1x512x512x1_S_d0_1_2_3 h_S_) main_v26 main_c_9
  let main_v28 : IVec S_ 1 := andi main_v23 main_v27
  let main_v29 : FVec F S1x512x512x1 .f32 := Host.absf main_arg6
  let main_cst_10 : FVec F S_ .f32 := constant S_ .f32 0x7F800000#32
  let main_v30 : FVec F S1x512x512x1 .f32 := broadcastInDim S1x512x512x1 ![] bcast_S_S1x512x512x1 main_cst_10
  let main_v31 : IVec S1x512x512x1 1 := cmpf .olt main_v29 main_v30
  let main_c_11 : IVec S_ 1 := constantI S_ 1 1#1
  let main_v32 : IVec S_ 1 := (fun x v => Host.reduce IntOp.andi x v reducesTo_S1x512x512x1_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S64x512 .f32) (main_arg1 : FVec F S1x512x512x2 .f32) (main_arg2 : FVec F S1x512x512x2 .f32) (main_arg3 : FVec F S1x512x512x2 .f32) (main_arg4 : FVec F S1x512x512x2 .f32) (main_arg5 : FVec F S1x512x512x1 .f32) (main_arg6 : FVec F S1x512x512x1 .f32) (main_arg7 : FVec F S1x512x512x2 .f32) (main_arg8 : FVec F S1x512x512x1 .f32) (main_arg9 : FVec F S512 .f32) (main_arg10 : FVec F S512 .f32) (main_arg11 : FVec F S512 .f32) (main_arg12 : FVec F S512x512x2 .f32) (main_arg13 : FVec F S512x512x2 .f32) (main_arg14 : FVec F S512x512x2 .f32) (main_arg15 : FVec F S512x512x2 .f32) (main_arg16 : FVec F S512x512x1 .f32) (main_arg17 : FVec F S512x512x1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S1x512x512x2 .f32 := Host.absf main_arg1
  let main_cst_0 : FVec F S_ .f32 := constant S_ .f32 0x7F800000#32
  let main_v5 : FVec F S1x512x512x2 .f32 := broadcastInDim S1x512x512x2 ![] bcast_S_S1x512x512x2 main_cst_0
  let main_v6 : IVec S1x512x512x2 1 := cmpf .olt main_v4 main_v5
  let main_c_1 : IVec S_ 1 := constantI S_ 1 1#1
  let main_v7 : IVec S_ 1 := (fun x v => Host.reduce IntOp.andi x v reducesTo_S1x512x512x2_S_d0_1_2_3 h_S_) main_v6 main_c_1
  let main_v8 : IVec S_ 1 := andi main_v3 main_v7
  let main_v9 : FVec F S1x512x512x2 .f32 := Host.absf main_arg2
  let main_cst_2 : FVec F S_ .f32 := constant S_ .f32 0x7F800000#32
  let main_v10 : FVec F S1x512x512x2 .f32 := broadcastInDim S1x512x512x2 ![] bcast_S_S1x512x512x2 main_cst_2
  let main_v11 : IVec S1x512x512x2 1 := cmpf .olt main_v9 main_v10
  let main_c_3 : IVec S_ 1 := constantI S_ 1 1#1
  let main_v12 : IVec S_ 1 := (fun x v => Host.reduce IntOp.andi x v reducesTo_S1x512x512x2_S_d0_1_2_3 h_S_) main_v11 main_c_3
  let main_v13 : IVec S_ 1 := andi main_v8 main_v12
  let main_v14 : FVec F S1x512x512x2 .f32 := Host.absf main_arg3
  let main_cst_4 : FVec F S_ .f32 := constant S_ .f32 0x7F800000#32
  let main_v15 : FVec F S1x512x512x2 .f32 := broadcastInDim S1x512x512x2 ![] bcast_S_S1x512x512x2 main_cst_4
  let main_v16 : IVec S1x512x512x2 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S64x512 : Shape := ⟨2, ![64, 512]⟩
abbrev S1x512x512x2 : Shape := ⟨4, ![1, 512, 512, 2]⟩
abbrev S1x512x512x1 : Shape := ⟨4, ![1, 512, 512, 1]⟩
abbrev S512 : Shape := ⟨1, ![512]⟩
abbrev S512x512x2 : Shape := ⟨3, ![512, 512, 2]⟩
abbrev S512x512x1 : Shape := ⟨3, ![512, 512, 1]⟩
abbrev S512x512 : Shape := ⟨2, ![512, 512]⟩
abbrev S8x512 : Shape := ⟨2, ![8, 512]⟩
abbrev S1x512 : Shape := ⟨2, ![1, 512]⟩
abbrev S1 : Shape := ⟨1, ![1]⟩
abbrev S1x1 : Shape := ⟨2, ![1, 1]⟩
abbrev S512x1 : Shape := ⟨2, ![512, 1]⟩

abbrev nBuf : Space → Nat
  | .hbm => 60
  | .vmem => 30
  | .smem => 0
  | _ => 0

abbrev bufTy : (tb : Table) → Fin (tcTables nBuf tb) → BufTy
  | .hbm, ⟨0, _⟩ => ⟨S64x512, .f32⟩
  | .hbm, ⟨1, _⟩ => ⟨S1x512x512x2, .f32⟩
  | .hbm, ⟨2, _⟩ => ⟨S1x512x512x2, .f32⟩
  | .hbm, ⟨3, _⟩ => ⟨S1x512x512x2, .f32⟩
  | .hbm, ⟨4, _⟩ => ⟨S1x512x512x2, .f32⟩
  | .hbm, ⟨5, _⟩ => ⟨S1x512x512x1, .f32⟩
  | .hbm, ⟨6, _⟩ => ⟨S1x512x512x1, .f32⟩
  | .hbm, ⟨7, _⟩ => ⟨S1x512x512x2, .f32⟩
  | .hbm, ⟨8, _⟩ => ⟨S1x512x512x1, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x512x2, .f32⟩
  | .hbm, ⟨13, _⟩ => ⟨S512x512x2, .f32⟩
  | .hbm, ⟨14, _⟩ => ⟨S512x512x2, .f32⟩
  | .hbm, ⟨15, _⟩ => ⟨S512x512x2, .f32⟩
  | .hbm, ⟨16, _⟩ => ⟨S512x512x1, .f32⟩
  | .hbm, ⟨17, _⟩ => ⟨S512x512x1, .f32⟩
  | .hbm, ⟨18, _⟩ => ⟨S1x512x512x1, .f32⟩
  | .hbm, ⟨19, _⟩ => ⟨S512x512, .f32⟩
  | .hbm, ⟨20, _⟩ => ⟨S1x512x512x1, .f32⟩
  | .hbm, ⟨21, _⟩ => ⟨S512x512, .f32⟩
  | .hbm, ⟨22, _⟩ => ⟨S1x512x512x1, .f32⟩
  | .hbm, ⟨23, _⟩ => ⟨S512x512, .f32⟩
  | .hbm, ⟨24, _⟩ => ⟨S1x512x512x1, .f32⟩
  | .hbm, ⟨25, _⟩ => ⟨S512x512, .f32⟩
  | .hbm, ⟨26, _⟩ => ⟨S1x512x512x1, .f32⟩
  | .hbm, ⟨27, _⟩ => ⟨S512x512, .f32⟩
  | .hbm, ⟨28, _⟩ => ⟨S1x512x512x1, .f32⟩
  | .hbm, ⟨29, _⟩ => ⟨S512x512, .f32⟩
  | .hbm, ⟨30, _⟩ => ⟨S1x512x512x1, .f32⟩
  | .hbm, ⟨31, _⟩ => ⟨S512x512, .f32⟩
  | .hbm, ⟨32, _⟩ => ⟨S1x512x512x1, .f32⟩
  | .hbm, ⟨33, _⟩ => ⟨S512x512, .f32⟩
  | .hbm, ⟨34, _⟩ => ⟨S1x512x512x1, .f32⟩
  | .hbm, ⟨35, _⟩ => ⟨S512x512, .f32⟩
  | .hbm, ⟨36, _⟩ => ⟨S1x512x512x1, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S512x512x1, .f32⟩
  | .hbm, ⟨42, _⟩ => ⟨S512x512, .f32⟩
  | .hbm, ⟨43, _⟩ => ⟨S512x512x1, .f32⟩
  | .hbm, ⟨44, _⟩ => ⟨S512x512, .f32⟩
  | .hbm, ⟨45, _⟩ => ⟨S512x512x1, .f32⟩
  | .hbm, ⟨46, _⟩ => ⟨S512x512, .f32⟩
  | .hbm, ⟨47, _⟩ => ⟨S512x512x1, .f32⟩
  | .hbm, ⟨48, _⟩ => ⟨S512x512, .f32⟩
  | .hbm, ⟨49, _⟩ => ⟨S512x512x1, .f32⟩
  | .hbm, ⟨50, _⟩ => ⟨S512x512, .f32⟩
  | .hbm, ⟨51, _⟩ => ⟨S512x512x1, .f32⟩
  | .hbm, ⟨52, _⟩ => ⟨S512x512, .f32⟩
  | .hbm, ⟨53, _⟩ => ⟨S512x512x1, .f32⟩
  | .hbm, ⟨54, _⟩ => ⟨S512x512, .f32⟩
  | .hbm, ⟨55, _⟩ => ⟨S512x512x1, .f32⟩
  | .hbm, ⟨56, _⟩ => ⟨S512x512, .f32⟩
  | .hbm, ⟨57, _⟩ => ⟨S512x512, .f32⟩
  | .hbm, ⟨58, _⟩ => ⟨S512x512, .f32⟩
  | .hbm, ⟨59, _⟩ => ⟨S64x512, .f32⟩
  | .local _ .vmem, ⟨0, _⟩ => ⟨S8x512, .f32⟩
  | .local _ .vmem, ⟨1, _⟩ => ⟨S8x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512, .f32⟩
  | .local _ .vmem, ⟨16, _⟩ => ⟨S512, .f32⟩
  | .local _ .vmem, ⟨17, _⟩ => ⟨S512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S8x512, .f32⟩
  | .local _ .vmem, ⟨29, _⟩ => ⟨S8x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg27_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem27_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S512x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S512x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S512x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S8x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

class Facts₀ : Prop where
  slices_S1x512x512x2_S1x512x512x1_0_0_0_0 : S1x512x512x2.Slices ![0, 0, 0, 0] S1x512x512x1
  shapeCasts_S1x512x512x1_S512x512 : S1x512x512x1.ShapeCasts S512x512
  slices_S1x512x512x2_S1x512x512x1_0_0_0_1 : S1x512x512x2.Slices ![0, 0, 0, 1] S1x512x512x1
  slices_S512x512x2_S512x512x1_0_0_0 : S512x512x2.Slices ![0, 0, 0] S512x512x1
  shapeCasts_S512x512x1_S512x512 : S512x512x1.ShapeCasts S512x512
  slices_S512x512x2_S512x512x1_0_0_1 : S512x512x2.Slices ![0, 0, 1] S512x512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  inb_S8x512_S1x512_0_0 : ∀ a, (![0, 0] : Fin 2 → Nat) a + S1x512.size a ≤ S8x512.size a
  h_S1x512 : 0 < S1x512.numel
  shapeCasts_S1x512_S512 : S1x512.ShapeCasts S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  broadcasts_S1_S512 : S1.Broadcasts S512
  shapeCasts_S512_S512x1 : S512.ShapeCasts S512x1
  broadcasts_S512x1_S512x512 : S512x1.Broadcasts S512x512
  reduces_S512x512_S512 : S512x512.Reduces [1] S512
  reduces_S512x1_S1 : S512x1.Reduces [0] S1
  broadcasts_S1x1_S512x512 : S1x1.Broadcasts S512x512
  reduces_S512x512_S512_2 : S512x512.Reduces [0] S512
  inb_S8x512_S1x512_1_0 : ∀ a, (![1, 0] : Fin 2 → Nat) a + S1x512.size a ≤ S8x512.size a
  inb_S8x512_S1x512_2_0 : ∀ a, (![2, 0] : Fin 2 → Nat) a + S1x512.size a ≤ S8x512.size a
  inb_S8x512_S1x512_3_0 : ∀ a, (![3, 0] : Fin 2 → Nat) a + S1x512.size a ≤ S8x512.size a
  inb_S8x512_S1x512_4_0 : ∀ a, (![4, 0] : Fin 2 → Nat) a + S1x512.size a ≤ S8x512.size a
  inb_S8x512_S1x512_5_0 : ∀ a, (![5, 0] : Fin 2 → Nat) a + S1x512.size a ≤ S8x512.size a
  inb_S8x512_S1x512_6_0 : ∀ a, (![6, 0] : Fin 2 → Nat) a + S1x512.size a ≤ S8x512.size a
  inb_S8x512_S1x512_7_0 : ∀ a, (![7, 0] : Fin 2 → Nat) a + S1x512.size a ≤ S8x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S64x512.size a
  hwx0_0 : ∀ i : grid0.Coords, EltTy.bits .f32 = 32 ∨ (Rect.block (s := S64x512) S8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .f32 = 32 ∨ (Rect.block (s := S512x512) S512x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .f32 = 32 ∨ (Rect.block (s := S512x512) S512x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .f32 = 32 ∨ (Rect.block (s := S512x512) S512x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .f32 = 32 ∨ (Rect.block (s := S512x512) S512x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S512.size a
  hwx0_16 : ∀ i : grid0.Coords, EltTy.bits .f32 = 32 ∨ (Rect.block (s := S512) S512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x512.size a ≤ S512x512.size a
  hwx0_17 : ∀ i : grid0.Coords, EltTy.bits .f32 = 32 ∨ (Rect.block (s := S512x512) S512x512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x512.size a ≤ S512x512.size a
  hwx0_18 : ∀ i : grid0.Coords, EltTy.bits .f32 = 32 ∨ (Rect.block (s := S512x512) S512x512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S512x512.size a
  hwx0_19 : ∀ i : grid0.Coords, EltTy.bits .f32 = 32 ∨ (Rect.block (s := S512x512) S512x512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512x512.size a ≤ S512x512.size a
  hwx0_20 : ∀ i : grid0.Coords, EltTy.bits .f32 = 32 ∨ (Rect.block (s := S512x512) S512x512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512x512.size a ≤ S512x512.size a
  hwx0_21 : ∀ i : grid0.Coords, EltTy.bits .f32 = 32 ∨ (Rect.block (s := S512x512) S512x512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S512x512.size a ≤ S512x512.size a
  hwx0_22 : ∀ i : grid0.Coords, EltTy.bits .f32 = 32 ∨ (Rect.block (s := S512x512) S512x512.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S512x512.size a ≤ S512x512.size a
  hwx0_23 : ∀ i : grid0.Coords, EltTy.bits .f32 = 32 ∨ (Rect.block (s := S512x512) S512x512.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S512x512.size a ≤ S512x512.size a
  hwx0_24 : ∀ i : grid0.Coords, EltTy.bits .f32 = 32 ∨ (Rect.block (s := S512x512) S512x512.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S512x512.size a ≤ S512x512.size a
  hwx0_25 : ∀ i : grid0.Coords, EltTy.bits .f32 = 32 ∨ (Rect.block (s := S512x512) S512x512.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S512x512.size a ≤ S512x512.size a
  hwx0_26 : ∀ i : grid0.Coords, EltTy.bits .f32 = 32 ∨ (Rect.block (s := S512x512) S512x512.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S8x512.size a ≤ S64x512.size a
  hwx0_27 : ∀ i : grid0.Coords, EltTy.bits .f32 = 32 ∨ (Rect.block (s := S64x512) S8x512.size (cc0_transform_27 i) (hinb0_27 i)).WholeWords (EltTy.packing .f32)

variable [Facts₀]

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v22) S512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg9) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg10) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg11) S512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v24) S512x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v26) S512x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v28) S512x512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v30) S512x512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v32) S512x512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v34) S512x512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v36) S512x512.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v38) S512x512.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v39) S512x512.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v40) S512x512.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v41) S8x512.size cc0_transform_27 reads0_27 true false 2 stage0_27 sem0_27
    hrank0 hreads0_27 hinb0_27 nbuf0_27 (Memref.isWhole_whole _) hwx0_27 hstage0_27

abbrev win0 : Fin 28 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | ⟨_ + 28, h⟩ => absurd h (Nat.not_lt.2 (Nat.le_add_left _ _))
abbrev spec0 : Fin 28 → Pipeline.WinSpec sig grid0.rank := fun w => (win0 w).toWinSpec

class Facts : Prop extends Facts₀ where

variable [Facts]
-- ==== ReferenceIdeal.lean ====
abbrev S64x512 : Shape := ⟨2, ![64, 512]⟩
abbrev S1x512x512x2 : Shape := ⟨4, ![1, 512, 512, 2]⟩
abbrev S1x512x512x1 : Shape := ⟨4, ![1, 512, 512, 1]⟩
abbrev S512 : Shape := ⟨1, ![512]⟩
abbrev S512x512x2 : Shape := ⟨3, ![512, 512, 2]⟩
abbrev S512x512x1 : Shape := ⟨3, ![512, 512, 1]⟩
abbrev S_ : Shape := ⟨0, ![]⟩
abbrev S64 : Shape := ⟨1, ![64]⟩
abbrev S64x1 : Shape := ⟨2, ![64, 1]⟩
abbrev S1x512 : Shape := ⟨2, ![1, 512]⟩
abbrev S64x512x1x1 : Shape := ⟨4, ![64, 512, 1, 1]⟩
abbrev S64x512x512x2 : Shape := ⟨4, ![64, 512, 512, 2]⟩
abbrev S64x1x1x1 : Shape := ⟨4, ![64, 1, 1, 1]⟩
abbrev S64x512x512 : Shape := ⟨3, ![64, 512, 512]⟩
abbrev S64x512x512x1 : Shape := ⟨4, ![64, 512, 512, 1]⟩
abbrev S64x512x1 : Shape := ⟨3, ![64, 512, 1]⟩
abbrev S512x1 : Shape := ⟨2, ![512, 1]⟩
abbrev S1x512x1 : Shape := ⟨3, ![1, 512, 1]⟩

abbrev nBuf : Space → Nat
  | .hbm => 192
  | .vmem => 0
  | .smem => 0
  | _ => 0

abbrev hbmTy0_0 (i : Nat) : BufTy := match i % 128 with
  | 0 => ⟨S64x512, .f32⟩
  | 1 => ⟨S1x512x512x2, .f32⟩
  | 2 => ⟨S1x512x512x2, .f32⟩
  | 3 => ⟨S1x512x512x2, .f32⟩
  | 4 => ⟨S1x512x512x2, .f32⟩
  | 5 => ⟨S1x512x512x1, .f32⟩
  | 6 => ⟨S1x512x512x1, .f32⟩
  | 7 => ⟨S1x512x512x2, .f32⟩
  | 8 => ⟨S1x512x512x1, .f32⟩
  | 9 => ⟨S512, .f32⟩
  | 10 => ⟨S512, .f32⟩
  | 11 => ⟨S512, .f32⟩
  | 12 => ⟨S512x512x2, .f32⟩
  | 13 => ⟨S512x512x2, .f32⟩
  | 14 => ⟨S512x512x2, .f32⟩
  | 15 => ⟨S512x512x2, .f32⟩
  | 16 => ⟨S512x512x1, .f32⟩
  | 17 => ⟨S512x512x1, .f32⟩
  | 18 => ⟨S_, .f32⟩
  | 19 => ⟨S64, .f32⟩
  | 20 => ⟨S64x1, .f32⟩
  | 21 => ⟨S_, .f32⟩
  | 22 => ⟨S64x1, .f32⟩
  | 23 => ⟨S64x1, .f32⟩
  | 24 => ⟨S64x512, .f32⟩
  | 25 => ⟨S64x512, .f32⟩
  | 26 => ⟨S64x512, .f32⟩
  | 27 => ⟨S_, .f32⟩
  | 28 => ⟨S64, .f32⟩
  | 29 => ⟨S64x1, .f32⟩
  | 30 => ⟨S_, .f32⟩
  | 31 => ⟨S64x1, .f32⟩
  | 32 => ⟨S64x1, .f32⟩
  | 33 => ⟨S64x512, .f32⟩
  | 34 => ⟨S64x512, .f32⟩
  | 35 => ⟨S_, .f32⟩
  | 36 => ⟨S64x1, .f32⟩
  | 37 => ⟨S64x1, .f32⟩
  | 38 => ⟨S64x1, .f32⟩
  | 39 => ⟨S64x512, .f32⟩
  | 40 => ⟨S64x512, .f32⟩
  | 41 => ⟨S1x512, .f32⟩
  | 42 => ⟨S64x512, .f32⟩
  | 43 => ⟨S64x512, .f32⟩
  | 44 => ⟨S1x512, .f32⟩
  | 45 => ⟨S64x512, .f32⟩
  | 46 => ⟨S64x512, .f32⟩
  | 47 => ⟨S64x512x1x1, .f32⟩
  | 48 => ⟨S64x512x512x2, .f32⟩
  | 49 => ⟨S64x512x512x2, .f32⟩
  | 50 => ⟨S64x512x512x2, .f32⟩
  | 51 => ⟨S64x512x512x2, .f32⟩
  | 52 => ⟨S64x512x512x2, .f32⟩
  | 53 => ⟨S_, .f32⟩
  | 54 => ⟨S64, .f32⟩
  | 55 => ⟨S64x1x1x1, .f32⟩
  | 56 => ⟨S_, .f32⟩
  | 57 => ⟨S64x1x1x1, .f32⟩
  | 58 => ⟨S64x1x1x1, .f32⟩
  | 59 => ⟨S64x512x512x2, .f32⟩
  | 60 => ⟨S64x512x512x2, .f32⟩
  | 61 => ⟨S64x512x512x2, .f32⟩
  | 62 => ⟨S_, .f32⟩
  | 63 => ⟨S64, .f32⟩
  | 64 => ⟨S64x1x1x1, .f32⟩
  | 65 => ⟨S_, .f32⟩
  | 66 => ⟨S64x1x1x1, .f32⟩
  | 67 => ⟨S64x1x1x1, .f32⟩
  | 68 => ⟨S64x512x512x2, .f32⟩
  | 69 => ⟨S64x512x512x2, .f32⟩
  | 70 => ⟨S_, .f32⟩
  | 71 => ⟨S64x1x1x1, .f32⟩
  | 72 => ⟨S64x1x1x1, .f32⟩
  | 73 => ⟨S64x1x1x1, .f32⟩
  | 74 => ⟨S64x512x512x2, .f32⟩
  | 75 => ⟨S64x512x512x2, .f32⟩
  | 76 => ⟨S1x512x512x2, .f32⟩
  | 77 => ⟨S64x512x512x2, .f32⟩
  | 78 => ⟨S64x512x512x2, .f32⟩
  | 79 => ⟨S1x512x512x2, .f32⟩
  | 80 => ⟨S64x512x512x2, .f32⟩
  | 81 => ⟨S64x512x512x2, .f32⟩
  | 82 => ⟨S_, .f32⟩
  | 83 => ⟨S64x512x512x2, .f32⟩
  | 84 => ⟨S64x512x512x2, .i1⟩
  | 85 => ⟨S_, .f32⟩
  | 86 => ⟨S64x512x512x2, .f32⟩
  | 87 => ⟨S64x512x512x2, .f32⟩
  | 88 => ⟨S64x512x512x2, .f32⟩
  | 89 => ⟨S64x512x512x2, .f32⟩
  | 90 => ⟨S64x512x512x2, .f32⟩
  | 91 => ⟨S_, .f32⟩
  | 92 => ⟨S64x512x512, .f32⟩
  | 93 => ⟨S64x512x512x1, .f32⟩
  | 94 => ⟨S64x512x512x1, .f32⟩
  | 95 => ⟨S64x512x512x1, .f32⟩
  | 96 => ⟨S64x512x512x2, .f32⟩
  | 97 => ⟨S64x512x512x2, .f32⟩
  | 98 => ⟨S_, .f32⟩
  | 99 => ⟨S64x512x512, .f32⟩
  | 100 => ⟨S64x512x512x1, .f32⟩
  | 101 => ⟨S64x512x512x1, .f32⟩
  | 102 => ⟨S64x512x512x1, .f32⟩
  | 103 => ⟨S64x512x512x2, .f32⟩
  | 104 => ⟨S_, .f32⟩
  | 105 => ⟨S64, .f32⟩
  | 106 => ⟨S64x1x1x1, .f32⟩
  | 107 => ⟨S_, .f32⟩
  | 108 => ⟨S64x1x1x1, .f32⟩
  | 109 => ⟨S64x1x1x1, .f32⟩
  | 110 => ⟨S64x512x512x2, .f32⟩
  | 111 => ⟨S64x512x512x2, .f32⟩
  | 112 => ⟨S64x512x512x2, .f32⟩
  | 113 => ⟨S_, .f32⟩
  | 114 => ⟨S64, .f32⟩
  | 115 => ⟨S64x1x1x1, .f32⟩
  | 116 => ⟨S_, .f32⟩
  | 117 => ⟨S64x1x1x1, .f32⟩
  | 118 => ⟨S64x1x1x1, .f32⟩
  | 119 => ⟨S64x512x512x2, .f32⟩
  | 120 => ⟨S64x512x512x2, .f32⟩
  | 121 => ⟨S_, .f32⟩
  | 122 => ⟨S64x1x1x1, .f32⟩
  | 123 => ⟨S64x1x1x1, .f32⟩
  | 124 => ⟨S64x1x1x1, .f32⟩
  | 125 => ⟨S64x512x512x2, .f32⟩
  | 126 => ⟨S64x512x512x2, .f32⟩
  | 127 => ⟨S1x512x512x2, .f32⟩
  | _ => ⟨S64x512, .f32⟩

abbrev hbmTy0_1 (i : Nat) : BufTy := match i % 128 with
  | 0 => ⟨S64x512x512x2, .f32⟩
  | 1 => ⟨S64x512x512x2, .f32⟩
  | 2 => ⟨S1x512x512x2, .f32⟩
  | 3 => ⟨S64x512x512x2, .f32⟩
  | 4 => ⟨S64x512x512x2, .f32⟩
  | 5 => ⟨S_, .f32⟩
  | 6 => ⟨S64x512x512x2, .f32⟩
  | 7 => ⟨S64x512x512x2, .i1⟩
  | 8 => ⟨S_, .f32⟩
  | 9 => ⟨S64x512x512x2, .f32⟩
  | 10 => ⟨S64x512x512x2, .f32⟩
  | 11 => ⟨S64x512x512x2, .f32⟩
  | 12 => ⟨S64x512x512x2, .f32⟩
  | 13 => ⟨S64x512x512x2, .f32⟩
  | 14 => ⟨S_, .f32⟩
  | 15 => ⟨S64x512x512, .f32⟩
  | 16 => ⟨S64x512x512x1, .f32⟩
  | 17 => ⟨S64x512x512x1, .f32⟩
  | 18 => ⟨S64x512x512x1, .f32⟩
  | 19 => ⟨S_, .f32⟩
  | 20 => ⟨S64, .f32⟩
  | 21 => ⟨S64x1x1x1, .f32⟩
  | 22 => ⟨S_, .f32⟩
  | 23 => ⟨S64x1x1x1, .f32⟩
  | 24 => ⟨S64x1x1x1, .f32⟩
  | 25 => ⟨S64x512x512x1, .f32⟩
  | 26 => ⟨S64x512x512x1, .f32⟩
  | 27 => ⟨S64x512x512x1, .f32⟩
  | 28 => ⟨S_, .f32⟩
  | 29 => ⟨S64, .f32⟩
  | 30 => ⟨S64x1x1x1, .f32⟩
  | 31 => ⟨S_, .f32⟩
  | 32 => ⟨S64x1x1x1, .f32⟩
  | 33 => ⟨S64x1x1x1, .f32⟩
  | 34 => ⟨S64x512x512x1, .f32⟩
  | 35 => ⟨S64x512x512x1, .f32⟩
  | 36 => ⟨S_, .f32⟩
  | 37 => ⟨S64x1x1x1, .f32⟩
  | 38 => ⟨S64x1x1x1, .f32⟩
  | 39 => ⟨S64x1x1x1, .f32⟩
  | 40 => ⟨S64x512x512x1, .f32⟩
  | 41 => ⟨S64x512x512x1, .f32⟩
  | 42 => ⟨S1x512x512x1, .f32⟩
  | 43 => ⟨S64x512x512x1, .f32⟩
  | 44 => ⟨S64x512x512x1, .f32⟩
  | 45 => ⟨S1x512x512x1, .f32⟩
  | 46 => ⟨S64x512x512x1, .f32⟩
  | 47 => ⟨S64x512x512x1, .f32⟩
  | 48 => ⟨S64x512x512x1, .f32⟩
  | 49 => ⟨S64x512x512x1, .f32⟩
  | 50 => ⟨S_, .f32⟩
  | 51 => ⟨S64x512x1, .f32⟩
  | 52 => ⟨S512x1, .f32⟩
  | 53 => ⟨S1x512x1, .f32⟩
  | 54 => ⟨S64x512x1, .f32⟩
  | 55 => ⟨S64x512x1, .f32⟩
  | 56 => ⟨S_, .f32⟩
  | 57 => ⟨S64x512x1, .f32⟩
  | 58 => ⟨S64x512x1, .i1⟩
  | 59 => ⟨S_, .f32⟩
  | 60 => ⟨S64x512x1, .f32⟩
  | 61 => ⟨S64x512x1, .f32⟩
  | 62 => ⟨S64x512x1, .f32⟩
  | 63 => ⟨S64x512, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_13 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_17 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_18 : Ref sig .tc := ⟨.hbm, 133, rfl⟩
abbrev main_v96 : Ref sig .tc := ⟨.hbm, 134, rfl⟩
abbrev main_v97 : Ref sig .tc := ⟨.hbm, 135, rfl⟩
abbrev main_cst_19 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_20 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_21 : Ref sig .tc := ⟨.hbm, 147, rfl⟩
abbrev main_v107 : Ref sig .tc := ⟨.hbm, 148, rfl⟩
abbrev main_v108 : Ref sig .tc := ⟨.hbm, 149, rfl⟩
abbrev main_cst_22 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_23 : Ref sig .tc := ⟨.hbm, 156, rfl⟩
abbrev main_v114 : Ref sig .tc := ⟨.hbm, 157, rfl⟩
abbrev main_v115 : Ref sig .tc := ⟨.hbm, 158, rfl⟩
abbrev main_cst_24 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_25 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_26 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_27 : Ref sig .tc := ⟨.hbm, 184, rfl⟩
abbrev main_v138 : Ref sig .tc := ⟨.hbm, 185, rfl⟩
abbrev main_v139 : Ref sig .tc := ⟨.hbm, 186, rfl⟩
abbrev main_cst_28 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩

abbrev nD : Nat := 1
abbrev τ : Topo := Topo.v7x

variable {F : FTy → Type} [FloatOps F]

class Facts₀ : Prop where
  reducesTo_S64x512_S64_d1 : S64x512.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S64x512_S64x512x1x1_0_1 : S64x512.BroadcastsInDim S64x512x1x1 (![0, 1] : Fin 2 → Fin S64x512x1x1.rank)
  bcast_S64x512x1x1_S64x512x512x2_0_1_2_3 : S64x512x1x1.BroadcastsInDim S64x512x512x2 (![0, 1, 2, 3] : Fin 4 → Fin S64x512x512x2.rank)
  bcast_S1x512x512x2_S64x512x512x2_0_1_2_3 : S1x512x512x2.BroadcastsInDim S64x512x512x2 (![0, 1, 2, 3] : Fin 4 → Fin S64x512x512x2.rank)
  reducesTo_S64x512x512x2_S64_d1_2_3 : S64x512x512x2.ReducesTo [1, 2, 3] S64
  bcast_S64_S64x1x1x1_0 : S64.BroadcastsInDim S64x1x1x1 (![0] : Fin 1 → Fin S64x1x1x1.rank)
  bcast_S_S64x1x1x1 : S_.BroadcastsInDim S64x1x1x1 (![] : Fin 0 → Fin S64x1x1x1.rank)
  bcast_S64x1x1x1_S64x512x512x2_0_1_2_3 : S64x1x1x1.BroadcastsInDim S64x512x512x2 (![0, 1, 2, 3] : Fin 4 → Fin S64x512x512x2.rank)
  bcast_S512x512x2_S1x512x512x2_1_2_3 : S512x512x2.BroadcastsInDim S1x512x512x2 (![1, 2, 3] : Fin 3 → Fin S1x512x512x2.rank)
  bcast_S_S64x512x512x2 : S_.BroadcastsInDim S64x512x512x2 (![] : Fin 0 → Fin S64x512x512x2.rank)
  reducesTo_S64x512x512x2_S64x512x512_d3 : S64x512x512x2.ReducesTo [3] S64x512x512
  bcast_S64x512x512_S64x512x512x1_0_1_2 : S64x512x512.BroadcastsInDim S64x512x512x1 (![0, 1, 2] : Fin 3 → Fin S64x512x512x1.rank)
  bcast_S1x512x512x1_S64x512x512x1_0_1_2_3 : S1x512x512x1.BroadcastsInDim S64x512x512x1 (![0, 1, 2, 3] : Fin 4 → Fin S64x512x512x1.rank)
  concatenates_S64x512x512x1_S64x512x512x1_S64x512x512x2_d3 : Shape.Concatenates [S64x512x512x1, S64x512x512x1] S64x512x512x2 3
  reducesTo_S64x512x512x1_S64_d1_2_3 : S64x512x512x1.ReducesTo [1, 2, 3] S64
  bcast_S64x1x1x1_S64x512x512x1_0_1_2_3 : S64x1x1x1.BroadcastsInDim S64x512x512x1 (![0, 1, 2, 3] : Fin 4 → Fin S64x512x512x1.rank)
  bcast_S512x512x1_S1x512x512x1_1_2_3 : S512x512x1.BroadcastsInDim S1x512x512x1 (![1, 2, 3] : Fin 3 → Fin S1x512x512x1.rank)
  bcast_S64x512x1x1_S64x512x512x1_0_1_2_3 : S64x512x1x1.BroadcastsInDim S64x512x512x1 (![0, 1, 2, 3] : Fin 4 → Fin S64x512x512x1.rank)
  reducesTo_S64x512x512x1_S64x512x1_d1 : S64x512x512x1.ReducesTo [1] S64x512x1
  bcast_S512_S512x1_0 : S512.BroadcastsInDim S512x1 (![0] : Fin 1 → Fin S512x1.rank)
  bcast_S512x1_S1x512x1_1_2 : S512x1.BroadcastsInDim S1x512x1 (![1, 2] : Fin 2 → Fin S1x512x1.rank)
  bcast_S1x512x1_S64x512x1_0_1_2 : S1x512x1.BroadcastsInDim S64x512x1 (![0, 1, 2] : Fin 3 → Fin S64x512x1.rank)
  bcast_S_S64x512x1 : S_.BroadcastsInDim S64x512x1 (![] : Fin 0 → Fin S64x512x1.rank)
  shapeCasts_S64x512x1_S64x512 : S64x512x1.ShapeCasts S64x512

variable [Facts₀]

class Facts : Prop extends Facts₀ where

variable [Facts]
-- ==== Proof.RowBody.lean ====
/-
  One batch row as the kernel's body computes it, in the body's own vector operations, and the fact that the body's eight
  stores are this one computation applied to rows 7, …, 0 of the input block.

  `rowBody` takes the row as loaded (a 1 × 512 vector), the thirteen weight and shift planes, the three per-lane vectors and
  the ten gain and shift planes, and returns the 1 × 512 vector the body stores. It is staged as the source is: the row's
  own normalisation (`laneTotal`, `laneMean`), the column broadcast into two planes, three normalisations over whole planes
  (a plane's `total` is the sum along lanes followed by the sum along sublanes, as a 1 × 1 vector), the rectifier, and the
  closing sum over sublanes.
-/
import proofs.«167910_j23965917511984_1_alg».proof.Proof.KernelIdealFrameP

set_option maxRecDepth 16384

noncomputable section

namespace Cert.KernelIdeal.Row

open Cert.KernelIdeal Cert.KernelIdeal.Gen Cert.KernelIdeal.GenP Idealize.ShloMosaic

variable {F : FTy → Type} [FloatOps F]

/-- The sum of a 512-vector's entries, as a scalar: the vector laid as one row, summed along lanes, the one entry read. -/
def laneTotal (v : FVec F S512 .f32) : F .f32 :=
  extractAt ![0, 0] (shapeCast S1x1 (multiReduction .add [1] S1 (shapeCast S1x512 v shapeCasts_S512_S1x512) 0x00000000#32 reduces_S1x512_S1 (.inl rfl) rfl) shapeCasts_S1_S1x1) inpos_S1x1_p0_0

/-- Its mean: the total over 512. -/
def laneMean (v : FVec F S512 .f32) : FVec F S1 .f32 :=
  divf (broadcast S1 (laneTotal v)) (broadcast S1 (Scalar.ofBits .f32 0x44000000#32))

/-- A plane's total as a 1 × 1 vector: summed along lanes, then along sublanes. -/
def total (a : FVec F S512x512 .f32) : FVec F S1x1 .f32 :=
  shapeCast S1x1 (multiReduction .add [0] S1 (shapeCast S512x1 (multiReduction .add [1] S512 a 0x00000000#32 reduces_S512x512_S512 (.inl rfl) rfl) shapeCasts_S512_S512x1) 0x00000000#32 reduces_S512x1_S1 (.inl rfl) rfl) shapeCasts_S1_S1x1

/-- A 1 × 1 value spread over a plane. -/
def spread (v : FVec F S1x1 .f32) : FVec F S512x512 .f32 := broadcastTo S512x512 v broadcasts_S1x1_S512x512

/-- Reciprocal standard deviation of a 1 × 1 variance. -/
def istd (v : FVec F S1x1 .f32) : FVec F S1x1 .f32 := rsqrt (addf v (broadcast S1x1 (Scalar.ofBits .f32 0x3727C5AC#32)))

/-- The leaky rectifier on a plane. -/
def lrelu (t : FVec F S512x512 .f32) : FVec F S512x512 .f32 :=
  select (cmpf .oge t (broadcast S512x512 (Scalar.ofBits .f32 0x00000000#32))) t (mulf (broadcast S512x512 (Scalar.ofBits .f32 0x3C23D70A#32)) t)

/-- The leaky rectifier on a 512-vector. -/
def lreluLane (t : FVec F S512 .f32) : FVec F S512 .f32 :=
  select (cmpf .oge t (broadcast S512 (Scalar.ofBits .f32 0x00000000#32))) t (mulf (broadcast S512 (Scalar.ofBits .f32 0x3C23D70A#32)) t)

/-- Mean of two planes together: the two totals over 2¹⁹. -/
def pairMean (a b : FVec F S512x512 .f32) : FVec F S1x1 .f32 :=
  divf (addf (total a) (total b)) (broadcast S1x1 (Scalar.ofBits .f32 0x49000000#32))

/-- Mean of one plane: its total over 2¹⁸. -/
def oneMean (a : FVec F S512x512 .f32) : FVec F S1x1 .f32 :=
  divf (total a) (broadcast S1x1 (Scalar.ofBits .f32 0x48800000#32))

/-- The row's normalised entries as a column (512 × 1). -/
def xcol (xrow : Vec F S1x512 .f32) (g0 be0 : Vec F S512 .f32) : FVec F S512x1 .f32 :=
  have xr : FVec F S512 .f32 := shapeCast S512 xrow shapeCasts_S1x512_S512
  have dev : FVec F S512 .f32 := subf xr (broadcastTo S512 (laneMean xr) broadcasts_S1_S512)
  have inv : FVec F S1 .f32 := rsqrt (addf (laneMean (mulf dev dev)) (broadcast S1 (Scalar.ofBits .f32 0x3727C5AC#32)))
  shapeCast S512x1 (addf (mulf (mulf dev (broadcastTo S512 inv broadcasts_S1_S512)) g0) be0) shapeCasts_S512_S512x1

/-- The column spread along lanes. -/
def colPlane (c : FVec F S512x1 .f32) : FVec F S512x512 .f32 := broadcastTo S512x512 c broadcasts_S512x1_S512x512

/-- One batch row, as the body computes it. -/
def rowBody (xrow : Vec F S1x512 .f32) (w1_0 : FVec F S512x512 .f32) (w1_1 : FVec F S512x512 .f32) (b1_0 : FVec F S512x512 .f32) (b1_1 : FVec F S512x512 .f32) (w21_0 : FVec F S512x512 .f32) (w21_1 : FVec F S512x512 .f32) (w22_0 : FVec F S512x512 .f32) (w22_1 : FVec F S512x512 .f32) (b21 : FVec F S512x512 .f32) (b22 : FVec F S512x512 .f32) (w3_0 : FVec F S512x512 .f32) (w3_1 : FVec F S512x512 .f32) (b3 : FVec F S512x512 .f32) (bias g0 be0 : Vec F S512 .f32) (g1_0 : FVec F S512x512 .f32) (g1_1 : FVec F S512x512 .f32) (be1_0 : FVec F S512x512 .f32) (be1_1 : FVec F S512x512 .f32) (g2_0 : FVec F S512x512 .f32) (g2_1 : FVec F S512x512 .f32) (be2_0 : FVec F S512x512 .f32) (be2_1 : FVec F S512x512 .f32) (g3 : FVec F S512x512 .f32) (be3 : FVec F S512x512 .f32) : FVec F S1x512 .f32 :=
  have xc : FVec F S512x1 .f32 := xcol xrow g0 be0
  have zA : FVec F S512x512 .f32 := addf (mulf (colPlane xc) w1_0) b1_0
  have zB : FVec F S512x512 .f32 := addf (mulf (colPlane xc) w1_1) b1_1
  have m1 : FVec F S1x1 .f32 := pairMean zA zB
  have cA : FVec F S512x512 .f32 := subf zA (spread m1)
  have cB : FVec F S512x512 .f32 := subf zB (spread m1)
  have i1 : FVec F S1x1 .f32 := istd (pairMean (mulf cA cA) (mulf cB cB))
  have hA : FVec F S512x512 .f32 := lrelu (addf (mulf (mulf cA (spread i1)) g1_0) be1_0)
  have hB : FVec F S512x512 .f32 := lrelu (addf (mulf (mulf cB (spread i1)) g1_1) be1_1)
  have pA : FVec F S512x512 .f32 := addf (addf (mulf hA w21_0) (mulf hB w21_1)) b21
  have pB : FVec F S512x512 .f32 := addf (addf (mulf hA w22_0) (mulf hB w22_1)) b22
  have m2 : FVec F S1x1 .f32 := pairMean pA pB
  have eA : FVec F S512x512 .f32 := subf pA (spread m2)
  have eB : FVec F S512x512 .f32 := subf pB (spread m2)
  have i2 : FVec F S1x1 .f32 := istd (pairMean (mulf eA eA) (mulf eB eB))
  have qA : FVec F S512x512 .f32 := lrelu (addf (mulf (mulf eA (spread i2)) g2_0) be2_0)
  have qB : FVec F S512x512 .f32 := lrelu (addf (mulf (mulf eB (spread i2)) g2_1) be2_1)
  have s : FVec F S512x512 .f32 := addf (addf (mulf qA w3_0) (mulf qB w3_1)) b3
  have f : FVec F S512x512 .f32 := subf s (spread (oneMean s))
  have i3 : FVec F S1x1 .f32 := istd (oneMean (mulf f f))
  have pre : FVec F S512x512 .f32 := addf (addf (mulf (mulf f (spread i3)) g3) be3) (colPlane xc)
  have summed : FVec F S512 .f32 := multiReduction .add [0] S512 pre 0x00000000#32 reduces_S512x512_S512_2 (.inl rfl) rfl
  shapeCast S1x512 (lreluLane (addf summed bias)) shapeCasts_S512_S1x512

end Cert.KernelIdeal.Row

end
-- ==== Proof.KernelPieces.lean ====
/-
  The body's eight stores, as pieces of its output block, are one computation: piece `i` (row `i` of the 8 × 512 block) is
  `rowBody` of row `i` of the input block and of the parameter blocks as loaded. Both sides are the same tree of vector
  operations; only the names under which its intermediate values are kept differ.
-/
import proofs.«167910_j23965917511984_1_alg».proof.Proof.RowBody

set_option maxRecDepth 65536

noncomputable section

namespace Cert.KernelIdeal.Row

open Cert.KernelIdeal Cert.KernelIdeal.Gen Cert.KernelIdeal.GenP Idealize.ShloMosaic

variable {F : FTy → Type} [FloatOps F]

/-- A loaded row through the row computation, with every parameter block read whole. -/
abbrev rowAt (x1 : Vec F S512x512 .f32) (x2 : Vec F S512x512 .f32) (x3 : Vec F S512x512 .f32) (x4 : Vec F S512x512 .f32) (x5 : Vec F S512x512 .f32) (x6 : Vec F S512x512 .f32) (x7 : Vec F S512x512 .f32) (x8 : Vec F S512x512 .f32) (x9 : Vec F S512x512 .f32) (x10 : Vec F S512x512 .f32) (x11 : Vec F S512x512 .f32) (x12 : Vec F S512x512 .f32) (x13 : Vec F S512x512 .f32) (x14 x15 x16 : Vec F S512 .f32) (x17 : Vec F S512x512 .f32) (x18 : Vec F S512x512 .f32) (x19 : Vec F S512x512 .f32) (x20 : Vec F S512x512 .f32) (x21 : Vec F S512x512 .f32) (x22 : Vec F S512x512 .f32) (x23 : Vec F S512x512 .f32) (x24 : Vec F S512x512 .f32) (x25 : Vec F S512x512 .f32) (x26 : Vec F S512x512 .f32) (xr : Vec F S1x512 .f32) : FVec F S1x512 .f32 :=
  rowBody xr (k0_pay2 (View.ld x1 r0_0)) (k0_pay3 (View.ld x2 r0_0)) (k0_pay4 (View.ld x3 r0_0)) (k0_pay5 (View.ld x4 r0_0)) (k0_pay6 (View.ld x5 r0_0)) (k0_pay7 (View.ld x6 r0_0)) (k0_pay8 (View.ld x7 r0_0)) (k0_pay9 (View.ld x8 r0_0)) (k0_pay10 (View.ld x9 r0_0)) (k0_pay11 (View.ld x10 r0_0)) (k0_pay12 (View.ld x11 r0_0)) (k0_pay13 (View.ld x12 r0_0)) (k0_pay14 (View.ld x13 r0_0)) (View.ld x14 r0_1) (View.ld x15 r0_1) (View.ld x16 r0_1) (k0_pay15 (View.ld x17 r0_0)) (k0_pay16 (View.ld x18 r0_0)) (k0_pay17 (View.ld x19 r0_0)) (k0_pay18 (View.ld x20 r0_0)) (k0_pay19 (View.ld x21 r0_0)) (k0_pay20 (View.ld x22 r0_0)) (k0_pay21 (View.ld x23 r0_0)) (k0_pay22 (View.ld x24 r0_0)) (k0_pay23 (View.ld x25 r0_0)) (k0_pay24 (View.ld x26 r0_0))

/-- What the body leaves in the output block is the eight rows' computations, row 7 stored last: both sides unfold to the same operations. -/
theorem out_eq_rows (x0 : Vec F S8x512 .f32) (x1 : Vec F S512x512 .f32) (x2 : Vec F S512x512 .f32) (x3 : Vec F S512x512 .f32) (x4 : Vec F S512x512 .f32) (x5 : Vec F S512x512 .f32) (x6 : Vec F S512x512 .f32) (x7 : Vec F S512x512 .f32) (x8 : Vec F S512x512 .f32) (x9 : Vec F S512x512 .f32) (x10 : Vec F S512x512 .f32) (x11 : Vec F S512x512 .f32) (x12 : Vec F S512x512 .f32) (x13 : Vec F S512x512 .f32) (x14 x15 x16 : Vec F S512 .f32) (x17 : Vec F S512x512 .f32) (x18 : Vec F S512x512 .f32) (x19 : Vec F S512x512 .f32) (x20 : Vec F S512x512 .f32) (x21 : Vec F S512x512 .f32) (x22 : Vec F S512x512 .f32) (x23 : Vec F S512x512 .f32) (x24 : Vec F S512x512 .f32) (x25 : Vec F S512x512 .f32) (x26 : Vec F S512x512 .f32) :
    out0_27 x0 x1 x2 x3 x4 x5 x6 x7 x8 x9 x10 x11 x12 x13 x14 x15 x16 x17 x18 x19 x20 x21 x22 x23 x24 x25 x26 = View.canon [⟨r0_9, rowAt x1 x2 x3 x4 x5 x6 x7 x8 x9 x10 x11 x12 x13 x14 x15 x16 x17 x18 x19 x20 x21 x22 x23 x24 x25 x26 (View.ld x0 r0_9)⟩, ⟨r0_8, rowAt x1 x2 x3 x4 x5 x6 x7 x8 x9 x10 x11 x12 x13 x14 x15 x16 x17 x18 x19 x20 x21 x22 x23 x24 x25 x26 (View.ld x0 r0_8)⟩, ⟨r0_7, rowAt x1 x2 x3 x4 x5 x6 x7 x8 x9 x10 x11 x12 x13 x14 x15 x16 x17 x18 x19 x20 x21 x22 x23 x24 x25 x26 (View.ld x0 r0_7)⟩, ⟨r0_6, rowAt x1 x2 x3 x4 x5 x6 x7 x8 x9 x10 x11 x12 x13 x14 x15 x16 x17 x18 x19 x20 x21 x22 x23 x24 x25 x26 (View.ld x0 r0_6)⟩,
      ⟨r0_5, rowAt x1 x2 x3 x4 x5 x6 x7 x8 x9 x10 x11 x12 x13 x14 x15 x16 x17 x18 x19 x20 x21 x22 x23 x24 x25 x26 (View.ld x0 r0_5)⟩, ⟨r0_4, rowAt x1 x2 x3 x4 x5 x6 x7 x8 x9 x10 x11 x12 x13 x14 x15 x16 x17 x18 x19 x20 x21 x22 x23 x24 x25 x26 (View.ld x0 r0_4)⟩, ⟨r0_3, rowAt x1 x2 x3 x4 x5 x6 x7 x8 x9 x10 x11 x12 x13 x14 x15 x16 x17 x18 x19 x20 x21 x22 x23 x24 x25 x26 (View.ld x0 r0_3)⟩, ⟨r0_2, rowAt x1 x2 x3 x4 x5 x6 x7 x8 x9 x10 x11 x12 x13 x14 x15 x16 x17 x18 x19 x20 x21 x22 x23 x24 x25 x26 (View.ld x0 r0_2)⟩] := rfl

end Cert.KernelIdeal.Row

end
-- ==== Proof.Spec.lean ====
/-
  The function both programs compute on ONE batch row, over the extended reals.

  A row `x : Fin 512 → R` is normalised over its 512 entries (mean, centred squares' mean, reciprocal square root of the
  variance plus ε, gain and shift). Its entry `d` then feeds TWO 512 × 512 planes `xn d · w + b` (the two slices of a
  trailing axis of length two). Three normalisations over whole planes follow: the first two take their mean and variance
  over BOTH planes together (2 · 512 · 512 entries), the third over one plane (512 · 512 entries); between them a leaky
  rectifier and a two-term product-sum with a shift. The last plane, plus the normalised row entry of its sublane `d`, is summed
  over `d`, shifted by a bias per lane `u`, and rectified.

  Every constant is kept as the pattern of its 32-bit word (512, 2¹⁹, 2¹⁸, the ε, the rectifier's slope): both programs carry
  the same words, so none is ever evaluated. A plane's total is the sum over sublanes of the sums over lanes.
-/
import Idealize.ShloMosaic.PureOps.Ideal
import Idealize.ShloMosaic.Lib.ValueIdx

noncomputable section

namespace Cert.Spec

open Idealize.ShloMosaic

/-- Scalars at the ideal instance: extended reals. -/
abbrev R : Type := Ideal .f32
/-- One value per lane (or per row entry). -/
abbrev Lane : Type := Fin 512 → R
/-- One value per (sublane, lane). -/
abbrev Plane : Type := Fin 512 → Fin 512 → R

/-- 512, the length of a row. -/
def nRow : R := Ideal.ofBits .f32 0x44000000#32
/-- 2¹⁹ = 2 · 512 · 512, the entries of two planes. -/
def nPair : R := Ideal.ofBits .f32 0x49000000#32
/-- 2¹⁸ = 512 · 512, the entries of one plane. -/
def nOne : R := Ideal.ofBits .f32 0x48800000#32
/-- The variance's ε. -/
def eps : R := Ideal.ofBits .f32 0x3727C5AC#32
/-- The rectifier's slope on the negative side. -/
def slope : R := Ideal.ofBits .f32 0x3C23D70A#32
/-- The zero word. -/
def zero : R := Ideal.ofBits .f32 0x00000000#32

/-- The leaky rectifier: `t` where `t ≥ 0`, else `slope · t` (the comparison and the choice are the programs' own). -/
def lrelu (t : R) : R := Scalar.select (FloatOps.cmpf .oge t zero) t (slope * t)

/-- A plane's total: over sublanes, of the sums over lanes. -/
def tot (a : Plane) : R := ∑ d : Fin 512, ∑ u : Fin 512, a d u

/-- Reciprocal standard deviation from a variance. -/
def istd (v : R) : R := Ideal.rsqrt (v + eps)

/-- The parameters, as planes and lanes: the two slices `_0`, `_1` of each trailing axis of length two apart. -/
structure Params where
  w1_0 : Plane
  w1_1 : Plane
  b1_0 : Plane
  b1_1 : Plane
  w21_0 : Plane
  w21_1 : Plane
  w22_0 : Plane
  w22_1 : Plane
  b21 : Plane
  b22 : Plane
  w3_0 : Plane
  w3_1 : Plane
  b3 : Plane
  bias : Lane
  g0 : Lane
  be0 : Lane
  g1_0 : Plane
  g1_1 : Plane
  be1_0 : Plane
  be1_1 : Plane
  g2_0 : Plane
  g2_1 : Plane
  be2_0 : Plane
  be2_1 : Plane
  g3 : Plane
  be3 : Plane

variable (P : Params) (x : Lane)

/-! ### The row's own normalisation -/
def mean0 : R := Ideal.div (∑ d : Fin 512, x d) nRow
def dev0 : Lane := fun d => x d - mean0 x
def var0 : R := Ideal.div (∑ d : Fin 512, dev0 x d * dev0 x d) nRow
def xn : Lane := fun d => dev0 x d * istd (var0 x) * P.g0 d + P.be0 d

/-! ### First pair of planes and their joint normalisation -/
def z0 : Plane := fun d u => xn P x d * P.w1_0 d u + P.b1_0 d u
def z1 : Plane := fun d u => xn P x d * P.w1_1 d u + P.b1_1 d u
def mean1 : R := Ideal.div (tot (z0 P x) + tot (z1 P x)) nPair
def c0 : Plane := fun d u => z0 P x d u - mean1 P x
def c1 : Plane := fun d u => z1 P x d u - mean1 P x
def var1 : R := Ideal.div (tot (fun d u => c0 P x d u * c0 P x d u) + tot (fun d u => c1 P x d u * c1 P x d u)) nPair
def h0 : Plane := fun d u => lrelu (c0 P x d u * istd (var1 P x) * P.g1_0 d u + P.be1_0 d u)
def h1 : Plane := fun d u => lrelu (c1 P x d u * istd (var1 P x) * P.g1_1 d u + P.be1_1 d u)

/-! ### Second pair: two product-sums over the slice axis, jointly normalised -/
def p0 : Plane := fun d u => h0 P x d u * P.w21_0 d u + h1 P x d u * P.w21_1 d u + P.b21 d u
def p1 : Plane := fun d u => h0 P x d u * P.w22_0 d u + h1 P x d u * P.w22_1 d u + P.b22 d u
def mean2 : R := Ideal.div (tot (p0 P x) + tot (p1 P x)) nPair
def e0 : Plane := fun d u => p0 P x d u - mean2 P x
def e1 : Plane := fun d u => p1 P x d u - mean2 P x
def var2 : R := Ideal.div (tot (fun d u => e0 P x d u * e0 P x d u) + tot (fun d u => e1 P x d u * e1 P x d u)) nPair
def q0 : Plane := fun d u => lrelu (e0 P x d u * istd (var2 P x) * P.g2_0 d u + P.be2_0 d u)
def q1 : Plane := fun d u => lrelu (e1 P x d u * istd (var2 P x) * P.g2_1 d u + P.be2_1 d u)

/-! ### Third plane, normalised alone; the sum over sublanes -/
def s3 : Plane := fun d u => q0 P x d u * P.w3_0 d u + q1 P x d u * P.w3_1 d u + P.b3 d u
def mean3 : R := Ideal.div (tot (s3 P x)) nOne
def f3 : Plane := fun d u => s3 P x d u - mean3 P x
def var3 : R := Ideal.div (tot (fun d u => f3 P x d u * f3 P x d u)) nOne
def pre : Plane := fun d u => f3 P x d u * istd (var3 P x) * P.g3 d u + P.be3 d u + xn P x d

/-- The row's result, one value per lane. -/
def rowOut : Lane := fun u => lrelu ((∑ d : Fin 512, pre P x d u) + P.bias u)

/-! ### From the argument arrays -/

open Idealize.ShloMosaic.ValueIdx in
/-- The parameters read out of the seventeen parameter arrays as the programs receive them: a leading axis of length one is
    read at `0`; a trailing axis of length two gives the two slices, one of length one is read at `0`. -/
def paramsOf (a1 a2 a3 a4 : (⟨4, ![1, 512, 512, 2]⟩ : Shape).Idx → R) (a5 a6 : (⟨4, ![1, 512, 512, 1]⟩ : Shape).Idx → R)
    (a7 : (⟨4, ![1, 512, 512, 2]⟩ : Shape).Idx → R) (a8 : (⟨4, ![1, 512, 512, 1]⟩ : Shape).Idx → R)
    (a9 a10 a11 : (⟨1, ![512]⟩ : Shape).Idx → R) (a12 a13 a14 a15 : (⟨3, ![512, 512, 2]⟩ : Shape).Idx → R)
    (a16 a17 : (⟨3, ![512, 512, 1]⟩ : Shape).Idx → R) : Params where
  w1_0 := fun d u => a1 (ix4 0 d u 0)
  w1_1 := fun d u => a1 (ix4 0 d u 1)
  b1_0 := fun d u => a2 (ix4 0 d u 0)
  b1_1 := fun d u => a2 (ix4 0 d u 1)
  w21_0 := fun d u => a3 (ix4 0 d u 0)
  w21_1 := fun d u => a3 (ix4 0 d u 1)
  w22_0 := fun d u => a4 (ix4 0 d u 0)
  w22_1 := fun d u => a4 (ix4 0 d u 1)
  b21 := fun d u => a5 (ix4 0 d u 0)
  b22 := fun d u => a6 (ix4 0 d u 0)
  w3_0 := fun d u => a7 (ix4 0 d u 0)
  w3_1 := fun d u => a7 (ix4 0 d u 1)
  b3 := fun d u => a8 (ix4 0 d u 0)
  bias := fun u => a9 (ix1 u)
  g0 := fun d => a10 (ix1 d)
  be0 := fun d => a11 (ix1 d)
  g1_0 := fun d u => a12 (ix3 d u 0)
  g1_1 := fun d u => a12 (ix3 d u 1)
  be1_0 := fun d u => a13 (ix3 d u 0)
  be1_1 := fun d u => a13 (ix3 d u 1)
  g2_0 := fun d u => a14 (ix3 d u 0)
  g2_1 := fun d u => a14 (ix3 d u 1)
  be2_0 := fun d u => a15 (ix3 d u 0)
  be2_1 := fun d u => a15 (ix3 d u 1)
  g3 := fun d u => a16 (ix3 d u 0)
  be3 := fun d u => a17 (ix3 d u 0)

open Idealize.ShloMosaic.ValueIdx in
/-- The whole result: entry `(b, u)` is lane `u` of row `b`'s result. -/
def G (a0 : (⟨2, ![64, 512]⟩ : Shape).Idx → R) (a1 a2 a3 a4 : (⟨4, ![1, 512, 512, 2]⟩ : Shape).Idx → R)
    (a5 a6 : (⟨4, ![1, 512, 512, 1]⟩ : Shape).Idx → R) (a7 : (⟨4, ![1, 512, 512, 2]⟩ : Shape).Idx → R)
    (a8 : (⟨4, ![1, 512, 512, 1]⟩ : Shape).Idx → R) (a9 a10 a11 : (⟨1, ![512]⟩ : Shape).Idx → R)
    (a12 a13 a14 a15 : (⟨3, ![512, 512, 2]⟩ : Shape).Idx → R) (a16 a17 : (⟨3, ![512, 512, 1]⟩ : Shape).Idx → R) :
    (⟨2, ![64, 512]⟩ : Shape).Idx → R :=
  fun j => rowOut (paramsOf a1 a2 a3 a4 a5 a6 a7 a8 a9 a10 a11 a12 a13 a14 a15 a16 a17) (fun d => a0 (ix2 (j 0) d)) (j 1)

end Cert.Spec

end
-- ==== Proof.RowValue.lean ====
/-
  The kernel's row computation, read at one lane over the extended reals, is the row function of the specification.

  `blockParams` reads the parameter blocks as planes and lanes (entry `(d, u)` of a block, entry `u` of a vector).
  `rowBody_apply`: lane `u` of the stored 1 × 512 vector is `Spec.rowOut` of the loaded row's entries. Each lane or sublane
  reduction of the body is a `Fin 512`-indexed sum, each re-laying of a value reads the same entry, and every other operation
  acts entry by entry, so the two sides are the same expression.
-/
import proofs.«167910_j23965917511984_1_alg».proof.Proof.RowBody
import proofs.«167910_j23965917511984_1_alg».proof.Proof.Spec
import Idealize.ShloMosaic.PureOps.Ideal.Laws
import Idealize.ShloMosaic.Lib.ValueLayout

noncomputable section

namespace Cert.KernelIdeal.Row

open Cert.KernelIdeal Cert.KernelIdeal.Gen Idealize.ShloMosaic Idealize.ShloMosaic.ValueIdx

/-- The parameter blocks as the specification's planes and lanes. -/
def blockParams (w1_0 : FVec Ideal S512x512 .f32) (w1_1 : FVec Ideal S512x512 .f32) (b1_0 : FVec Ideal S512x512 .f32) (b1_1 : FVec Ideal S512x512 .f32) (w21_0 : FVec Ideal S512x512 .f32) (w21_1 : FVec Ideal S512x512 .f32) (w22_0 : FVec Ideal S512x512 .f32) (w22_1 : FVec Ideal S512x512 .f32) (b21 : FVec Ideal S512x512 .f32) (b22 : FVec Ideal S512x512 .f32) (w3_0 : FVec Ideal S512x512 .f32) (w3_1 : FVec Ideal S512x512 .f32) (b3 : FVec Ideal S512x512 .f32) (bias g0 be0 : Vec Ideal S512 .f32) (g1_0 : FVec Ideal S512x512 .f32) (g1_1 : FVec Ideal S512x512 .f32) (be1_0 : FVec Ideal S512x512 .f32) (be1_1 : FVec Ideal S512x512 .f32) (g2_0 : FVec Ideal S512x512 .f32) (g2_1 : FVec Ideal S512x512 .f32) (be2_0 : FVec Ideal S512x512 .f32) (be2_1 : FVec Ideal S512x512 .f32) (g3 : FVec Ideal S512x512 .f32) (be3 : FVec Ideal S512x512 .f32) : Cert.Spec.Params where
  w1_0 := fun d u => w1_0 (ix2 d u)
  w1_1 := fun d u => w1_1 (ix2 d u)
  b1_0 := fun d u => b1_0 (ix2 d u)
  b1_1 := fun d u => b1_1 (ix2 d u)
  w21_0 := fun d u => w21_0 (ix2 d u)
  w21_1 := fun d u => w21_1 (ix2 d u)
  w22_0 := fun d u => w22_0 (ix2 d u)
  w22_1 := fun d u => w22_1 (ix2 d u)
  b21 := fun d u => b21 (ix2 d u)
  b22 := fun d u => b22 (ix2 d u)
  w3_0 := fun d u => w3_0 (ix2 d u)
  w3_1 := fun d u => w3_1 (ix2 d u)
  b3 := fun d u => b3 (ix2 d u)
  bias := fun u => bias (ix1 u)
  g0 := fun d => g0 (ix1 d)
  be0 := fun d => be0 (ix1 d)
  g1_0 := fun d u => g1_0 (ix2 d u)
  g1_1 := fun d u => g1_1 (ix2 d u)
  be1_0 := fun d u => be1_0 (ix2 d u)
  be1_1 := fun d u => be1_1 (ix2 d u)
  g2_0 := fun d u => g2_0 (ix2 d u)
  g2_1 := fun d u => g2_1 (ix2 d u)
  be2_0 := fun d u => be2_0 (ix2 d u)
  be2_1 := fun d u => be2_1 (ix2 d u)
  g3 := fun d u => g3 (ix2 d u)
  be3 := fun d u => be3 (ix2 d u)

/-! ### The staged definitions read at an entry -/

namespace Value

/-- The position (0, 0) of a 1 × 1 vector, as the extraction writes it, is the index (0, 0). -/
theorem pos00_eq : (fun a => (⟨(![0, 0] : Fin 2 → Nat) a, inpos_S1x1_p0_0 a⟩ : Fin (S1x1.size a))) = ix2 (0 : Fin 1) (0 : Fin 1) := by
  funext a; match a with | ⟨0, _⟩ => rfl | ⟨1, _⟩ => rfl

/-- A vector laid as a column reads, at (i, 0), its entry i. -/
theorem shapeCast_a_a1_apply {α : Type} {a : ℕ} (x : (⟨1, ![a]⟩ : Shape).Idx → α) (h : (⟨1, ![a]⟩ : Shape).ShapeCasts ⟨2, ![a, 1]⟩)
    (i : Fin a) (q : Fin 1) : shapeCast ⟨2, ![a, 1]⟩ x h (ix2 i q) = x (ix1 i) :=
  shapeCast_apply x h _ _ (by
    have hq : q.val = 0 := by omega
    rw [Shape.rowMajor_val_two, Shape.rowMajor_val_one]
    show i.val = i.val * 1 + q.val
    rw [hq, Nat.mul_one, Nat.add_zero])

/-- The index a lane reduction of a plane reads: sublane k, lane u. -/
theorem lift_lanes (k u : Fin 512) : reduces_S512x512_S512.lift (ix1 k) u = ix2 k u := by
  funext c; match c with | ⟨0, _⟩ => rfl | ⟨1, _⟩ => rfl

/-- The index a sublane reduction of a plane reads: sublane d, lane u. -/
theorem lift_sublanes (u d : Fin 512) : reduces_S512x512_S512_2.lift (ix1 u) d = ix2 d u := by
  funext c; match c with | ⟨0, _⟩ => rfl | ⟨1, _⟩ => rfl

/-- The index a sublane reduction of a column reads. -/
theorem lift_column (q : Fin 1) (k : Fin 512) : reduces_S512x1_S1.lift (ix1 q) k = ix2 k q := by
  funext c; match c with | ⟨0, _⟩ => rfl | ⟨1, _⟩ => rfl

/-- The index a lane reduction of a row reads. -/
theorem lift_row (p : Fin 1) (k : Fin 512) : reduces_S1x512_S1.lift (ix1 p) k = ix2 p k := by
  funext c; match c with | ⟨0, _⟩ => rfl | ⟨1, _⟩ => rfl

/-- A 512-vector's total is the sum of its entries. -/
theorem laneTotal_eq (v : FVec Ideal S512 .f32) : laneTotal (F := Ideal) v = ∑ d : Fin 512, v (ix1 d) := by
  unfold laneTotal extractAt
  rw [pos00_eq, shapeCast_a_1a_apply]
  refine (Ideal.multiReduction_add_single _ _ _ _ _ _).trans ?_
  refine Finset.sum_congr rfl fun (k : Fin 512) _ => ?_
  rw [lift_row]
  exact shapeCast_a_1a_apply v shapeCasts_S512_S1x512 (0 : Fin 1) k

/-- Its mean, at the one entry. -/
theorem laneMean_apply (v : FVec Ideal S512 .f32) (i : S1.Idx) :
    laneMean (F := Ideal) v i = Ideal.div (∑ d : Fin 512, v (ix1 d)) Cert.Spec.nRow := by
  show Ideal.div (laneTotal (F := Ideal) v) (Ideal.ofBits .f32 0x44000000#32) = _
  rw [laneTotal_eq]; rfl

/-- A plane's total, at the one entry, is the double sum. -/
theorem total_apply (a : FVec Ideal S512x512 .f32) (p q : Fin 1) :
    total (F := Ideal) a (ix2 p q) = Cert.Spec.tot fun d u => a (ix2 d u) := by
  unfold total Cert.Spec.tot
  rw [shapeCast_a_1a_apply]
  refine (Ideal.multiReduction_add_single _ _ _ _ _ _).trans ?_
  refine Finset.sum_congr rfl fun (k : Fin 512) _ => ?_
  rw [lift_column]
  refine (shapeCast_a_a1_apply _ shapeCasts_S512_S512x1 k q).trans ?_
  refine (Ideal.multiReduction_add_single _ _ _ _ _ _).trans ?_
  refine Finset.sum_congr rfl fun (u : Fin 512) _ => ?_
  rw [lift_lanes]

/-- A 1 × 1 value spread over a plane reads that value everywhere. -/
theorem spread_apply (v : FVec Ideal S1x1 .f32) (d u : Fin 512) : spread (F := Ideal) v (ix2 d u) = v (ix2 0 0) := by
  unfold spread
  refine broadcastTo_apply v _ _ (ix2 (0 : Fin 1) (0 : Fin 1)) fun ax => ?_
  match ax with
  | ⟨0, _⟩ => rfl
  | ⟨1, _⟩ => rfl

/-- A column spread along lanes reads the column's entry of the same sublane. -/
theorem colPlane_apply (c : FVec Ideal S512x1 .f32) (d u : Fin 512) : colPlane (F := Ideal) c (ix2 d u) = c (ix2 d 0) := by
  unfold colPlane
  refine broadcastTo_apply c _ _ (ix2 d (0 : Fin 1)) fun ax => ?_
  match ax with
  | ⟨0, _⟩ => rfl
  | ⟨1, _⟩ => rfl

/-- The reciprocal standard deviation, at an entry. -/
theorem istd_apply (v : FVec Ideal S1x1 .f32) (i : S1x1.Idx) : istd (F := Ideal) v i = Cert.Spec.istd (v i) := rfl

/-- The rectifier on a plane, at an entry. -/
theorem lrelu_apply (t : FVec Ideal S512x512 .f32) (i : S512x512.Idx) : lrelu (F := Ideal) t i = Cert.Spec.lrelu (t i) := rfl

/-- The rectifier on a 512-vector, at an entry. -/
theorem lreluLane_apply (t : FVec Ideal S512 .f32) (i : S512.Idx) : lreluLane (F := Ideal) t i = Cert.Spec.lrelu (t i) := rfl

/-- The mean of two planes together, at the one entry. -/
theorem pairMean_apply (a b : FVec Ideal S512x512 .f32) (p q : Fin 1) :
    pairMean (F := Ideal) a b (ix2 p q)
      = Ideal.div ((Cert.Spec.tot fun d u => a (ix2 d u)) + Cert.Spec.tot fun d u => b (ix2 d u)) Cert.Spec.nPair := by
  show Ideal.div (total (F := Ideal) a (ix2 p q) + total (F := Ideal) b (ix2 p q)) (Ideal.ofBits .f32 0x49000000#32) = _
  rw [total_apply, total_apply]; rfl

/-- The mean of one plane, at the one entry. -/
theorem oneMean_apply (a : FVec Ideal S512x512 .f32) (p q : Fin 1) :
    oneMean (F := Ideal) a (ix2 p q) = Ideal.div (Cert.Spec.tot fun d u => a (ix2 d u)) Cert.Spec.nOne := by
  show Ideal.div (total (F := Ideal) a (ix2 p q)) (Ideal.ofBits .f32 0x48800000#32) = _
  rw [total_apply]; rfl

/-- One value spread over a 512-vector reads that value everywhere. -/
theorem broadcastTo_1_a_apply {α : Type} {a : ℕ} (v : (⟨1, ![1]⟩ : Shape).Idx → α) (h : (⟨1, ![1]⟩ : Shape).Broadcasts ⟨1, ![a]⟩)
    (i : Fin a) : broadcastTo ⟨1, ![a]⟩ v h (ix1 i) = v (ix1 (0 : Fin 1)) := by
  refine broadcastTo_apply v h (ix1 i) (ix1 (0 : Fin 1)) fun ax => ?_
  match ax with
  | ⟨0, _⟩ => rfl

/-- The row's normalised entries, as the column holds them. -/
theorem xcol_apply (xrow : Vec Ideal S1x512 .f32) (g0 be0 : Vec Ideal S512 .f32) (d : Fin 512) (q : Fin 1) :
    xcol (F := Ideal) xrow g0 be0 (ix2 d q)
      = Cert.Spec.dev0 (fun d => xrow (ix2 0 d)) d * Cert.Spec.istd (Cert.Spec.var0 fun d => xrow (ix2 0 d)) * g0 (ix1 d) + be0 (ix1 d) := by
  unfold xcol
  generalize hxr : shapeCast S512 xrow shapeCasts_S1x512_S512 = xr
  have Hxr : ∀ e : Fin 512, xr (ix1 e) = xrow (ix2 0 e) := fun e => by
    rw [← hxr]; exact shapeCast_1a_a_apply xrow shapeCasts_S1x512_S512 e
  clear hxr
  generalize hdev : subf xr (broadcastTo S512 (laneMean (F := Ideal) xr) broadcasts_S1_S512) = dev
  have Hdev : ∀ e : Fin 512, dev (ix1 e) = Cert.Spec.dev0 (fun d => xrow (ix2 0 d)) e := fun e => by
    rw [← hdev, subf_apply, broadcastTo_1_a_apply, laneMean_apply, Hxr]
    simp only [Hxr]
    rfl
  clear hdev
  generalize hinv : rsqrt (addf (laneMean (F := Ideal) (mulf dev dev)) (broadcast S1 (Scalar.ofBits .f32 0x3727C5AC#32))) = inv
  have Hinv : ∀ i, inv i = Cert.Spec.istd (Cert.Spec.var0 fun d => xrow (ix2 0 d)) := fun i => by
    rw [← hinv]
    show Ideal.rsqrt (laneMean (F := Ideal) (mulf dev dev) i + Ideal.ofBits .f32 0x3727C5AC#32) = _
    rw [laneMean_apply]
    simp only [mulf_apply, Hdev]
    rfl
  clear hinv
  rw [shapeCast_a_a1_apply, addf_apply, mulf_apply, mulf_apply, broadcastTo_1_a_apply, Hdev, Hinv]

end Value

open Value

/-- Lane `u` of the row computation is the specification's row function at `u`. -/
theorem rowBody_apply (xrow : Vec Ideal S1x512 .f32) (w1_0 : FVec Ideal S512x512 .f32) (w1_1 : FVec Ideal S512x512 .f32) (b1_0 : FVec Ideal S512x512 .f32) (b1_1 : FVec Ideal S512x512 .f32) (w21_0 : FVec Ideal S512x512 .f32) (w21_1 : FVec Ideal S512x512 .f32) (w22_0 : FVec Ideal S512x512 .f32) (w22_1 : FVec Ideal S512x512 .f32) (b21 : FVec Ideal S512x512 .f32) (b22 : FVec Ideal S512x512 .f32) (w3_0 : FVec Ideal S512x512 .f32) (w3_1 : FVec Ideal S512x512 .f32) (b3 : FVec Ideal S512x512 .f32) (bias g0 be0 : Vec Ideal S512 .f32) (g1_0 : FVec Ideal S512x512 .f32) (g1_1 : FVec Ideal S512x512 .f32) (be1_0 : FVec Ideal S512x512 .f32) (be1_1 : FVec Ideal S512x512 .f32) (g2_0 : FVec Ideal S512x512 .f32) (g2_1 : FVec Ideal S512x512 .f32) (be2_0 : FVec Ideal S512x512 .f32) (be2_1 : FVec Ideal S512x512 .f32) (g3 : FVec Ideal S512x512 .f32) (be3 : FVec Ideal S512x512 .f32) (u : Fin 512) :
    rowBody (F := Ideal) xrow w1_0 w1_1 b1_0 b1_1 w21_0 w21_1 w22_0 w22_1 b21 b22 w3_0 w3_1 b3 bias g0 be0 g1_0 g1_1 be1_0 be1_1 g2_0 g2_1 be2_0 be2_1 g3 be3 (ix2 0 u)
      = Cert.Spec.rowOut (blockParams w1_0 w1_1 b1_0 b1_1 w21_0 w21_1 w22_0 w22_1 b21 b22 w3_0 w3_1 b3 bias g0 be0 g1_0 g1_1 be1_0 be1_1 g2_0 g2_1 be2_0 be2_1 g3 be3) (fun d => xrow (ix2 0 d)) u := by
  set P : Cert.Spec.Params := blockParams w1_0 w1_1 b1_0 b1_1 w21_0 w21_1 w22_0 w22_1 b21 b22 w3_0 w3_1 b3 bias g0 be0 g1_0 g1_1 be1_0 be1_1 g2_0 g2_1 be2_0 be2_1 g3 be3 with hP
  set x : Cert.Spec.Lane := fun d => xrow (ix2 0 d) with hx
  unfold rowBody
  -- the row's normalised entries
  generalize hxc : xcol (F := Ideal) xrow g0 be0 = xc
  have Hxc : ∀ (d : Fin 512) (q : Fin 1), xc (ix2 d q) = Cert.Spec.xn P x d := fun d q => by
    rw [← hxc, xcol_apply]; rfl
  clear hxc
  -- the first pair of planes, their joint mean and variance, the rectifier
  generalize hzA : addf (mulf (colPlane xc) w1_0) b1_0 = zA
  have HzA : ∀ d u : Fin 512, zA (ix2 d u) = Cert.Spec.z0 P x d u := fun d u => by
    rw [← hzA, addf_apply, mulf_apply, colPlane_apply, Hxc]; rfl
  clear hzA
  generalize hzB : addf (mulf (colPlane xc) w1_1) b1_1 = zB
  have HzB : ∀ d u : Fin 512, zB (ix2 d u) = Cert.Spec.z1 P x d u := fun d u => by
    rw [← hzB, addf_apply, mulf_apply, colPlane_apply, Hxc]; rfl
  clear hzB
  generalize hm1 : pairMean zA zB = m1
  have Hm1 : m1 (ix2 0 0) = Cert.Spec.mean1 P x := by
    rw [← hm1, pairMean_apply]; simp only [HzA, HzB]; rfl
  clear hm1
  generalize hcA : subf zA (spread m1) = cA
  have HcA : ∀ d u : Fin 512, cA (ix2 d u) = Cert.Spec.c0 P x d u := fun d u => by
    rw [← hcA, subf_apply, spread_apply, HzA, Hm1]; rfl
  clear hcA
  generalize hcB : subf zB (spread m1) = cB
  have HcB : ∀ d u : Fin 512, cB (ix2 d u) = Cert.Spec.c1 P x d u := fun d u => by
    rw [← hcB, subf_apply, spread_apply, HzB, Hm1]; rfl
  clear hcB
  generalize hi1 : istd (pairMean (mulf cA cA) (mulf cB cB)) = i1
  have Hi1 : i1 (ix2 0 0) = Cert.Spec.istd (Cert.Spec.var1 P x) := by
    rw [← hi1, istd_apply, pairMean_apply]; simp only [mulf_apply, HcA, HcB]; rfl
  clear hi1
  generalize hhA : lrelu (addf (mulf (mulf cA (spread i1)) g1_0) be1_0) = hA
  have HhA : ∀ d u : Fin 512, hA (ix2 d u) = Cert.Spec.h0 P x d u := fun d u => by
    rw [← hhA, lrelu_apply, addf_apply, mulf_apply, mulf_apply, spread_apply, HcA, Hi1]; rfl
  clear hhA
  generalize hhB : lrelu (addf (mulf (mulf cB (spread i1)) g1_1) be1_1) = hB
  have HhB : ∀ d u : Fin 512, hB (ix2 d u) = Cert.Spec.h1 P x d u := fun d u => by
    rw [← hhB, lrelu_apply, addf_apply, mulf_apply, mulf_apply, spread_apply, HcB, Hi1]; rfl
  clear hhB
  -- the second pair: two product-sums, their joint mean and variance, the rectifier
  generalize hpA : addf (addf (mulf hA w21_0) (mulf hB w21_1)) b21 = pA
  have HpA : ∀ d u : Fin 512, pA (ix2 d u) = Cert.Spec.p0 P x d u := fun d u => by
    rw [← hpA, addf_apply, addf_apply, mulf_apply, mulf_apply, HhA, HhB]; rfl
  clear hpA
  generalize hpB : addf (addf (mulf hA w22_0) (mulf hB w22_1)) b22 = pB
  have HpB : ∀ d u : Fin 512, pB (ix2 d u) = Cert.Spec.p1 P x d u := fun d u => by
    rw [← hpB, addf_apply, addf_apply, mulf_apply, mulf_apply, HhA, HhB]; rfl
  clear hpB
  generalize hm2 : pairMean pA pB = m2
  have Hm2 : m2 (ix2 0 0) = Cert.Spec.mean2 P x := by
    rw [← hm2, pairMean_apply]; simp only [HpA, HpB]; rfl
  clear hm2
  generalize heA : subf pA (spread m2) = eA
  have HeA : ∀ d u : Fin 512, eA (ix2 d u) = Cert.Spec.e0 P x d u := fun d u => by
    rw [← heA, subf_apply, spread_apply, HpA, Hm2]; rfl
  clear heA
  generalize heB : subf pB (spread m2) = eB
  have HeB : ∀ d u : Fin 512, eB (ix2 d u) = Cert.Spec.e1 P x d u := fun d u => by
    rw [← heB, subf_apply, spread_apply, HpB, Hm2]; rfl
  clear heB
  generalize hi2 : istd (pairMean (mulf eA eA) (mulf eB eB)) = i2
  have Hi2 : i2 (ix2 0 0) = Cert.Spec.istd (Cert.Spec.var2 P x) := by
    rw [← hi2, istd_apply, pairMean_apply]; simp only [mulf_apply, HeA, HeB]; rfl
  clear hi2
  generalize hqA : lrelu (addf (mulf (mulf eA (spread i2)) g2_0) be2_0) = qA
  have HqA : ∀ d u : Fin 512, qA (ix2 d u) = Cert.Spec.q0 P x d u := fun d u => by
    rw [← hqA, lrelu_apply, addf_apply, mulf_apply, mulf_apply, spread_apply, HeA, Hi2]; rfl
  clear hqA
  generalize hqB : lrelu (addf (mulf (mulf eB (spread i2)) g2_1) be2_1) = qB
  have HqB : ∀ d u : Fin 512, qB (ix2 d u) = Cert.Spec.q1 P x d u := fun d u => by
    rw [← hqB, lrelu_apply, addf_apply, mulf_apply, mulf_apply, spread_apply, HeB, Hi2]; rfl
  clear hqB
  -- the third plane, normalised alone
  generalize hs : addf (addf (mulf qA w3_0) (mulf qB w3_1)) b3 = s
  have Hs : ∀ d u : Fin 512, s (ix2 d u) = Cert.Spec.s3 P x d u := fun d u => by
    rw [← hs, addf_apply, addf_apply, mulf_apply, mulf_apply, HqA, HqB]; rfl
  clear hs
  generalize hf : subf s (spread (oneMean s)) = f
  have Hf : ∀ d u : Fin 512, f (ix2 d u) = Cert.Spec.f3 P x d u := fun d u => by
    rw [← hf, subf_apply, spread_apply, oneMean_apply, Hs]; simp only [Hs]; rfl
  clear hf
  generalize hi3 : istd (oneMean (mulf f f)) = i3
  have Hi3 : i3 (ix2 0 0) = Cert.Spec.istd (Cert.Spec.var3 P x) := by
    rw [← hi3, istd_apply, oneMean_apply]; simp only [mulf_apply, Hf]; rfl
  clear hi3
  generalize hpre : addf (addf (mulf (mulf f (spread i3)) g3) be3) (colPlane xc) = pre
  have Hpre : ∀ d u : Fin 512, pre (ix2 d u) = Cert.Spec.pre P x d u := fun d u => by
    rw [← hpre, addf_apply, addf_apply, mulf_apply, mulf_apply, spread_apply, colPlane_apply, Hf, Hi3, Hxc]; rfl
  clear hpre
  -- the sum over sublanes, the bias, the rectifier
  rw [shapeCast_a_1a_apply, lreluLane_apply, addf_apply]
  refine congrArg (fun t => Cert.Spec.lrelu (t + bias (ix1 u))) ?_
  refine (Ideal.multiReduction_add_single _ _ _ _ _ _).trans ?_
  refine Finset.sum_congr rfl fun (d : Fin 512) _ => ?_
  rw [lift_sublanes, Hpre]

end Cert.KernelIdeal.Row

end
-- ==== Proof.KernelWindows.lean ====
/-
  The arrays the kernel's windows stage, entry by entry, in terms of the program's arguments.

  Before the kernel is launched the program cuts each parameter array into planes: a parameter of extents (1, 512, 512, 2) or
  (512, 512, 2) gives its two slices along the last axis, each re-laid as a 512 × 512 array; one whose last axis has length one
  is only re-laid. So entry `(d, u)` of a staged plane is the parameter's entry `(0, d, u, k)` (or `(d, u, k)`), `k` the slice.
-/
import proofs.«167910_j23965917511984_1_alg».proof.Proof.KernelIdealFrameP
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Windows

open Cert.KernelIdeal Cert.KernelIdeal.Gen Cert.KernelIdeal.GenP Idealize.ShloMosaic Idealize.ShloMosaic.TcCoe Idealize.SL.Sem Idealize.ShloMosaic.ValueIdx

variable (m : (ℓ : Loc nD τ sig) → Buf (Elt Ideal) ℓ)

/-! ## A slice along the last axis, or none, then the re-laying: the entry read -/

section Generic
variable {α : Type}

/-- Slice `k` along the last axis of a (1, 512, 512, 2) array, re-laid as 512 × 512: its entry `(d, u)` is the
    array's entry `(0, d, u, k)` (the re-laying keeps the row-major position `d * 512 + u`; the slice shifts the last
    coordinate by `k`). -/
private theorem slice4_plane (k : Nat) (x : S1x512x512x2.Idx → α)
    (hs : S1x512x512x2.Slices ![0, 0, 0, k] S1x512x512x1) (hc : S1x512x512x1.ShapeCasts S512x512)
    (d u : Fin 512) (e : Fin 2) (he : e.val = k) {v : S512x512.Idx → α}
    (hv : v = shapeCast S512x512 (extractStridedSlice S1x512x512x1 ![0, 0, 0, k] x hs) hc) :
    v (ix2 d u) = x (ix4 0 d u e) := by
  subst hv
  refine (shapeCast_apply _ hc (ix2 d u) (ix4 0 d u 0) ?_).trans ?_
  · rw [Shape.rowMajor_val_four, Shape.rowMajor_val_two]
    show (((0 * 512 + d.val) * 512 + u.val) * 1 + 0) = d.val * 512 + u.val
    omega
  · exact extractStridedSlice_apply _ x hs _ _ (fun a => by
      match a with
      | ⟨0, _⟩ => rfl
      | ⟨1, _⟩ => exact (Nat.zero_add _).symm
      | ⟨2, _⟩ => exact (Nat.zero_add _).symm
      | ⟨3, _⟩ => show e.val = k + 0; omega)

/-- Slice `k` along the last axis of a (512, 512, 2) array, re-laid as 512 × 512: its entry `(d, u)` is the array's
    entry `(d, u, k)`. -/
private theorem slice3_plane (k : Nat) (x : S512x512x2.Idx → α)
    (hs : S512x512x2.Slices ![0, 0, k] S512x512x1) (hc : S512x512x1.ShapeCasts S512x512)
    (d u : Fin 512) (e : Fin 2) (he : e.val = k) {v : S512x512.Idx → α}
    (hv : v = shapeCast S512x512 (extractStridedSlice S512x512x1 ![0, 0, k] x hs) hc) :
    v (ix2 d u) = x (ix3 d u e) := by
  subst hv
  refine (shapeCast_apply _ hc (ix2 d u) (ix3 d u 0) ?_).trans ?_
  · rw [Shape.rowMajor_val_three, Shape.rowMajor_val_two]
    show ((d.val * 512 + u.val) * 1 + 0) = d.val * 512 + u.val
    omega
  · exact extractStridedSlice_apply _ x hs _ _ (fun a => by
      match a with
      | ⟨0, _⟩ => exact (Nat.zero_add _).symm
      | ⟨1, _⟩ => exact (Nat.zero_add _).symm
      | ⟨2, _⟩ => show e.val = k + 0; omega)

/-- A (1, 512, 512, 1) array re-laid as 512 × 512: its entry `(d, u)` is the array's entry `(0, d, u, 0)`. -/
private theorem relaid4_plane (x : S1x512x512x1.Idx → α) (hc : S1x512x512x1.ShapeCasts S512x512) (d u : Fin 512)
    {v : S512x512.Idx → α} (hv : v = shapeCast S512x512 x hc) :
    v (ix2 d u) = x (ix4 0 d u 0) := by
  subst hv
  refine shapeCast_apply _ hc (ix2 d u) (ix4 0 d u 0) ?_
  rw [Shape.rowMajor_val_four, Shape.rowMajor_val_two]
  show (((0 * 512 + d.val) * 512 + u.val) * 1 + 0) = d.val * 512 + u.val
  omega

/-- A (512, 512, 1) array re-laid as 512 × 512: its entry `(d, u)` is the array's entry `(d, u, 0)`. -/
private theorem relaid3_plane (x : S512x512x1.Idx → α) (hc : S512x512x1.ShapeCasts S512x512) (d u : Fin 512)
    {v : S512x512.Idx → α} (hv : v = shapeCast S512x512 x hc) :
    v (ix2 d u) = x (ix3 d u 0) := by
  subst hv
  refine shapeCast_apply _ hc (ix2 d u) (ix3 d u 0) ?_
  rw [Shape.rowMajor_val_three, Shape.rowMajor_val_two]
  show ((d.val * 512 + u.val) * 1 + 0) = d.val * 512 + u.val
  omega

end Generic

/-- The array a buffer holds once the host operations have run, as a term over the launched arrays: each operation's
    result is read at its own buffer, and every other buffer keeps what it held. -/
local macro "staged_term" : tactic => `(tactic| (dsimp only [V, hostOps0]; after_results; rfl))

/-! ## The 23 planes -/

/-- The plane staged for `w1_0`. -/
theorem plane_w1_0 (c : Dev nD) (d u : Fin 512) :
    (V (F := Ideal) m c main_v1 : S512x512.Idx → Ideal .f32) (ix2 d u) = (m ((c : Thread nD τ).loc main_arg1) : S1x512x512x2.Idx → Ideal .f32) (ix4 0 d u 0) :=
  slice4_plane 0 (m ((c : Thread nD τ).loc main_arg1)) slices_S1x512x512x2_S1x512x512x1_0_0_0_0 shapeCasts_S1x512x512x1_S512x512 d u 0 rfl (by staged_term)

/-- The plane staged for `w1_1`. -/
theorem plane_w1_1 (c : Dev nD) (d u : Fin 512) :
    (V (F := Ideal) m c main_v3 : S512x512.Idx → Ideal .f32) (ix2 d u) = (m ((c : Thread nD τ).loc main_arg1) : S1x512x512x2.Idx → Ideal .f32) (ix4 0 d u 1) :=
  slice4_plane 1 (m ((c : Thread nD τ).loc main_arg1)) slices_S1x512x512x2_S1x512x512x1_0_0_0_1 shapeCasts_S1x512x512x1_S512x512 d u 1 rfl (by staged_term)

/-- The plane staged for `b1_0`. -/
theorem plane_b1_0 (c : Dev nD) (d u : Fin 512) :
    (V (F := Ideal) m c main_v5 : S512x512.Idx → Ideal .f32) (ix2 d u) = (m ((c : Thread nD τ).loc main_arg2) : S1x512x512x2.Idx → Ideal .f32) (ix4 0 d u 0) :=
  slice4_plane 0 (m ((c : Thread nD τ).loc main_arg2)) slices_S1x512x512x2_S1x512x512x1_0_0_0_0 shapeCasts_S1x512x512x1_S512x512 d u 0 rfl (by staged_term)

/-- The plane staged for `b1_1`. -/
theorem plane_b1_1 (c : Dev nD) (d u : Fin 512) :
    (V (F := Ideal) m c main_v7 : S512x512.Idx → Ideal .f32) (ix2 d u) = (m ((c : Thread nD τ).loc main_arg2) : S1x512x512x2.Idx → Ideal .f32) (ix4 0 d u 1) :=
  slice4_plane 1 (m ((c : Thread nD τ).loc main_arg2)) slices_S1x512x512x2_S1x512x512x1_0_0_0_1 shapeCasts_S1x512x512x1_S512x512 d u 1 rfl (by staged_term)

/-- The plane staged for `w21_0`. -/
theorem plane_w21_0 (c : Dev nD) (d u : Fin 512) :
    (V (F := Ideal) m c main_v9 : S512x512.Idx → Ideal .f32) (ix2 d u) = (m ((c : Thread nD τ).loc main_arg3) : S1x512x512x2.Idx → Ideal .f32) (ix4 0 d u 0) :=
  slice4_plane 0 (m ((c : Thread nD τ).loc main_arg3)) slices_S1x512x512x2_S1x512x512x1_0_0_0_0 shapeCasts_S1x512x512x1_S512x512 d u 0 rfl (by staged_term)

/-- The plane staged for `w21_1`. -/
theorem plane_w21_1 (c : Dev nD) (d u : Fin 512) :
    (V (F := Ideal) m c main_v11 : S512x512.Idx → Ideal .f32) (ix2 d u) = (m ((c : Thread nD τ).loc main_arg3) : S1x512x512x2.Idx → Ideal .f32) (ix4 0 d u 1) :=
  slice4_plane 1 (m ((c : Thread nD τ).loc main_arg3)) slices_S1x512x512x2_S1x512x512x1_0_0_0_1 shapeCasts_S1x512x512x1_S512x512 d u 1 rfl (by staged_term)

/-- The plane staged for `w22_0`. -/
theorem plane_w22_0 (c : Dev nD) (d u : Fin 512) :
    (V (F := Ideal) m c main_v13 : S512x512.Idx → Ideal .f32) (ix2 d u) = (m ((c : Thread nD τ).loc main_arg4) : S1x512x512x2.Idx → Ideal .f32) (ix4 0 d u 0) :=
  slice4_plane 0 (m ((c : Thread nD τ).loc main_arg4)) slices_S1x512x512x2_S1x512x512x1_0_0_0_0 shapeCasts_S1x512x512x1_S512x512 d u 0 rfl (by staged_term)

/-- The plane staged for `w22_1`. -/
theorem plane_w22_1 (c : Dev nD) (d u : Fin 512) :
    (V (F := Ideal) m c main_v15 : S512x512.Idx → Ideal .f32) (ix2 d u) = (m ((c : Thread nD τ).loc main_arg4) : S1x512x512x2.Idx → Ideal .f32) (ix4 0 d u 1) :=
  slice4_plane 1 (m ((c : Thread nD τ).loc main_arg4)) slices_S1x512x512x2_S1x512x512x1_0_0_0_1 shapeCasts_S1x512x512x1_S512x512 d u 1 rfl (by staged_term)

/-- The plane staged for `b21`. -/
theorem plane_b21 (c : Dev nD) (d u : Fin 512) :
    (V (F := Ideal) m c main_v20 : S512x512.Idx → Ideal .f32) (ix2 d u) = (m ((c : Thread nD τ).loc main_arg5) : S1x512x512x1.Idx → Ideal .f32) (ix4 0 d u 0) :=
  relaid4_plane (m ((c : Thread nD τ).loc main_arg5)) shapeCasts_S1x512x512x1_S512x512 d u (by staged_term)

/-- The plane staged for `b22`. -/
theorem plane_b22 (c : Dev nD) (d u : Fin 512) :
    (V (F := Ideal) m c main_v21 : S512x512.Idx → Ideal .f32) (ix2 d u) = (m ((c : Thread nD τ).loc main_arg6) : S1x512x512x1.Idx → Ideal .f32) (ix4 0 d u 0) :=
  relaid4_plane (m ((c : Thread nD τ).loc main_arg6)) shapeCasts_S1x512x512x1_S512x512 d u (by staged_term)

/-- The plane staged for `w3_0`. -/
theorem plane_w3_0 (c : Dev nD) (d u : Fin 512) :
    (V (F := Ideal) m c main_v17 : S512x512.Idx → Ideal .f32) (ix2 d u) = (m ((c : Thread nD τ).loc main_arg7) : S1x512x512x2.Idx → Ideal .f32) (ix4 0 d u 0) :=
  slice4_plane 0 (m ((c : Thread nD τ).loc main_arg7)) slices_S1x512x512x2_S1x512x512x1_0_0_0_0 shapeCasts_S1x512x512x1_S512x512 d u 0 rfl (by staged_term)

/-- The plane staged for `w3_1`. -/
theorem plane_w3_1 (c : Dev nD) (d u : Fin 512) :
    (V (F := Ideal) m c main_v19 : S512x512.Idx → Ideal .f32) (ix2 d u) = (m ((c : Thread nD τ).loc main_arg7) : S1x512x512x2.Idx → Ideal .f32) (ix4 0 d u 1) :=
  slice4_plane 1 (m ((c : Thread nD τ).loc main_arg7)) slices_S1x512x512x2_S1x512x512x1_0_0_0_1 shapeCasts_S1x512x512x1_S512x512 d u 1 rfl (by staged_term)

/-- The plane staged for `b3`. -/
theorem plane_b3 (c : Dev nD) (d u : Fin 512) :
    (V (F := Ideal) m c main_v22 : S512x512.Idx → Ideal .f32) (ix2 d u) = (m ((c : Thread nD τ).loc main_arg8) : S1x512x512x1.Idx → Ideal .f32) (ix4 0 d u 0) :=
  relaid4_plane (m ((c : Thread nD τ).loc main_arg8)) shapeCasts_S1x512x512x1_S512x512 d u (by staged_term)

/-- The plane staged for `g1_0`. -/
theorem plane_g1_0 (c : Dev nD) (d u : Fin 512) :
    (V (F := Ideal) m c main_v24 : S512x512.Idx → Ideal .f32) (ix2 d u) = (m ((c : Thread nD τ).loc main_arg12) : S512x512x2.Idx → Ideal .f32) (ix3 d u 0) :=
  slice3_plane 0 (m ((c : Thread nD τ).loc main_arg12)) slices_S512x512x2_S512x512x1_0_0_0 shapeCasts_S512x512x1_S512x512 d u 0 rfl (by staged_term)

/-- The plane staged for `g1_1`. -/
theorem plane_g1_1 (c : Dev nD) (d u : Fin 512) :
    (V (F := Ideal) m c main_v26 : S512x512.Idx → Ideal .f32) (ix2 d u) = (m ((c : Thread nD τ).loc main_arg12) : S512x512x2.Idx → Ideal .f32) (ix3 d u 1) :=
  slice3_plane 1 (m ((c : Thread nD τ).loc main_arg12)) slices_S512x512x2_S512x512x1_0_0_1 shapeCasts_S512x512x1_S512x512 d u 1 rfl (by staged_term)

/-- The plane staged for `be1_0`. -/
theorem plane_be1_0 (c : Dev nD) (d u : Fin 512) :
    (V (F := Ideal) m c main_v28 : S512x512.Idx → Ideal .f32) (ix2 d u) = (m ((c : Thread nD τ).loc main_arg13) : S512x512x2.Idx → Ideal .f32) (ix3 d u 0) :=
  slice3_plane 0 (m ((c : Thread nD τ).loc main_arg13)) slices_S512x512x2_S512x512x1_0_0_0 shapeCasts_S512x512x1_S512x512 d u 0 rfl (by staged_term)

/-- The plane staged for `be1_1`. -/
theorem plane_be1_1 (c : Dev nD) (d u : Fin 512) :
    (V (F := Ideal) m c main_v30 : S512x512.Idx → Ideal .f32) (ix2 d u) = (m ((c : Thread nD τ).loc main_arg13) : S512x512x2.Idx → Ideal .f32) (ix3 d u 1) :=
  slice3_plane 1 (m ((c : Thread nD τ).loc main_arg13)) slices_S512x512x2_S512x512x1_0_0_1 shapeCasts_S512x512x1_S512x512 d u 1 rfl (by staged_term)

/-- The plane staged for `g2_0`. -/
theorem plane_g2_0 (c : Dev nD) (d u : Fin 512) :
    (V (F := Ideal) m c main_v32 : S512x512.Idx → Ideal .f32) (ix2 d u) = (m ((c : Thread nD τ).loc main_arg14) : S512x512x2.Idx → Ideal .f32) (ix3 d u 0) :=
  slice3_plane 0 (m ((c : Thread nD τ).loc main_arg14)) slices_S512x512x2_S512x512x1_0_0_0 shapeCasts_S512x512x1_S512x512 d u 0 rfl (by staged_term)

/-- The plane staged for `g2_1`. -/
theorem plane_g2_1 (c : Dev nD) (d u : Fin 512) :
    (V (F := Ideal) m c main_v34 : S512x512.Idx → Ideal .f32) (ix2 d u) = (m ((c : Thread nD τ).loc main_arg14) : S512x512x2.Idx → Ideal .f32) (ix3 d u 1) :=
  slice3_plane 1 (m ((c : Thread nD τ).loc main_arg14)) slices_S512x512x2_S512x512x1_0_0_1 shapeCasts_S512x512x1_S512x512 d u 1 rfl (by staged_term)

/-- The plane staged for `be2_0`. -/
theorem plane_be2_0 (c : Dev nD) (d u : Fin 512) :
    (V (F := Ideal) m c main_v36 : S512x512.Idx → Ideal .f32) (ix2 d u) = (m ((c : Thread nD τ).loc main_arg15) : S512x512x2.Idx → Ideal .f32) (ix3 d u 0) :=
  slice3_plane 0 (m ((c : Thread nD τ).loc main_arg15)) slices_S512x512x2_S512x512x1_0_0_0 shapeCasts_S512x512x1_S512x512 d u 0 rfl (by staged_term)

/-- The plane staged for `be2_1`. -/
theorem plane_be2_1 (c : Dev nD) (d u : Fin 512) :
    (V (F := Ideal) m c main_v38 : S512x512.Idx → Ideal .f32) (ix2 d u) = (m ((c : Thread nD τ).loc main_arg15) : S512x512x2.Idx → Ideal .f32) (ix3 d u 1) :=
  slice3_plane 1 (m ((c : Thread nD τ).loc main_arg15)) slices_S512x512x2_S512x512x1_0_0_1 shapeCasts_S512x512x1_S512x512 d u 1 rfl (by staged_term)

/-- The plane staged for `g3`. -/
theorem plane_g3 (c : Dev nD) (d u : Fin 512) :
    (V (F := Ideal) m c main_v39 : S512x512.Idx → Ideal .f32) (ix2 d u) = (m ((c : Thread nD τ).loc main_arg16) : S512x512x1.Idx → Ideal .f32) (ix3 d u 0) :=
  relaid3_plane (m ((c : Thread nD τ).loc main_arg16)) shapeCasts_S512x512x1_S512x512 d u (by staged_term)

/-- The plane staged for `be3`. -/
theorem plane_be3 (c : Dev nD) (d u : Fin 512) :
    (V (F := Ideal) m c main_v40 : S512x512.Idx → Ideal .f32) (ix2 d u) = (m ((c : Thread nD τ).loc main_arg17) : S512x512x1.Idx → Ideal .f32) (ix3 d u 0) :=
  relaid3_plane (m ((c : Thread nD τ).loc main_arg17)) shapeCasts_S512x512x1_S512x512 d u (by staged_term)

end Cert.KernelIdeal.Windows

end
-- ==== Proof.KernelParams.lean ====
/-
  The parameters as the kernel's body loads them at a grid point are the parameters of the specification.

  Every parameter window is resident: its one block is the whole staged plane (or the whole per-lane vector) at every grid
  point, the body loads it whole, and the re-laying between the load and its uses keeps every entry in place. So entry (d, u) of
  a loaded plane is entry (d, u) of the staged plane, which is the program's parameter at (0, d, u, k) or (d, u, k); entry u of
  a loaded vector is the parameter's entry u.
-/
import proofs.«167910_j23965917511984_1_alg».proof.Proof.RowValue
import proofs.«167910_j23965917511984_1_alg».proof.Proof.KernelWindows
import Idealize.ShloMosaic.Lib.Pipeline.Value

set_option maxRecDepth 16384

noncomputable section

namespace Cert.KernelIdeal.Final

open Cert.KernelIdeal Cert.KernelIdeal.Gen Cert.KernelIdeal.GenP Cert.KernelIdeal.Row Cert.KernelIdeal.Windows
open Idealize.ShloMosaic Idealize.ShloMosaic.TcCoe Idealize.SL.Sem Idealize.ShloMosaic.ValueIdx

variable (m : (ℓ : Loc nD τ sig) → Buf (Elt Ideal) ℓ)

/-! ## The whole-block load and the same-shape re-laying; a block's entry in its array -/
/-- The zero offsets of a plane's whole rectangle. -/
private theorem off2 : (![0, 0] : Fin 2 → Nat) = fun _ => 0 := funext fun a => by fin_cases a <;> rfl

/-- The zero offset of a vector's whole rectangle. -/
private theorem off1 : (![0] : Fin 1 → Nat) = fun _ => 0 := funext fun a => by fin_cases a <;> rfl

/-- A plane loaded whole and re-laid to its own shape keeps every entry. -/
private theorem relaid_whole (X : Vec Ideal S512x512 .f32) (j : S512x512.Idx) :
    shapeCast S512x512 (View.ld (Val := Elt Ideal) X r0_0) shapeCasts_S512x512_S512x512 j = X j :=
  (congrFun (shapeCast_self (View.ld (Val := Elt Ideal) X r0_0) shapeCasts_S512x512_S512x512) j).trans
    (congrFun (View.ld_unit_zero (Val := Elt Ideal) off2 inb_S512x512_S512x512_0_0 X) j)

/-- A vector loaded whole keeps every entry. -/
private theorem loaded_whole (X : Vec Ideal S512 .f32) (j : S512.Idx) : View.ld (Val := Elt Ideal) X r0_1 j = X j :=
  congrFun (View.ld_unit_zero (Val := Elt Ideal) off1 inb_S512_S512_0 X) j

/-- Entry (d, u) of block (k0, k1) of a plane, for blocks of 512 × 512 entries, sits at (k0 · 512 + d, k1 · 512 + u) of the
    plane; at block (0, 0) that is (d, u). -/
private theorem plane_at (A : S512x512.Idx → Ideal .f32) (i : S512x512.Idx) (d u : Fin 512) (k0 k1 : Nat)
    (hk0 : k0 = 0) (hk1 : k1 = 0) (h0 : (i 0).val = k0 * 512 + 1 * d.val) (h1 : (i 1).val = k1 * 512 + 1 * u.val) :
    A i = A (ix2 d u) :=
  congrArg A (funext fun a => Fin.ext (by
    match a with
    | ⟨0, _⟩ => show (i 0).val = d.val; omega
    | ⟨1, _⟩ => show (i 1).val = u.val; omega))

/-- Entry u of block k0 of a vector, for blocks of 512 entries, sits at k0 · 512 + u; at block 0 that is u. -/
private theorem lane_at (A : S512.Idx → Ideal .f32) (i : S512.Idx) (u : Fin 512) (k0 : Nat)
    (hk0 : k0 = 0) (h0 : (i 0).val = k0 * 512 + 1 * u.val) : A i = A (ix1 u) :=
  congrArg A (funext fun a => Fin.ext (by
    match a with
    | ⟨0, _⟩ => show (i 0).val = u.val; omega))

/-- Every parameter window is resident: at each of the eight grid points its block index is zero on every axis. -/
private theorem resident : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 1) = 0
    ∧ win0_15.index t (0 : Fin 1) = 0
    ∧ win0_16.index t (0 : Fin 1) = 0
    ∧ win0_17.index t (0 : Fin 2) = 0 ∧ win0_17.index t (1 : Fin 2) = 0
    ∧ win0_18.index t (0 : Fin 2) = 0 ∧ win0_18.index t (1 : Fin 2) = 0
    ∧ win0_19.index t (0 : Fin 2) = 0 ∧ win0_19.index t (1 : Fin 2) = 0
    ∧ win0_20.index t (0 : Fin 2) = 0 ∧ win0_20.index t (1 : Fin 2) = 0
    ∧ win0_21.index t (0 : Fin 2) = 0 ∧ win0_21.index t (1 : Fin 2) = 0
    ∧ win0_22.index t (0 : Fin 2) = 0 ∧ win0_22.index t (1 : Fin 2) = 0
    ∧ win0_23.index t (0 : Fin 2) = 0 ∧ win0_23.index t (1 : Fin 2) = 0
    ∧ win0_24.index t (0 : Fin 2) = 0 ∧ win0_24.index t (1 : Fin 2) = 0
    ∧ win0_25.index t (0 : Fin 2) = 0 ∧ win0_25.index t (1 : Fin 2) = 0
    ∧ win0_26.index t (0 : Fin 2) = 0 ∧ win0_26.index t (1 : Fin 2) = 0 :=
  (by decide +kernel : ∀ t : Fin grid0.N, _)

/-! ## Each loaded block, entry by entry

Window k's block at a grid point is read off the array the window stages. With the window resident, entry (d, u) of the block
is entry (d, u) of that array; the load takes the whole block and the re-laying to the same shape moves nothing. -/

private theorem entry_w1_0 (c : Dev nD) (t : Fin cfg0.N) (a : win0_1.index t (0 : Fin 2) = 0) (b : win0_1.index t (1 : Fin 2) = 0) (d u : Fin 512) :
    k0_pay2 (View.ld (iblk m c 1 t) r0_0) (ix2 d u) = (m ((c : Thread nD τ).loc main_arg1) : S1x512x512x2.Idx → Ideal .f32) (ix4 0 d u 0) :=
  (relaid_whole (iblk m c 1 t) (ix2 d u)).trans ((plane_at (V m c main_v1) (((cfg0.win 1).blk t).view.emb (ix2 d u)) d u _ _ a b rfl rfl).trans (plane_w1_0 m c d u))

private theorem entry_w1_1 (c : Dev nD) (t : Fin cfg0.N) (a : win0_2.index t (0 : Fin 2) = 0) (b : win0_2.index t (1 : Fin 2) = 0) (d u : Fin 512) :
    k0_pay3 (View.ld (iblk m c 2 t) r0_0) (ix2 d u) = (m ((c : Thread nD τ).loc main_arg1) : S1x512x512x2.Idx → Ideal .f32) (ix4 0 d u 1) :=
  (relaid_whole (iblk m c 2 t) (ix2 d u)).trans ((plane_at (V m c main_v3) (((cfg0.win 2).blk t).view.emb (ix2 d u)) d u _ _ a b rfl rfl).trans (plane_w1_1 m c d u))

private theorem entry_b1_0 (c : Dev nD) (t : Fin cfg0.N) (a : win0_3.index t (0 : Fin 2) = 0) (b : win0_3.index t (1 : Fin 2) = 0) (d u : Fin 512) :
    k0_pay4 (View.ld (iblk m c 3 t) r0_0) (ix2 d u) = (m ((c : Thread nD τ).loc main_arg2) : S1x512x512x2.Idx → Ideal .f32) (ix4 0 d u 0) :=
  (relaid_whole (iblk m c 3 t) (ix2 d u)).trans ((plane_at (V m c main_v5) (((cfg0.win 3).blk t).view.emb (ix2 d u)) d u _ _ a b rfl rfl).trans (plane_b1_0 m c d u))

private theorem entry_b1_1 (c : Dev nD) (t : Fin cfg0.N) (a : win0_4.index t (0 : Fin 2) = 0) (b : win0_4.index t (1 : Fin 2) = 0) (d u : Fin 512) :
    k0_pay5 (View.ld (iblk m c 4 t) r0_0) (ix2 d u) = (m ((c : Thread nD τ).loc main_arg2) : S1x512x512x2.Idx → Ideal .f32) (ix4 0 d u 1) :=
  (relaid_whole (iblk m c 4 t) (ix2 d u)).trans ((plane_at (V m c main_v7) (((cfg0.win 4).blk t).view.emb (ix2 d u)) d u _ _ a b rfl rfl).trans (plane_b1_1 m c d u))

private theorem entry_w21_0 (c : Dev nD) (t : Fin cfg0.N) (a : win0_5.index t (0 : Fin 2) = 0) (b : win0_5.index t (1 : Fin 2) = 0) (d u : Fin 512) :
    k0_pay6 (View.ld (iblk m c 5 t) r0_0) (ix2 d u) = (m ((c : Thread nD τ).loc main_arg3) : S1x512x512x2.Idx → Ideal .f32) (ix4 0 d u 0) :=
  (relaid_whole (iblk m c 5 t) (ix2 d u)).trans ((plane_at (V m c main_v9) (((cfg0.win 5).blk t).view.emb (ix2 d u)) d u _ _ a b rfl rfl).trans (plane_w21_0 m c d u))

private theorem entry_w21_1 (c : Dev nD) (t : Fin cfg0.N) (a : win0_6.index t (0 : Fin 2) = 0) (b : win0_6.index t (1 : Fin 2) = 0) (d u : Fin 512) :
    k0_pay7 (View.ld (iblk m c 6 t) r0_0) (ix2 d u) = (m ((c : Thread nD τ).loc main_arg3) : S1x512x512x2.Idx → Ideal .f32) (ix4 0 d u 1) :=
  (relaid_whole (iblk m c 6 t) (ix2 d u)).trans ((plane_at (V m c main_v11) (((cfg0.win 6).blk t).view.emb (ix2 d u)) d u _ _ a b rfl rfl).trans (plane_w21_1 m c d u))

private theorem entry_w22_0 (c : Dev nD) (t : Fin cfg0.N) (a : win0_7.index t (0 : Fin 2) = 0) (b : win0_7.index t (1 : Fin 2) = 0) (d u : Fin 512) :
    k0_pay8 (View.ld (iblk m c 7 t) r0_0) (ix2 d u) = (m ((c : Thread nD τ).loc main_arg4) : S1x512x512x2.Idx → Ideal .f32) (ix4 0 d u 0) :=
  (relaid_whole (iblk m c 7 t) (ix2 d u)).trans ((plane_at (V m c main_v13) (((cfg0.win 7).blk t).view.emb (ix2 d u)) d u _ _ a b rfl rfl).trans (plane_w22_0 m c d u))

private theorem entry_w22_1 (c : Dev nD) (t : Fin cfg0.N) (a : win0_8.index t (0 : Fin 2) = 0) (b : win0_8.index t (1 : Fin 2) = 0) (d u : Fin 512) :
    k0_pay9 (View.ld (iblk m c 8 t) r0_0) (ix2 d u) = (m ((c : Thread nD τ).loc main_arg4) : S1x512x512x2.Idx → Ideal .f32) (ix4 0 d u 1) :=
  (relaid_whole (iblk m c 8 t) (ix2 d u)).trans ((plane_at (V m c main_v15) (((cfg0.win 8).blk t).view.emb (ix2 d u)) d u _ _ a b rfl rfl).trans (plane_w22_1 m c d u))

private theorem entry_b21 (c : Dev nD) (t : Fin cfg0.N) (a : win0_9.index t (0 : Fin 2) = 0) (b : win0_9.index t (1 : Fin 2) = 0) (d u : Fin 512) :
    k0_pay10 (View.ld (iblk m c 9 t) r0_0) (ix2 d u) = (m ((c : Thread nD τ).loc main_arg5) : S1x512x512x1.Idx → Ideal .f32) (ix4 0 d u 0) :=
  (relaid_whole (iblk m c 9 t) (ix2 d u)).trans ((plane_at (V m c main_v20) (((cfg0.win 9).blk t).view.emb (ix2 d u)) d u _ _ a b rfl rfl).trans (plane_b21 m c d u))

private theorem entry_b22 (c : Dev nD) (t : Fin cfg0.N) (a : win0_10.index t (0 : Fin 2) = 0) (b : win0_10.index t (1 : Fin 2) = 0) (d u : Fin 512) :
    k0_pay11 (View.ld (iblk m c 10 t) r0_0) (ix2 d u) = (m ((c : Thread nD τ).loc main_arg6) : S1x512x512x1.Idx → Ideal .f32) (ix4 0 d u 0) :=
  (relaid_whole (iblk m c 10 t) (ix2 d u)).trans ((plane_at (V m c main_v21) (((cfg0.win 10).blk t).view.emb (ix2 d u)) d u _ _ a b rfl rfl).trans (plane_b22 m c d u))

private theorem entry_w3_0 (c : Dev nD) (t : Fin cfg0.N) (a : win0_11.index t (0 : Fin 2) = 0) (b : win0_11.index t (1 : Fin 2) = 0) (d u : Fin 512) :
    k0_pay12 (View.ld (iblk m c 11 t) r0_0) (ix2 d u) = (m ((c : Thread nD τ).loc main_arg7) : S1x512x512x2.Idx → Ideal .f32) (ix4 0 d u 0) :=
  (relaid_whole (iblk m c 11 t) (ix2 d u)).trans ((plane_at (V m c main_v17) (((cfg0.win 11).blk t).view.emb (ix2 d u)) d u _ _ a b rfl rfl).trans (plane_w3_0 m c d u))

private theorem entry_w3_1 (c : Dev nD) (t : Fin cfg0.N) (a : win0_12.index t (0 : Fin 2) = 0) (b : win0_12.index t (1 : Fin 2) = 0) (d u : Fin 512) :
    k0_pay13 (View.ld (iblk m c 12 t) r0_0) (ix2 d u) = (m ((c : Thread nD τ).loc main_arg7) : S1x512x512x2.Idx → Ideal .f32) (ix4 0 d u 1) :=
  (relaid_whole (iblk m c 12 t) (ix2 d u)).trans ((plane_at (V m c main_v19) (((cfg0.win 12).blk t).view.emb (ix2 d u)) d u _ _ a b rfl rfl).trans (plane_w3_1 m c d u))

private theorem entry_b3 (c : Dev nD) (t : Fin cfg0.N) (a : win0_13.index t (0 : Fin 2) = 0) (b : win0_13.index t (1 : Fin 2) = 0) (d u : Fin 512) :
    k0_pay14 (View.ld (iblk m c 13 t) r0_0) (ix2 d u) = (m ((c : Thread nD τ).loc main_arg8) : S1x512x512x1.Idx → Ideal .f32) (ix4 0 d u 0) :=
  (relaid_whole (iblk m c 13 t) (ix2 d u)).trans ((plane_at (V m c main_v22) (((cfg0.win 13).blk t).view.emb (ix2 d u)) d u _ _ a b rfl rfl).trans (plane_b3 m c d u))

private theorem entry_bias (c : Dev nD) (t : Fin cfg0.N) (a : win0_14.index t (0 : Fin 1) = 0) (u : Fin 512) :
    View.ld (iblk m c 14 t) r0_1 (ix1 u) = (m ((c : Thread nD τ).loc main_arg9) : S512.Idx → Ideal .f32) (ix1 u) :=
  (loaded_whole (iblk m c 14 t) (ix1 u)).trans ((lane_at (V m c main_arg9) (((cfg0.win 14).blk t).view.emb (ix1 u)) u _ a rfl).trans (congrFun (V_main_arg9 m c) (ix1 u)))

private theorem entry_g0 (c : Dev nD) (t : Fin cfg0.N) (a : win0_15.index t (0 : Fin 1) = 0) (u : Fin 512) :
    View.ld (iblk m c 15 t) r0_1 (ix1 u) = (m ((c : Thread nD τ).loc main_arg10) : S512.Idx → Ideal .f32) (ix1 u) :=
  (loaded_whole (iblk m c 15 t) (ix1 u)).trans ((lane_at (V m c main_arg10) (((cfg0.win 15).blk t).view.emb (ix1 u)) u _ a rfl).trans (congrFun (V_main_arg10 m c) (ix1 u)))

private theorem entry_be0 (c : Dev nD) (t : Fin cfg0.N) (a : win0_16.index t (0 : Fin 1) = 0) (u : Fin 512) :
    View.ld (iblk m c 16 t) r0_1 (ix1 u) = (m ((c : Thread nD τ).loc main_arg11) : S512.Idx → Ideal .f32) (ix1 u) :=
  (loaded_whole (iblk m c 16 t) (ix1 u)).trans ((lane_at (V m c main_arg11) (((cfg0.win 16).blk t).view.emb (ix1 u)) u _ a rfl).trans (congrFun (V_main_arg11 m c) (ix1 u)))

private theorem entry_g1_0 (c : Dev nD) (t : Fin cfg0.N) (a : win0_17.index t (0 : Fin 2) = 0) (b : win0_17.index t (1 : Fin 2) = 0) (d u : Fin 512) :
    k0_pay15 (View.ld (iblk m c 17 t) r0_0) (ix2 d u) = (m ((c : Thread nD τ).loc main_arg12) : S512x512x2.Idx → Ideal .f32) (ix3 d u 0) :=
  (relaid_whole (iblk m c 17 t) (ix2 d u)).trans ((plane_at (V m c main_v24) (((cfg0.win 17).blk t).view.emb (ix2 d u)) d u _ _ a b rfl rfl).trans (plane_g1_0 m c d u))

private theorem entry_g1_1 (c : Dev nD) (t : Fin cfg0.N) (a : win0_18.index t (0 : Fin 2) = 0) (b : win0_18.index t (1 : Fin 2) = 0) (d u : Fin 512) :
    k0_pay16 (View.ld (iblk m c 18 t) r0_0) (ix2 d u) = (m ((c : Thread nD τ).loc main_arg12) : S512x512x2.Idx → Ideal .f32) (ix3 d u 1) :=
  (relaid_whole (iblk m c 18 t) (ix2 d u)).trans ((plane_at (V m c main_v26) (((cfg0.win 18).blk t).view.emb (ix2 d u)) d u _ _ a b rfl rfl).trans (plane_g1_1 m c d u))

private theorem entry_be1_0 (c : Dev nD) (t : Fin cfg0.N) (a : win0_19.index t (0 : Fin 2) = 0) (b : win0_19.index t (1 : Fin 2) = 0) (d u : Fin 512) :
    k0_pay17 (View.ld (iblk m c 19 t) r0_0) (ix2 d u) = (m ((c : Thread nD τ).loc main_arg13) : S512x512x2.Idx → Ideal .f32) (ix3 d u 0) :=
  (relaid_whole (iblk m c 19 t) (ix2 d u)).trans ((plane_at (V m c main_v28) (((cfg0.win 19).blk t).view.emb (ix2 d u)) d u _ _ a b rfl rfl).trans (plane_be1_0 m c d u))

private theorem entry_be1_1 (c : Dev nD) (t : Fin cfg0.N) (a : win0_20.index t (0 : Fin 2) = 0) (b : win0_20.index t (1 : Fin 2) = 0) (d u : Fin 512) :
    k0_pay18 (View.ld (iblk m c 20 t) r0_0) (ix2 d u) = (m ((c : Thread nD τ).loc main_arg13) : S512x512x2.Idx → Ideal .f32) (ix3 d u 1) :=
  (relaid_whole (iblk m c 20 t) (ix2 d u)).trans ((plane_at (V m c main_v30) (((cfg0.win 20).blk t).view.emb (ix2 d u)) d u _ _ a b rfl rfl).trans (plane_be1_1 m c d u))

private theorem entry_g2_0 (c : Dev nD) (t : Fin cfg0.N) (a : win0_21.index t (0 : Fin 2) = 0) (b : win0_21.index t (1 : Fin 2) = 0) (d u : Fin 512) :
    k0_pay19 (View.ld (iblk m c 21 t) r0_0) (ix2 d u) = (m ((c : Thread nD τ).loc main_arg14) : S512x512x2.Idx → Ideal .f32) (ix3 d u 0) :=
  (relaid_whole (iblk m c 21 t) (ix2 d u)).trans ((plane_at (V m c main_v32) (((cfg0.win 21).blk t).view.emb (ix2 d u)) d u _ _ a b rfl rfl).trans (plane_g2_0 m c d u))

private theorem entry_g2_1 (c : Dev nD) (t : Fin cfg0.N) (a : win0_22.index t (0 : Fin 2) = 0) (b : win0_22.index t (1 : Fin 2) = 0) (d u : Fin 512) :
    k0_pay20 (View.ld (iblk m c 22 t) r0_0) (ix2 d u) = (m ((c : Thread nD τ).loc main_arg14) : S512x512x2.Idx → Ideal .f32) (ix3 d u 1) :=
  (relaid_whole (iblk m c 22 t) (ix2 d u)).trans ((plane_at (V m c main_v34) (((cfg0.win 22).blk t).view.emb (ix2 d u)) d u _ _ a b rfl rfl).trans (plane_g2_1 m c d u))

private theorem entry_be2_0 (c : Dev nD) (t : Fin cfg0.N) (a : win0_23.index t (0 : Fin 2) = 0) (b : win0_23.index t (1 : Fin 2) = 0) (d u : Fin 512) :
    k0_pay21 (View.ld (iblk m c 23 t) r0_0) (ix2 d u) = (m ((c : Thread nD τ).loc main_arg15) : S512x512x2.Idx → Ideal .f32) (ix3 d u 0) :=
  (relaid_whole (iblk m c 23 t) (ix2 d u)).trans ((plane_at (V m c main_v36) (((cfg0.win 23).blk t).view.emb (ix2 d u)) d u _ _ a b rfl rfl).trans (plane_be2_0 m c d u))

private theorem entry_be2_1 (c : Dev nD) (t : Fin cfg0.N) (a : win0_24.index t (0 : Fin 2) = 0) (b : win0_24.index t (1 : Fin 2) = 0) (d u : Fin 512) :
    k0_pay22 (View.ld (iblk m c 24 t) r0_0) (ix2 d u) = (m ((c : Thread nD τ).loc main_arg15) : S512x512x2.Idx → Ideal .f32) (ix3 d u 1) :=
  (relaid_whole (iblk m c 24 t) (ix2 d u)).trans ((plane_at (V m c main_v38) (((cfg0.win 24).blk t).view.emb (ix2 d u)) d u _ _ a b rfl rfl).trans (plane_be2_1 m c d u))

private theorem entry_g3 (c : Dev nD) (t : Fin cfg0.N) (a : win0_25.index t (0 : Fin 2) = 0) (b : win0_25.index t (1 : Fin 2) = 0) (d u : Fin 512) :
    k0_pay23 (View.ld (iblk m c 25 t) r0_0) (ix2 d u) = (m ((c : Thread nD τ).loc main_arg16) : S512x512x1.Idx → Ideal .f32) (ix3 d u 0) :=
  (relaid_whole (iblk m c 25 t) (ix2 d u)).trans ((plane_at (V m c main_v39) (((cfg0.win 25).blk t).view.emb (ix2 d u)) d u _ _ a b rfl rfl).trans (plane_g3 m c d u))

private theorem entry_be3 (c : Dev nD) (t : Fin cfg0.N) (a : win0_26.index t (0 : Fin 2) = 0) (b : win0_26.index t (1 : Fin 2) = 0) (d u : Fin 512) :
    k0_pay24 (View.ld (iblk m c 26 t) r0_0) (ix2 d u) = (m ((c : Thread nD τ).loc main_arg17) : S512x512x1.Idx → Ideal .f32) (ix3 d u 0) :=
  (relaid_whole (iblk m c 26 t) (ix2 d u)).trans ((plane_at (V m c main_v40) (((cfg0.win 26).blk t).view.emb (ix2 d u)) d u _ _ a b rfl rfl).trans (plane_be3 m c d u))

/-- The loaded parameter blocks, as planes and lanes, are the specification's parameters of the program's arguments. -/
theorem params_eq (c : Dev nD) (t : Fin cfg0.N) :
    blockParams (k0_pay2 (View.ld (iblk m c 1 t) r0_0)) (k0_pay3 (View.ld (iblk m c 2 t) r0_0)) (k0_pay4 (View.ld (iblk m c 3 t) r0_0)) (k0_pay5 (View.ld (iblk m c 4 t) r0_0)) (k0_pay6 (View.ld (iblk m c 5 t) r0_0)) (k0_pay7 (View.ld (iblk m c 6 t) r0_0)) (k0_pay8 (View.ld (iblk m c 7 t) r0_0)) (k0_pay9 (View.ld (iblk m c 8 t) r0_0)) (k0_pay10 (View.ld (iblk m c 9 t) r0_0)) (k0_pay11 (View.ld (iblk m c 10 t) r0_0)) (k0_pay12 (View.ld (iblk m c 11 t) r0_0)) (k0_pay13 (View.ld (iblk m c 12 t) r0_0)) (k0_pay14 (View.ld (iblk m c 13 t) r0_0)) (View.ld (iblk m c 14 t) r0_1) (View.ld (iblk m c 15 t) r0_1) (View.ld (iblk m c 16 t) r0_1) (k0_pay15 (View.ld (iblk m c 17 t) r0_0)) (k0_pay16 (View.ld (iblk m c 18 t) r0_0)) (k0_pay17 (View.ld (iblk m c 19 t) r0_0)) (k0_pay18 (View.ld (iblk m c 20 t) r0_0)) (k0_pay19 (View.ld (iblk m c 21 t) r0_0)) (k0_pay20 (View.ld (iblk m c 22 t) r0_0)) (k0_pay21 (View.ld (iblk m c 23 t) r0_0)) (k0_pay22 (View.ld (iblk m c 24 t) r0_0)) (k0_pay23 (View.ld (iblk m c 25 t) r0_0)) (k0_pay24 (View.ld (iblk m c 26 t) r0_0))
      = Cert.Spec.paramsOf (m ((c : Thread nD τ).loc main_arg1) : S1x512x512x2.Idx → Ideal .f32) (m ((c : Thread nD τ).loc main_arg2) : S1x512x512x2.Idx → Ideal .f32) (m ((c : Thread nD τ).loc main_arg3) : S1x512x512x2.Idx → Ideal .f32) (m ((c : Thread nD τ).loc main_arg4) : S1x512x512x2.Idx → Ideal .f32) (m ((c : Thread nD τ).loc main_arg5) : S1x512x512x1.Idx → Ideal .f32) (m ((c : Thread nD τ).loc main_arg6) : S1x512x512x1.Idx → Ideal .f32) (m ((c : Thread nD τ).loc main_arg7) : S1x512x512x2.Idx → Ideal .f32) (m ((c : Thread nD τ).loc main_arg8) : S1x512x512x1.Idx → Ideal .f32) (m ((c : Thread nD τ).loc main_arg9) : S512.Idx → Ideal .f32) (m ((c : Thread nD τ).loc main_arg10) : S512.Idx → Ideal .f32) (m ((c : Thread nD τ).loc main_arg11) : S512.Idx → Ideal .f32) (m ((c : Thread nD τ).loc main_arg12) : S512x512x2.Idx → Ideal .f32) (m ((c : Thread nD τ).loc main_arg13) : S512x512x2.Idx → Ideal .f32) (m ((c : Thread nD τ).loc main_arg14) : S512x512x2.Idx → Ideal .f32) (m ((c : Thread nD τ).loc main_arg15) : S512x512x2.Idx → Ideal .f32) (m ((c : Thread nD τ).loc main_arg16) : S512x512x1.Idx → Ideal .f32) (m ((c : Thread nD τ).loc main_arg17) : S512x512x1.Idx → Ideal .f32) := by
  obtain ⟨r1, s1, r2, s2, r3, s3, r4, s4, r5, s5, r6, s6, r7, s7, r8, s8, r9, s9, r10, s10, r11, s11, r12, s12, r13, s13,
    r14, r15, r16, r17, s17, r18, s18, r19, s19, r20, s20, r21, s21, r22, s22, r23, s23, r24, s24, r25, s25, r26, s26⟩ := resident t
  unfold blockParams Cert.Spec.paramsOf
  rw [Cert.Spec.Params.mk.injEq]
  exact ⟨funext fun d => funext fun u => entry_w1_0 m c t r1 s1 d u,
    funext fun d => funext fun u => entry_w1_1 m c t r2 s2 d u,
    funext fun d => funext fun u => entry_b1_0 m c t r3 s3 d u,
    funext fun d => funext fun u => entry_b1_1 m c t r4 s4 d u,
    funext fun d => funext fun u => entry_w21_0 m c t r5 s5 d u,
    funext fun d => funext fun u => entry_w21_1 m c t r6 s6 d u,
    funext fun d => funext fun u => entry_w22_0 m c t r7 s7 d u,
    funext fun d => funext fun u => entry_w22_1 m c t r8 s8 d u,
    funext fun d => funext fun u => entry_b21 m c t r9 s9 d u,
    funext fun d => funext fun u => entry_b22 m c t r10 s10 d u,
    funext fun d => funext fun u => entry_w3_0 m c t r11 s11 d u,
    funext fun d => funext fun u => entry_w3_1 m c t r12 s12 d u,
    funext fun d => funext fun u => entry_b3 m c t r13 s13 d u,
    funext fun u => entry_bias m c t r14 u,
    funext fun u => entry_g0 m c t r15 u,
    funext fun u => entry_be0 m c t r16 u,
    funext fun d => funext fun u => entry_g1_0 m c t r17 s17 d u,
    funext fun d => funext fun u => entry_g1_1 m c t r18 s18 d u,
    funext fun d => funext fun u => entry_be1_0 m c t r19 s19 d u,
    funext fun d => funext fun u => entry_be1_1 m c t r20 s20 d u,
    funext fun d => funext fun u => entry_g2_0 m c t r21 s21 d u,
    funext fun d => funext fun u => entry_g2_1 m c t r22 s22 d u,
    funext fun d => funext fun u => entry_be2_0 m c t r23 s23 d u,
    funext fun d => funext fun u => entry_be2_1 m c t r24 s24 d u,
    funext fun d => funext fun u => entry_g3 m c t r25 s25 d u,
    funext fun d => funext fun u => entry_be3 m c t r26 s26 d u⟩

end Cert.KernelIdeal.Final

end
-- ==== Proof.KernelValue.lean ====
/-
  From the kernel's blocks to its result array.

  At grid point `t` the body writes the 8 × 512 block of rows 8t … 8t + 7: row `i` of the block is the row computation of input
  row 8t + i, with every parameter plane read whole. Read at lane `u` over the extended reals that is the specification's row
  function; the eight points' blocks tile the 64 × 512 array; so the array after the run is the specification's array.
-/
import proofs.«167910_j23965917511984_1_alg».proof.Proof.KernelPieces
import proofs.«167910_j23965917511984_1_alg».proof.Proof.RowValue
import proofs.«167910_j23965917511984_1_alg».proof.Proof.KernelWindows
import proofs.«167910_j23965917511984_1_alg».proof.Proof.KernelIdealValueP
import proofs.«167910_j23965917511984_1_alg».proof.Proof.KernelParams

set_option maxRecDepth 16384

noncomputable section

namespace Cert.KernelIdeal.Final

open Cert.KernelIdeal Cert.KernelIdeal.Gen Cert.KernelIdeal.GenP Cert.KernelIdeal.ValueP Cert.KernelIdeal.Row Cert.KernelIdeal.Windows
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification's array of the program's arguments on core `c`. -/
abbrev target (c : Dev nD) : S64x512.Idx → Ideal .f32 :=
  Cert.Spec.G (m ((c : Thread nD τ).loc main_arg0) : S64x512.Idx → Ideal .f32) (m ((c : Thread nD τ).loc main_arg1) : S1x512x512x2.Idx → Ideal .f32) (m ((c : Thread nD τ).loc main_arg2) : S1x512x512x2.Idx → Ideal .f32) (m ((c : Thread nD τ).loc main_arg3) : S1x512x512x2.Idx → Ideal .f32) (m ((c : Thread nD τ).loc main_arg4) : S1x512x512x2.Idx → Ideal .f32) (m ((c : Thread nD τ).loc main_arg5) : S1x512x512x1.Idx → Ideal .f32) (m ((c : Thread nD τ).loc main_arg6) : S1x512x512x1.Idx → Ideal .f32) (m ((c : Thread nD τ).loc main_arg7) : S1x512x512x2.Idx → Ideal .f32) (m ((c : Thread nD τ).loc main_arg8) : S1x512x512x1.Idx → Ideal .f32) (m ((c : Thread nD τ).loc main_arg9) : S512.Idx → Ideal .f32) (m ((c : Thread nD τ).loc main_arg10) : S512.Idx → Ideal .f32) (m ((c : Thread nD τ).loc main_arg11) : S512.Idx → Ideal .f32) (m ((c : Thread nD τ).loc main_arg12) : S512x512x2.Idx → Ideal .f32) (m ((c : Thread nD τ).loc main_arg13) : S512x512x2.Idx → Ideal .f32) (m ((c : Thread nD τ).loc main_arg14) : S512x512x2.Idx → Ideal .f32) (m ((c : Thread nD τ).loc main_arg15) : S512x512x2.Idx → Ideal .f32) (m ((c : Thread nD τ).loc main_arg16) : S512x512x1.Idx → Ideal .f32) (m ((c : Thread nD τ).loc main_arg17) : S512x512x1.Idx → Ideal .f32)

/-- Over the 8 grid points: the input's and the output's block index is (t, 0). -/
theorem idx_facts : ∀ t : Fin cfg0.N, win0_0.index t (0 : Fin 2) = t.val ∧ win0_0.index t (1 : Fin 2) = 0
    ∧ win0_27.index t (0 : Fin 2) = t.val ∧ win0_27.index t (1 : Fin 2) = 0 :=
  (by decide +kernel : ∀ t : Fin grid0.N, _)

/-- Row `i` of the input block at point `t` is row 8t + i of the input. -/
theorem row_load (c : Dev nD) (t : Fin cfg0.N) (i : Fin 8) (inb : ∀ a, (![i.val, 0] : Fin 2 → Nat) a + S1x512.size a ≤ S8x512.size a)
    (hb : 8 * t.val + i.val < 64) (d : Fin 512) :
    View.ld (iblk m c 0 t) (Rect.unit (s := S8x512) ![i.val, 0] S1x512.size inb) (ix2 0 d) = (m ((c : Thread nD τ).loc main_arg0) : S64x512.Idx → Ideal .f32) (ix2 ⟨8 * t.val + i.val, hb⟩ d) := by
  show V m c main_arg0 (((cfg0.win 0).blk t).view.emb ((Rect.unit (s := S8x512) ![i.val, 0] S1x512.size inb).emb (ix2 0 d))) = _
  rw [V_main_arg0]
  refine congrArg _ (funext fun a => Fin.ext ?_)
  obtain ⟨e0, e1, e2, e3⟩ := idx_facts t
  match a with
  | ⟨0, _⟩ => show win0_0.index t (0 : Fin 2) * 8 + 1 * (i.val + 1 * 0) = 8 * t.val + i.val; omega
  | ⟨1, _⟩ => show win0_0.index t (1 : Fin 2) * 512 + 1 * (0 + 1 * d.val) = d.val; omega

/-- Row `i` of the block written at point `t`, lane by lane, is the specification's array at row 8t + i. -/
theorem piece_eq (c : Dev nD) (t : Fin cfg0.N) (i : Fin 8) (inb : ∀ a, (![i.val, 0] : Fin 2 → Nat) a + S1x512.size a ≤ S8x512.size a)
    (x : S1x512.Idx) :
    rowAt (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (View.ld (iblk m c 0 t) (Rect.unit (s := S8x512) ![i.val, 0] S1x512.size inb)) x
      = target m c (((cfg0.win 27).blk t).view.emb ((Rect.unit (s := S8x512) ![i.val, 0] S1x512.size inb).emb x)) := by
  obtain ⟨p, u, rfl⟩ : ∃ (p : Fin 1) (u : Fin 512), x = ix2 p u := ⟨x 0, x 1, eq_ix2 x⟩
  obtain rfl : p = 0 := Subsingleton.elim _ _
  have ht : t.val < 8 := t.isLt
  have hb : 8 * t.val + i.val < 64 := by have h2 := i.isLt; omega
  unfold rowAt
  refine (rowBody_apply (View.ld (iblk m c 0 t) (Rect.unit (s := S8x512) ![i.val, 0] S1x512.size inb)) (k0_pay2 (View.ld (iblk m c 1 t) r0_0)) (k0_pay3 (View.ld (iblk m c 2 t) r0_0)) (k0_pay4 (View.ld (iblk m c 3 t) r0_0)) (k0_pay5 (View.ld (iblk m c 4 t) r0_0)) (k0_pay6 (View.ld (iblk m c 5 t) r0_0)) (k0_pay7 (View.ld (iblk m c 6 t) r0_0)) (k0_pay8 (View.ld (iblk m c 7 t) r0_0)) (k0_pay9 (View.ld (iblk m c 8 t) r0_0)) (k0_pay10 (View.ld (iblk m c 9 t) r0_0)) (k0_pay11 (View.ld (iblk m c 10 t) r0_0)) (k0_pay12 (View.ld (iblk m c 11 t) r0_0)) (k0_pay13 (View.ld (iblk m c 12 t) r0_0)) (k0_pay14 (View.ld (iblk m c 13 t) r0_0)) (View.ld (iblk m c 14 t) r0_1) (View.ld (iblk m c 15 t) r0_1) (View.ld (iblk m c 16 t) r0_1) (k0_pay15 (View.ld (iblk m c 17 t) r0_0)) (k0_pay16 (View.ld (iblk m c 18 t) r0_0)) (k0_pay17 (View.ld (iblk m c 19 t) r0_0)) (k0_pay18 (View.ld (iblk m c 20 t) r0_0)) (k0_pay19 (View.ld (iblk m c 21 t) r0_0)) (k0_pay20 (View.ld (iblk m c 22 t) r0_0)) (k0_pay21 (View.ld (iblk m c 23 t) r0_0)) (k0_pay22 (View.ld (iblk m c 24 t) r0_0)) (k0_pay23 (View.ld (iblk m c 25 t) r0_0)) (k0_pay24 (View.ld (iblk m c 26 t) r0_0)) u).trans ?_
  rw [params_eq m c t]
  have hx : (fun d : Fin 512 => View.ld (iblk m c 0 t) (Rect.unit (s := S8x512) ![i.val, 0] S1x512.size inb) (ix2 0 d))
      = fun d => (m ((c : Thread nD τ).loc main_arg0) : S64x512.Idx → Ideal .f32) (ix2 ⟨8 * t.val + i.val, hb⟩ d) := funext fun d => row_load m c t i inb hb d
  rw [hx]
  have hidx : ((cfg0.win 27).blk t).view.emb ((Rect.unit (s := S8x512) ![i.val, 0] S1x512.size inb).emb (ix2 0 u)) = ix2 ⟨8 * t.val + i.val, hb⟩ u := by
    funext a
    apply Fin.ext
    obtain ⟨e0, e1, e2, e3⟩ := idx_facts t
    match a with
    | ⟨0, _⟩ => show win0_27.index t (0 : Fin 2) * 8 + 1 * (i.val + 1 * 0) = 8 * t.val + i.val; omega
    | ⟨1, _⟩ => show win0_27.index t (1 : Fin 2) * 512 + 1 * (0 + 1 * u.val) = u.val; omega
  rw [hidx]
  rfl

/-- What point `t` writes back is block `t` of the specification's array. -/
theorem flushed_eq (c : Dev nD) (t : Fin cfg0.N) :
    (dats m 0 c).flushed 27 t = ((cfg0.win 27).blk t).view.read (Elt Ideal) (target m c) := by
  rw [flushed27]
  rw [out_eq_rows (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)]
  funext j
  show View.canon (Val := Elt Ideal) (s := S8x512) (e := .f32) _ j = target m c (((cfg0.win 27).blk t).view.emb j)
  refine View.canon_apply_of_pieces (Val := Elt Ideal) (S := S8x512) (e := .f32) (fun y => target m c (((cfg0.win 27).blk t).view.emb y)) _ ?_ j (cover0_27 _ _ _ _ _ _ _ _ j)
  intro p hp x
  simp only [List.mem_cons, List.not_mem_nil, or_false] at hp
  rcases hp with rfl | rfl | rfl | rfl | rfl | rfl | rfl | rfl
  · exact piece_eq m c t 7 _ x
  · exact piece_eq m c t 6 _ x
  · exact piece_eq m c t 5 _ x
  · exact piece_eq m c t 4 _ x
  · exact piece_eq m c t 3 _ x
  · exact piece_eq m c t 2 _ x
  · exact piece_eq m c t 1 _ x
  · exact piece_eq m c t 0 _ x

/-- An index of the array is in point `t`'s block iff each coordinate is in the block's range on its axis. -/
theorem mem_blk (t : Fin cfg0.N) (i : S64x512.Idx) :
    i ∈ ((cfg0.win 27).blk t).view.set ↔ ∀ a : Fin 2, win0_27.index t a * S8x512.size a ≤ (i a).val ∧ (i a).val < win0_27.index t a * S8x512.size a + S8x512.size a := by
  show i ∈ ((View.whole main_v41).slice (win0_27.rect t)).set ↔ _
  rw [View.set_slice_whole, Rect.mem_set_unit]
  exact Iff.rfl

/-- Every entry of the array is in the block of the point that holds its row: point `row / 8`. -/
theorem cover (i : S64x512.Idx) : ∃ t : Fin cfg0.N, (cfg0.win 27).flush t = true ∧ i ∈ ((cfg0.win 27).blk t).view.set := by
  have hi0 : (i 0).val < 64 := (i 0).isLt
  have hi1 : (i 1).val < 512 := (i 1).isLt
  have ht : (i 0).val / 8 < 8 := by omega
  refine ⟨⟨(i 0).val / 8, ht⟩, flush0_27 _, ?_⟩
  rw [mem_blk]
  obtain ⟨e0, e1, e2, e3⟩ := idx_facts ⟨(i 0).val / 8, ht⟩
  have e2' : win0_27.index ⟨(i 0).val / 8, ht⟩ (0 : Fin 2) = (i 0).val / 8 := e2
  intro a
  match a with
  | ⟨0, _⟩ => show win0_27.index ⟨(i 0).val / 8, ht⟩ (0 : Fin 2) * 8 ≤ (i 0).val ∧ (i 0).val < win0_27.index ⟨(i 0).val / 8, ht⟩ (0 : Fin 2) * 8 + 8; omega
  | ⟨1, _⟩ => show win0_27.index ⟨(i 0).val / 8, ht⟩ (1 : Fin 2) * 512 ≤ (i 1).val ∧ (i 1).val < win0_27.index ⟨(i 0).val / 8, ht⟩ (1 : Fin 2) * 512 + 512; omega

/-- The result array after the run is the specification's array. -/
theorem final (c : Dev nD) : (dats m 0 c).arrAt 27 cfg0.N = target m c :=
  (dats m 0 c).arrAt_eq_of_cover 27 (target m c) (fun t _ => flushed_eq m c t) cover

/-- The kernel's run: it ends with the result array at the specification's array and the arguments unchanged. -/
theorem run : θ_run defs (onTc (τ := τ) (main (F := Ideal))) ⟨m, fun _ => 0, ρ⟩ fun r => ∀ c : Dev nD,
      r.2.mem ((c : Thread nD τ).loc main_v41) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final m c), (h c).2⟩) (run_blocks m ρ)

end Cert.KernelIdeal.Final

end
-- ==== Proof.RefRun.lean ====
/-
  The reference's run, window by window.

  The reference's @main is a straight line of 174 operations, printed in three windows. Each window is the sequence of its
  operations; the three sequences joined are @main; so every fair execution terminates with each buffer at the fold of the
  operations' results over the launched memory. The fold is read one window at a time: the first window leaves the normalised
  row and the first normalised planes at their stages of the arguments; the second, given those, leaves the second normalised
  planes; the third, given those, leaves the result at its last stage. No window writes an argument.
-/
import proofs.«167910_j23965917511984_1_alg».proof.Proof.RefOps0P
import proofs.«167910_j23965917511984_1_alg».proof.Proof.RefOps1P
import proofs.«167910_j23965917511984_1_alg».proof.Proof.RefOps2P
import proofs.«167910_j23965917511984_1_alg».proof.Proof.RefReadP
import Idealize.ShloMosaic.Lib.StableHlo.Run
import Idealize.ShloMosaic.Lib.Pipeline.Frame

set_option maxRecDepth 8192

noncomputable section

namespace Cert.ReferenceIdeal.Stages

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

variable {F : FTy → Type} [FloatOps F]

/-- All 174 operations: the three windows joined. -/
abbrev opsAll : List (HloOp τ sig (Elt F)) := ops0 ++ (ops1 ++ ops2)

/-- @main is the sequence of its operations. -/
theorem main_eq (c : Dev nD) : main (F := F) c = seq opsAll := by
  show main_part0 (F := F) c >>= (fun _ => main_part1 (F := F) c >>= fun _ => main_part2 (F := F) c) = _
  rw [main_part0_eq, main_part1_eq, main_part2_eq]
  show _ = seq (ops0 ++ (ops1 ++ ops2))
  rw [seq_append ops0 (ops1 ++ ops2), seq_append ops1 ops2]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem opsAll_sub : (opsAll : List (HloOp τ sig (Elt F))).Forall fun op => op.bufs ⊆ tcRefs τ sig :=
  List.forall_append.mpr ⟨ops0_sub, List.forall_append.mpr ⟨ops1_sub, ops2_sub⟩⟩

theorem ops0_fresh : ∀ op ∈ (ops0 : List (HloOp τ sig (Elt F))), op.fresh = ∅ := by
  intro _ h; (repeat (cases h with | head => rfl | tail _ h => ?_)); exact nomatch h
theorem ops1a_fresh : ∀ op ∈ (ops1a : List (HloOp τ sig (Elt F))), op.fresh = ∅ := by
  intro _ h; (repeat (cases h with | head => rfl | tail _ h => ?_)); exact nomatch h
theorem ops1b_fresh : ∀ op ∈ (ops1b : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h

/-- No operation allocates. -/
theorem opsAll_fresh : ∀ op ∈ (opsAll : List (HloOp τ sig (Elt F))), op.fresh = ∅ := by
  intro op h
  rcases List.mem_append.mp h with h | h
  · exact ops0_fresh op h
  · rcases List.mem_append.mp h with h | h
    · rcases List.mem_append.mp h with h | h
      · exact ops1a_fresh op h
      · exact ops1b_fresh op h
    · exact ops2_fresh op h

/-- Every fair execution terminates with each buffer at the fold of the 174 results over the launched memory. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after opsAll (launchContents m d) (Proc.devRef .tc b) :=
  run_seq scopedRefs_eq scopedSems_eq defs main (fun _ => opsAll) main_eq (fun _ => opsAll_sub) m ρ (fun _ => opsAll_fresh)

/-! ### No part writes an argument, and the second window keeps the normalised row -/
theorem w0_arg0 (V : Valuation τ sig (Elt F)) : after ops0 V (Proc.devRef .tc main_arg0) = V (Proc.devRef .tc main_arg0) := by after_results_simp
theorem w0_arg1 (V : Valuation τ sig (Elt F)) : after ops0 V (Proc.devRef .tc main_arg1) = V (Proc.devRef .tc main_arg1) := by after_results_simp
theorem w0_arg2 (V : Valuation τ sig (Elt F)) : after ops0 V (Proc.devRef .tc main_arg2) = V (Proc.devRef .tc main_arg2) := by after_results_simp
theorem w0_arg3 (V : Valuation τ sig (Elt F)) : after ops0 V (Proc.devRef .tc main_arg3) = V (Proc.devRef .tc main_arg3) := by after_results_simp
theorem w0_arg4 (V : Valuation τ sig (Elt F)) : after ops0 V (Proc.devRef .tc main_arg4) = V (Proc.devRef .tc main_arg4) := by after_results_simp
theorem w0_arg5 (V : Valuation τ sig (Elt F)) : after ops0 V (Proc.devRef .tc main_arg5) = V (Proc.devRef .tc main_arg5) := by after_results_simp
theorem w0_arg6 (V : Valuation τ sig (Elt F)) : after ops0 V (Proc.devRef .tc main_arg6) = V (Proc.devRef .tc main_arg6) := by after_results_simp
theorem w0_arg7 (V : Valuation τ sig (Elt F)) : after ops0 V (Proc.devRef .tc main_arg7) = V (Proc.devRef .tc main_arg7) := by after_results_simp
theorem w0_arg8 (V : Valuation τ sig (Elt F)) : after ops0 V (Proc.devRef .tc main_arg8) = V (Proc.devRef .tc main_arg8) := by after_results_simp
theorem w0_arg9 (V : Valuation τ sig (Elt F)) : after ops0 V (Proc.devRef .tc main_arg9) = V (Proc.devRef .tc main_arg9) := by after_results_simp
theorem w0_arg10 (V : Valuation τ sig (Elt F)) : after ops0 V (Proc.devRef .tc main_arg10) = V (Proc.devRef .tc main_arg10) := by after_results_simp
theorem w0_arg11 (V : Valuation τ sig (Elt F)) : after ops0 V (Proc.devRef .tc main_arg11) = V (Proc.devRef .tc main_arg11) := by after_results_simp
theorem w0_arg12 (V : Valuation τ sig (Elt F)) : after ops0 V (Proc.devRef .tc main_arg12) = V (Proc.devRef .tc main_arg12) := by after_results_simp
theorem w0_arg13 (V : Valuation τ sig (Elt F)) : after ops0 V (Proc.devRef .tc main_arg13) = V (Proc.devRef .tc main_arg13) := by after_results_simp
theorem w0_arg14 (V : Valuation τ sig (Elt F)) : after ops0 V (Proc.devRef .tc main_arg14) = V (Proc.devRef .tc main_arg14) := by after_results_simp
theorem w0_arg15 (V : Valuation τ sig (Elt F)) : after ops0 V (Proc.devRef .tc main_arg15) = V (Proc.devRef .tc main_arg15) := by after_results_simp
theorem w0_arg16 (V : Valuation τ sig (Elt F)) : after ops0 V (Proc.devRef .tc main_arg16) = V (Proc.devRef .tc main_arg16) := by after_results_simp
theorem w0_arg17 (V : Valuation τ sig (Elt F)) : after ops0 V (Proc.devRef .tc main_arg17) = V (Proc.devRef .tc main_arg17) := by after_results_simp
theorem w1a_arg0 (V : Valuation τ sig (Elt F)) : after ops1a V (Proc.devRef .tc main_arg0) = V (Proc.devRef .tc main_arg0) := by after_results_simp
theorem w1a_arg1 (V : Valuation τ sig (Elt F)) : after ops1a V (Proc.devRef .tc main_arg1) = V (Proc.devRef .tc main_arg1) := by after_results_simp
theorem w1a_arg2 (V : Valuation τ sig (Elt F)) : after ops1a V (Proc.devRef .tc main_arg2) = V (Proc.devRef .tc main_arg2) := by after_results_simp
theorem w1a_arg3 (V : Valuation τ sig (Elt F)) : after ops1a V (Proc.devRef .tc main_arg3) = V (Proc.devRef .tc main_arg3) := by after_results_simp
theorem w1a_arg4 (V : Valuation τ sig (Elt F)) : after ops1a V (Proc.devRef .tc main_arg4) = V (Proc.devRef .tc main_arg4) := by after_results_simp
theorem w1a_arg5 (V : Valuation τ sig (Elt F)) : after ops1a V (Proc.devRef .tc main_arg5) = V (Proc.devRef .tc main_arg5) := by after_results_simp
theorem w1a_arg6 (V : Valuation τ sig (Elt F)) : after ops1a V (Proc.devRef .tc main_arg6) = V (Proc.devRef .tc main_arg6) := by after_results_simp
theorem w1a_arg7 (V : Valuation τ sig (Elt F)) : after ops1a V (Proc.devRef .tc main_arg7) = V (Proc.devRef .tc main_arg7) := by after_results_simp
theorem w1a_arg8 (V : Valuation τ sig (Elt F)) : after ops1a V (Proc.devRef .tc main_arg8) = V (Proc.devRef .tc main_arg8) := by after_results_simp
theorem w1a_arg9 (V : Valuation τ sig (Elt F)) : after ops1a V (Proc.devRef .tc main_arg9) = V (Proc.devRef .tc main_arg9) := by after_results_simp
theorem w1a_arg10 (V : Valuation τ sig (Elt F)) : after ops1a V (Proc.devRef .tc main_arg10) = V (Proc.devRef .tc main_arg10) := by after_results_simp
theorem w1a_arg11 (V : Valuation τ sig (Elt F)) : after ops1a V (Proc.devRef .tc main_arg11) = V (Proc.devRef .tc main_arg11) := by after_results_simp
theorem w1a_arg12 (V : Valuation τ sig (Elt F)) : after ops1a V (Proc.devRef .tc main_arg12) = V (Proc.devRef .tc main_arg12) := by after_results_simp
theorem w1a_arg13 (V : Valuation τ sig (Elt F)) : after ops1a V (Proc.devRef .tc main_arg13) = V (Proc.devRef .tc main_arg13) := by after_results_simp
theorem w1a_arg14 (V : Valuation τ sig (Elt F)) : after ops1a V (Proc.devRef .tc main_arg14) = V (Proc.devRef .tc main_arg14) := by after_results_simp
theorem w1a_arg15 (V : Valuation τ sig (Elt F)) : after ops1a V (Proc.devRef .tc main_arg15) = V (Proc.devRef .tc main_arg15) := by after_results_simp
theorem w1a_arg16 (V : Valuation τ sig (Elt F)) : after ops1a V (Proc.devRef .tc main_arg16) = V (Proc.devRef .tc main_arg16) := by after_results_simp
theorem w1a_arg17 (V : Valuation τ sig (Elt F)) : after ops1a V (Proc.devRef .tc main_arg17) = V (Proc.devRef .tc main_arg17) := by after_results_simp
theorem w1b_arg0 (V : Valuation τ sig (Elt F)) : after ops1b V (Proc.devRef .tc main_arg0) = V (Proc.devRef .tc main_arg0) := by after_results_simp
theorem w1b_arg1 (V : Valuation τ sig (Elt F)) : after ops1b V (Proc.devRef .tc main_arg1) = V (Proc.devRef .tc main_arg1) := by after_results_simp
theorem w1b_arg2 (V : Valuation τ sig (Elt F)) : after ops1b V (Proc.devRef .tc main_arg2) = V (Proc.devRef .tc main_arg2) := by after_results_simp
theorem w1b_arg3 (V : Valuation τ sig (Elt F)) : after ops1b V (Proc.devRef .tc main_arg3) = V (Proc.devRef .tc main_arg3) := by after_results_simp
theorem w1b_arg4 (V : Valuation τ sig (Elt F)) : after ops1b V (Proc.devRef .tc main_arg4) = V (Proc.devRef .tc main_arg4) := by after_results_simp
theorem w1b_arg5 (V : Valuation τ sig (Elt F)) : after ops1b V (Proc.devRef .tc main_arg5) = V (Proc.devRef .tc main_arg5) := by after_results_simp
theorem w1b_arg6 (V : Valuation τ sig (Elt F)) : after ops1b V (Proc.devRef .tc main_arg6) = V (Proc.devRef .tc main_arg6) := by after_results_simp
theorem w1b_arg7 (V : Valuation τ sig (Elt F)) : after ops1b V (Proc.devRef .tc main_arg7) = V (Proc.devRef .tc main_arg7) := by after_results_simp
theorem w1b_arg8 (V : Valuation τ sig (Elt F)) : after ops1b V (Proc.devRef .tc main_arg8) = V (Proc.devRef .tc main_arg8) := by after_results_simp
theorem w1b_arg9 (V : Valuation τ sig (Elt F)) : after ops1b V (Proc.devRef .tc main_arg9) = V (Proc.devRef .tc main_arg9) := by after_results_simp
theorem w1b_arg10 (V : Valuation τ sig (Elt F)) : after ops1b V (Proc.devRef .tc main_arg10) = V (Proc.devRef .tc main_arg10) := by after_results_simp
theorem w1b_arg11 (V : Valuation τ sig (Elt F)) : after ops1b V (Proc.devRef .tc main_arg11) = V (Proc.devRef .tc main_arg11) := by after_results_simp
theorem w1b_arg12 (V : Valuation τ sig (Elt F)) : after ops1b V (Proc.devRef .tc main_arg12) = V (Proc.devRef .tc main_arg12) := by after_results_simp
theorem w1b_arg13 (V : Valuation τ sig (Elt F)) : after ops1b V (Proc.devRef .tc main_arg13) = V (Proc.devRef .tc main_arg13) := by after_results_simp
theorem w1b_arg14 (V : Valuation τ sig (Elt F)) : after ops1b V (Proc.devRef .tc main_arg14) = V (Proc.devRef .tc main_arg14) := by after_results_simp
theorem w1b_arg15 (V : Valuation τ sig (Elt F)) : after ops1b V (Proc.devRef .tc main_arg15) = V (Proc.devRef .tc main_arg15) := by after_results_simp
theorem w1b_arg16 (V : Valuation τ sig (Elt F)) : after ops1b V (Proc.devRef .tc main_arg16) = V (Proc.devRef .tc main_arg16) := by after_results_simp
theorem w1b_arg17 (V : Valuation τ sig (Elt F)) : after ops1b V (Proc.devRef .tc main_arg17) = V (Proc.devRef .tc main_arg17) := by after_results_simp
theorem w2_arg0 (V : Valuation τ sig (Elt F)) : after ops2 V (Proc.devRef .tc main_arg0) = V (Proc.devRef .tc main_arg0) := by after_results_simp
theorem w2_arg1 (V : Valuation τ sig (Elt F)) : after ops2 V (Proc.devRef .tc main_arg1) = V (Proc.devRef .tc main_arg1) := by after_results_simp
theorem w2_arg2 (V : Valuation τ sig (Elt F)) : after ops2 V (Proc.devRef .tc main_arg2) = V (Proc.devRef .tc main_arg2) := by after_results_simp
theorem w2_arg3 (V : Valuation τ sig (Elt F)) : after ops2 V (Proc.devRef .tc main_arg3) = V (Proc.devRef .tc main_arg3) := by after_results_simp
theorem w2_arg4 (V : Valuation τ sig (Elt F)) : after ops2 V (Proc.devRef .tc main_arg4) = V (Proc.devRef .tc main_arg4) := by after_results_simp
theorem w2_arg5 (V : Valuation τ sig (Elt F)) : after ops2 V (Proc.devRef .tc main_arg5) = V (Proc.devRef .tc main_arg5) := by after_results_simp
theorem w2_arg6 (V : Valuation τ sig (Elt F)) : after ops2 V (Proc.devRef .tc main_arg6) = V (Proc.devRef .tc main_arg6) := by after_results_simp
theorem w2_arg7 (V : Valuation τ sig (Elt F)) : after ops2 V (Proc.devRef .tc main_arg7) = V (Proc.devRef .tc main_arg7) := by after_results_simp
theorem w2_arg8 (V : Valuation τ sig (Elt F)) : after ops2 V (Proc.devRef .tc main_arg8) = V (Proc.devRef .tc main_arg8) := by after_results_simp
theorem w2_arg9 (V : Valuation τ sig (Elt F)) : after ops2 V (Proc.devRef .tc main_arg9) = V (Proc.devRef .tc main_arg9) := by after_results_simp
theorem w2_arg10 (V : Valuation τ sig (Elt F)) : after ops2 V (Proc.devRef .tc main_arg10) = V (Proc.devRef .tc main_arg10) := by after_results_simp
theorem w2_arg11 (V : Valuation τ sig (Elt F)) : after ops2 V (Proc.devRef .tc main_arg11) = V (Proc.devRef .tc main_arg11) := by after_results_simp
theorem w2_arg12 (V : Valuation τ sig (Elt F)) : after ops2 V (Proc.devRef .tc main_arg12) = V (Proc.devRef .tc main_arg12) := by after_results_simp
theorem w2_arg13 (V : Valuation τ sig (Elt F)) : after ops2 V (Proc.devRef .tc main_arg13) = V (Proc.devRef .tc main_arg13) := by after_results_simp
theorem w2_arg14 (V : Valuation τ sig (Elt F)) : after ops2 V (Proc.devRef .tc main_arg14) = V (Proc.devRef .tc main_arg14) := by after_results_simp
theorem w2_arg15 (V : Valuation τ sig (Elt F)) : after ops2 V (Proc.devRef .tc main_arg15) = V (Proc.devRef .tc main_arg15) := by after_results_simp
theorem w2_arg16 (V : Valuation τ sig (Elt F)) : after ops2 V (Proc.devRef .tc main_arg16) = V (Proc.devRef .tc main_arg16) := by after_results_simp
theorem w2_arg17 (V : Valuation τ sig (Elt F)) : after ops2 V (Proc.devRef .tc main_arg17) = V (Proc.devRef .tc main_arg17) := by after_results_simp
theorem w1a_v24 (V : Valuation τ sig (Elt F)) : after ops1a V (Proc.devRef .tc main_v24) = V (Proc.devRef .tc main_v24) := by after_results_simp
theorem w1b_v24 (V : Valuation τ sig (Elt F)) : after ops1b V (Proc.devRef .tc main_v24) = V (Proc.devRef .tc main_v24) := by after_results_simp

/-! ### The first window -/
theorem w0_v24 (V : Valuation τ sig (Elt F)) : after ops0 V (Proc.devRef .tc main_v24) = val_main_v24 (F := F) (V (Proc.devRef .tc main_arg0)) (V (Proc.devRef .tc main_arg10)) (V (Proc.devRef .tc main_arg11)) := by
  after_results_simp <;> rfl
theorem w0_v47 (V : Valuation τ sig (Elt F)) : after ops0 V (Proc.devRef .tc main_v47) = val_main_v47 (F := F) (V (Proc.devRef .tc main_arg0)) (V (Proc.devRef .tc main_arg1)) (V (Proc.devRef .tc main_arg2)) (V (Proc.devRef .tc main_arg10)) (V (Proc.devRef .tc main_arg11)) := by
  after_results_simp <;> rfl
theorem w0_v49 (V : Valuation τ sig (Elt F)) : after ops0 V (Proc.devRef .tc main_v49) = val_main_v49 (F := F) (V (Proc.devRef .tc main_arg12)) := by
  after_results_simp <;> rfl

/-! ### The second window up to its concatenate: the two product-sums, given what the first window left -/
theorem w1a_v64 (V : Valuation τ sig (Elt F)) (x0 : (⟨S64x512, .f32⟩ : BufTy).Contents (Elt F)) (x1 : (⟨S1x512x512x2, .f32⟩ : BufTy).Contents (Elt F)) (x2 : (⟨S1x512x512x2, .f32⟩ : BufTy).Contents (Elt F)) (x3 : (⟨S1x512x512x2, .f32⟩ : BufTy).Contents (Elt F)) (x5 : (⟨S1x512x512x1, .f32⟩ : BufTy).Contents (Elt F)) (x10 : (⟨S512, .f32⟩ : BufTy).Contents (Elt F)) (x11 : (⟨S512, .f32⟩ : BufTy).Contents (Elt F)) (x12 : (⟨S512x512x2, .f32⟩ : BufTy).Contents (Elt F)) (x13 : (⟨S512x512x2, .f32⟩ : BufTy).Contents (Elt F))
    (h47 : V (Proc.devRef .tc main_v47) = val_main_v47 (F := F) x0 x1 x2 x10 x11) (h49 : V (Proc.devRef .tc main_v49) = val_main_v49 (F := F) x12)
    (h3 : V (Proc.devRef .tc main_arg3) = x3) (h5 : V (Proc.devRef .tc main_arg5) = x5) (h13 : V (Proc.devRef .tc main_arg13) = x13) :
    after ops1a V (Proc.devRef .tc main_v64) = val_main_v64 (F := F) x0 x1 x2 x3 x5 x10 x11 x12 x13 := by
  after_results_simp
  rw [h47, h49, h3, h5, h13]
  rfl
theorem w1a_v70 (V : Valuation τ sig (Elt F)) (x0 : (⟨S64x512, .f32⟩ : BufTy).Contents (Elt F)) (x1 : (⟨S1x512x512x2, .f32⟩ : BufTy).Contents (Elt F)) (x2 : (⟨S1x512x512x2, .f32⟩ : BufTy).Contents (Elt F)) (x4 : (⟨S1x512x512x2, .f32⟩ : BufTy).Contents (Elt F)) (x6 : (⟨S1x512x512x1, .f32⟩ : BufTy).Contents (Elt F)) (x10 : (⟨S512, .f32⟩ : BufTy).Contents (Elt F)) (x11 : (⟨S512, .f32⟩ : BufTy).Contents (Elt F)) (x12 : (⟨S512x512x2, .f32⟩ : BufTy).Contents (Elt F)) (x13 : (⟨S512x512x2, .f32⟩ : BufTy).Contents (Elt F))
    (h47 : V (Proc.devRef .tc main_v47) = val_main_v47 (F := F) x0 x1 x2 x10 x11) (h49 : V (Proc.devRef .tc main_v49) = val_main_v49 (F := F) x12)
    (h4 : V (Proc.devRef .tc main_arg4) = x4) (h6 : V (Proc.devRef .tc main_arg6) = x6) (h13 : V (Proc.devRef .tc main_arg13) = x13) :
    after ops1a V (Proc.devRef .tc main_v70) = val_main_v70 (F := F) x0 x1 x2 x4 x6 x10 x11 x12 x13 := by
  after_results_simp
  rw [h47, h49, h4, h6, h13]
  rfl

/-! ### From the concatenate on: the second normalised planes, given the two product-sums -/
theorem w1b_v95 (V : Valuation τ sig (Elt F)) (x0 : (⟨S64x512, .f32⟩ : BufTy).Contents (Elt F)) (x1 : (⟨S1x512x512x2, .f32⟩ : BufTy).Contents (Elt F)) (x2 : (⟨S1x512x512x2, .f32⟩ : BufTy).Contents (Elt F)) (x3 : (⟨S1x512x512x2, .f32⟩ : BufTy).Contents (Elt F)) (x4 : (⟨S1x512x512x2, .f32⟩ : BufTy).Contents (Elt F)) (x5 : (⟨S1x512x512x1, .f32⟩ : BufTy).Contents (Elt F)) (x6 : (⟨S1x512x512x1, .f32⟩ : BufTy).Contents (Elt F)) (x10 : (⟨S512, .f32⟩ : BufTy).Contents (Elt F)) (x11 : (⟨S512, .f32⟩ : BufTy).Contents (Elt F)) (x12 : (⟨S512x512x2, .f32⟩ : BufTy).Contents (Elt F)) (x13 : (⟨S512x512x2, .f32⟩ : BufTy).Contents (Elt F)) (x14 : (⟨S512x512x2, .f32⟩ : BufTy).Contents (Elt F)) (x15 : (⟨S512x512x2, .f32⟩ : BufTy).Contents (Elt F))
    (h64 : V (Proc.devRef .tc main_v64) = val_main_v64 (F := F) x0 x1 x2 x3 x5 x10 x11 x12 x13) (h70 : V (Proc.devRef .tc main_v70) = val_main_v70 (F := F) x0 x1 x2 x4 x6 x10 x11 x12 x13)
    (h14 : V (Proc.devRef .tc main_arg14) = x14) (h15 : V (Proc.devRef .tc main_arg15) = x15) :
    after ops1b V (Proc.devRef .tc main_v95) = val_main_v95 (F := F) x0 x1 x2 x3 x4 x5 x6 x10 x11 x12 x13 x14 x15 := by
  after_results_simp
  rw [h64, h70, h14, h15]
  rfl
theorem w1b_v97 (V : Valuation τ sig (Elt F)) (x0 : (⟨S64x512, .f32⟩ : BufTy).Contents (Elt F)) (x1 : (⟨S1x512x512x2, .f32⟩ : BufTy).Contents (Elt F)) (x2 : (⟨S1x512x512x2, .f32⟩ : BufTy).Contents (Elt F)) (x3 : (⟨S1x512x512x2, .f32⟩ : BufTy).Contents (Elt F)) (x4 : (⟨S1x512x512x2, .f32⟩ : BufTy).Contents (Elt F)) (x5 : (⟨S1x512x512x1, .f32⟩ : BufTy).Contents (Elt F)) (x6 : (⟨S1x512x512x1, .f32⟩ : BufTy).Contents (Elt F)) (x10 : (⟨S512, .f32⟩ : BufTy).Contents (Elt F)) (x11 : (⟨S512, .f32⟩ : BufTy).Contents (Elt F)) (x12 : (⟨S512x512x2, .f32⟩ : BufTy).Contents (Elt F)) (x13 : (⟨S512x512x2, .f32⟩ : BufTy).Contents (Elt F)) (x14 : (⟨S512x512x2, .f32⟩ : BufTy).Contents (Elt F)) (x15 : (⟨S512x512x2, .f32⟩ : BufTy).Contents (Elt F))
    (h64 : V (Proc.devRef .tc main_v64) = val_main_v64 (F := F) x0 x1 x2 x3 x5 x10 x11 x12 x13) (h70 : V (Proc.devRef .tc main_v70) = val_main_v70 (F := F) x0 x1 x2 x4 x6 x10 x11 x12 x13)
    (h14 : V (Proc.devRef .tc main_arg14) = x14) (h15 : V (Proc.devRef .tc main_arg15) = x15) :
    after ops1b V (Proc.devRef .tc main_v97) = val_main_v97 (F := F) x0 x1 x2 x3 x4 x5 x6 x10 x11 x12 x13 x14 x15 := by
  after_results_simp
  rw [h64, h70, h14, h15]
  rfl
theorem w1b_v98 (V : Valuation τ sig (Elt F)) : after ops1b V (Proc.devRef .tc main_v98) = val_main_v98 (F := F) := by
  after_results_simp <;> rfl

/-! ### The third window, given what the first two left -/
theorem w2_v143 (V : Valuation τ sig (Elt F)) (x0 : (⟨S64x512, .f32⟩ : BufTy).Contents (Elt F)) (x1 x2 x3 x4 : (⟨S1x512x512x2, .f32⟩ : BufTy).Contents (Elt F)) (x5 x6 : (⟨S1x512x512x1, .f32⟩ : BufTy).Contents (Elt F)) (x7 : (⟨S1x512x512x2, .f32⟩ : BufTy).Contents (Elt F)) (x8 : (⟨S1x512x512x1, .f32⟩ : BufTy).Contents (Elt F)) (x9 x10 x11 : (⟨S512, .f32⟩ : BufTy).Contents (Elt F)) (x12 x13 x14 x15 : (⟨S512x512x2, .f32⟩ : BufTy).Contents (Elt F)) (x16 x17 : (⟨S512x512x1, .f32⟩ : BufTy).Contents (Elt F))
    (h95 : V (Proc.devRef .tc main_v95) = val_main_v95 (F := F) x0 x1 x2 x3 x4 x5 x6 x10 x11 x12 x13 x14 x15) (h97 : V (Proc.devRef .tc main_v97) = val_main_v97 (F := F) x0 x1 x2 x3 x4 x5 x6 x10 x11 x12 x13 x14 x15)
    (h98 : V (Proc.devRef .tc main_v98) = val_main_v98 (F := F)) (h24 : V (Proc.devRef .tc main_v24) = val_main_v24 (F := F) x0 x10 x11)
    (h7 : V (Proc.devRef .tc main_arg7) = x7) (h8 : V (Proc.devRef .tc main_arg8) = x8) (h9 : V (Proc.devRef .tc main_arg9) = x9)
    (h16 : V (Proc.devRef .tc main_arg16) = x16) (h17 : V (Proc.devRef .tc main_arg17) = x17) :
    after ops2 V (Proc.devRef .tc main_v143) = val_main_v143 (F := F) x0 x1 x2 x3 x4 x5 x6 x7 x8 x9 x10 x11 x12 x13 x14 x15 x16 x17 := by
  after_results_simp
  rw [h95, h97, h98, h24, h7, h8, h9, h16, h17]
  rfl

/-! ### The run -/

/-- The result buffer ends at the last stage of the arguments. -/
theorem result_eq (m : (ℓ : Loc nD τ sig) → Buf (Elt F) ℓ) (c : Dev nD) :
    after opsAll (launchContents m c) (Proc.devRef .tc main_v143) = val_main_v143 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  show after (ops0 ++ ((ops1a ++ ops1b) ++ ops2)) _ _ = _
  rw [StableHlo.after_append, StableHlo.after_append, StableHlo.after_append]
  have h47 := w0_v47 (F := F) (launchContents m c)
  have h49 := w0_v49 (F := F) (launchContents m c)
  have h64 := w1a_v64 (after ops0 (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) h47 h49 ((w0_arg3 _).trans rfl) ((w0_arg5 _).trans rfl) ((w0_arg13 _).trans rfl)
  have h70 := w1a_v70 (after ops0 (launchContents m c)) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg10)) (m ((c.tc : Thread nD τ).loc main_arg11)) (m ((c.tc : Thread nD τ).loc main_arg12)) (m ((c.tc : Thread nD τ).loc main_arg13)) h47 h49 ((w0_arg4 _).trans rfl) ((w0_arg6 _).trans rfl) ((w0_arg13 _).trans rfl)
  have h95 := w1b_v95 (after ops1a (after ops0 (launchContents m c))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) h64 h70 ((w1a_arg14 _).trans ((w0_arg14 _).trans rfl)) ((w1a_arg15 _).trans ((w0_arg15 _).trans rfl))
  have h97 := w1b_v97 (after ops1a (after ops0 (launchContents m c))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) h64 h70 ((w1a_arg14 _).trans ((w0_arg14 _).trans rfl)) ((w1a_arg15 _).trans ((w0_arg15 _).trans rfl))
  exact w2_v143 (after ops1b (after ops1a (after ops0 (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) h95 h97 (w1b_v98 _) ((w1b_v24 _).trans ((w1a_v24 _).trans (w0_v24 _))) ((w1b_arg7 _).trans ((w1a_arg7 _).trans ((w0_arg7 _).trans rfl))) ((w1b_arg8 _).trans ((w1a_arg8 _).trans ((w0_arg8 _).trans rfl))) ((w1b_arg9 _).trans ((w1a_arg9 _).trans ((w0_arg9 _).trans rfl))) ((w1b_arg16 _).trans ((w1a_arg16 _).trans ((w0_arg16 _).trans rfl))) ((w1b_arg17 _).trans ((w1a_arg17 _).trans ((w0_arg17 _).trans rfl)))

theorem arg0_eq (m : (ℓ : Loc nD τ sig) → Buf (Elt F) ℓ) (c : Dev nD) : after opsAll (launchContents m c) (Proc.devRef .tc main_arg0) = m ((c.tc : Thread nD τ).loc main_arg0) := by
  show after (ops0 ++ ((ops1a ++ ops1b) ++ ops2)) _ _ = _
  rw [StableHlo.after_append, StableHlo.after_append, StableHlo.after_append, w2_arg0, w1b_arg0, w1a_arg0, w0_arg0]
theorem arg1_eq (m : (ℓ : Loc nD τ sig) → Buf (Elt F) ℓ) (c : Dev nD) : after opsAll (launchContents m c) (Proc.devRef .tc main_arg1) = m ((c.tc : Thread nD τ).loc main_arg1) := by
  show after (ops0 ++ ((ops1a ++ ops1b) ++ ops2)) _ _ = _
  rw [StableHlo.after_append, StableHlo.after_append, StableHlo.after_append, w2_arg1, w1b_arg1, w1a_arg1, w0_arg1]
theorem arg2_eq (m : (ℓ : Loc nD τ sig) → Buf (Elt F) ℓ) (c : Dev nD) : after opsAll (launchContents m c) (Proc.devRef .tc main_arg2) = m ((c.tc : Thread nD τ).loc main_arg2) := by
  show after (ops0 ++ ((ops1a ++ ops1b) ++ ops2)) _ _ = _
  rw [StableHlo.after_append, StableHlo.after_append, StableHlo.after_append, w2_arg2, w1b_arg2, w1a_arg2, w0_arg2]
theorem arg3_eq (m : (ℓ : Loc nD τ sig) → Buf (Elt F) ℓ) (c : Dev nD) : after opsAll (launchContents m c) (Proc.devRef .tc main_arg3) = m ((c.tc : Thread nD τ).loc main_arg3) := by
  show after (ops0 ++ ((ops1a ++ ops1b) ++ ops2)) _ _ = _
  rw [StableHlo.after_append, StableHlo.after_append, StableHlo.after_append, w2_arg3, w1b_arg3, w1a_arg3, w0_arg3]
theorem arg4_eq (m : (ℓ : Loc nD τ sig) → Buf (Elt F) ℓ) (c : Dev nD) : after opsAll (launchContents m c) (Proc.devRef .tc main_arg4) = m ((c.tc : Thread nD τ).loc main_arg4) := by
  show after (ops0 ++ ((ops1a ++ ops1b) ++ ops2)) _ _ = _
  rw [StableHlo.after_append, StableHlo.after_append, StableHlo.after_append, w2_arg4, w1b_arg4, w1a_arg4, w0_arg4]
theorem arg5_eq (m : (ℓ : Loc nD τ sig) → Buf (Elt F) ℓ) (c : Dev nD) : after opsAll (launchContents m c) (Proc.devRef .tc main_arg5) = m ((c.tc : Thread nD τ).loc main_arg5) := by
  show after (ops0 ++ ((ops1a ++ ops1b) ++ ops2)) _ _ = _
  rw [StableHlo.after_append, StableHlo.after_append, StableHlo.after_append, w2_arg5, w1b_arg5, w1a_arg5, w0_arg5]
theorem arg6_eq (m : (ℓ : Loc nD τ sig) → Buf (Elt F) ℓ) (c : Dev nD) : after opsAll (launchContents m c) (Proc.devRef .tc main_arg6) = m ((c.tc : Thread nD τ).loc main_arg6) := by
  show after (ops0 ++ ((ops1a ++ ops1b) ++ ops2)) _ _ = _
  rw [StableHlo.after_append, StableHlo.after_append, StableHlo.after_append, w2_arg6, w1b_arg6, w1a_arg6, w0_arg6]
theorem arg7_eq (m : (ℓ : Loc nD τ sig) → Buf (Elt F) ℓ) (c : Dev nD) : after opsAll (launchContents m c) (Proc.devRef .tc main_arg7) = m ((c.tc : Thread nD τ).loc main_arg7) := by
  show after (ops0 ++ ((ops1a ++ ops1b) ++ ops2)) _ _ = _
  rw [StableHlo.after_append, StableHlo.after_append, StableHlo.after_append, w2_arg7, w1b_arg7, w1a_arg7, w0_arg7]
theorem arg8_eq (m : (ℓ : Loc nD τ sig) → Buf (Elt F) ℓ) (c : Dev nD) : after opsAll (launchContents m c) (Proc.devRef .tc main_arg8) = m ((c.tc : Thread nD τ).loc main_arg8) := by
  show after (ops0 ++ ((ops1a ++ ops1b) ++ ops2)) _ _ = _
  rw [StableHlo.after_append, StableHlo.after_append, StableHlo.after_append, w2_arg8, w1b_arg8, w1a_arg8, w0_arg8]
theorem arg9_eq (m : (ℓ : Loc nD τ sig) → Buf (Elt F) ℓ) (c : Dev nD) : after opsAll (launchContents m c) (Proc.devRef .tc main_arg9) = m ((c.tc : Thread nD τ).loc main_arg9) := by
  show after (ops0 ++ ((ops1a ++ ops1b) ++ ops2)) _ _ = _
  rw [StableHlo.after_append, StableHlo.after_append, StableHlo.after_append, w2_arg9, w1b_arg9, w1a_arg9, w0_arg9]
theorem arg10_eq (m : (ℓ : Loc nD τ sig) → Buf (Elt F) ℓ) (c : Dev nD) : after opsAll (launchContents m c) (Proc.devRef .tc main_arg10) = m ((c.tc : Thread nD τ).loc main_arg10) := by
  show after (ops0 ++ ((ops1a ++ ops1b) ++ ops2)) _ _ = _
  rw [StableHlo.after_append, StableHlo.after_append, StableHlo.after_append, w2_arg10, w1b_arg10, w1a_arg10, w0_arg10]
theorem arg11_eq (m : (ℓ : Loc nD τ sig) → Buf (Elt F) ℓ) (c : Dev nD) : after opsAll (launchContents m c) (Proc.devRef .tc main_arg11) = m ((c.tc : Thread nD τ).loc main_arg11) := by
  show after (ops0 ++ ((ops1a ++ ops1b) ++ ops2)) _ _ = _
  rw [StableHlo.after_append, StableHlo.after_append, StableHlo.after_append, w2_arg11, w1b_arg11, w1a_arg11, w0_arg11]
theorem arg12_eq (m : (ℓ : Loc nD τ sig) → Buf (Elt F) ℓ) (c : Dev nD) : after opsAll (launchContents m c) (Proc.devRef .tc main_arg12) = m ((c.tc : Thread nD τ).loc main_arg12) := by
  show after (ops0 ++ ((ops1a ++ ops1b) ++ ops2)) _ _ = _
  rw [StableHlo.after_append, StableHlo.after_append, StableHlo.after_append, w2_arg12, w1b_arg12, w1a_arg12, w0_arg12]
theorem arg13_eq (m : (ℓ : Loc nD τ sig) → Buf (Elt F) ℓ) (c : Dev nD) : after opsAll (launchContents m c) (Proc.devRef .tc main_arg13) = m ((c.tc : Thread nD τ).loc main_arg13) := by
  show after (ops0 ++ ((ops1a ++ ops1b) ++ ops2)) _ _ = _
  rw [StableHlo.after_append, StableHlo.after_append, StableHlo.after_append, w2_arg13, w1b_arg13, w1a_arg13, w0_arg13]
theorem arg14_eq (m : (ℓ : Loc nD τ sig) → Buf (Elt F) ℓ) (c : Dev nD) : after opsAll (launchContents m c) (Proc.devRef .tc main_arg14) = m ((c.tc : Thread nD τ).loc main_arg14) := by
  show after (ops0 ++ ((ops1a ++ ops1b) ++ ops2)) _ _ = _
  rw [StableHlo.after_append, StableHlo.after_append, StableHlo.after_append, w2_arg14, w1b_arg14, w1a_arg14, w0_arg14]
theorem arg15_eq (m : (ℓ : Loc nD τ sig) → Buf (Elt F) ℓ) (c : Dev nD) : after opsAll (launchContents m c) (Proc.devRef .tc main_arg15) = m ((c.tc : Thread nD τ).loc main_arg15) := by
  show after (ops0 ++ ((ops1a ++ ops1b) ++ ops2)) _ _ = _
  rw [StableHlo.after_append, StableHlo.after_append, StableHlo.after_append, w2_arg15, w1b_arg15, w1a_arg15, w0_arg15]
theorem arg16_eq (m : (ℓ : Loc nD τ sig) → Buf (Elt F) ℓ) (c : Dev nD) : after opsAll (launchContents m c) (Proc.devRef .tc main_arg16) = m ((c.tc : Thread nD τ).loc main_arg16) := by
  show after (ops0 ++ ((ops1a ++ ops1b) ++ ops2)) _ _ = _
  rw [StableHlo.after_append, StableHlo.after_append, StableHlo.after_append, w2_arg16, w1b_arg16, w1a_arg16, w0_arg16]
theorem arg17_eq (m : (ℓ : Loc nD τ sig) → Buf (Elt F) ℓ) (c : Dev nD) : after opsAll (launchContents m c) (Proc.devRef .tc main_arg17) = m ((c.tc : Thread nD τ).loc main_arg17) := by
  show after (ops0 ++ ((ops1a ++ ops1b) ++ ops2)) _ _ = _
  rw [StableHlo.after_append, StableHlo.after_append, StableHlo.after_append, w2_arg17, w1b_arg17, w1a_arg17, w0_arg17]

/-- On every device, from any memory with zero counters: every fair execution of @main terminates with the result at the last
    stage's value of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v143) = val_main_v143 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v143).trans (result_eq m c),
      (h c main_arg0).trans (arg0_eq m c),
      (h c main_arg1).trans (arg1_eq m c),
      (h c main_arg2).trans (arg2_eq m c),
      (h c main_arg3).trans (arg3_eq m c),
      (h c main_arg4).trans (arg4_eq m c),
      (h c main_arg5).trans (arg5_eq m c),
      (h c main_arg6).trans (arg6_eq m c),
      (h c main_arg7).trans (arg7_eq m c),
      (h c main_arg8).trans (arg8_eq m c),
      (h c main_arg9).trans (arg9_eq m c),
      (h c main_arg10).trans (arg10_eq m c),
      (h c main_arg11).trans (arg11_eq m c),
      (h c main_arg12).trans (arg12_eq m c),
      (h c main_arg13).trans (arg13_eq m c),
      (h c main_arg14).trans (arg14_eq m c),
      (h c main_arg15).trans (arg15_eq m c),
      (h c main_arg16).trans (arg16_eq m c),
      (h c main_arg17).trans (arg17_eq m c)⟩)
    (run_fold m ρ)

end Cert.ReferenceIdeal.Stages

end
-- ==== Proof.LibSum4.lean ====
/-
  Sums over the coordinates of a rank-4 index, and the host's sum over the three trailing axes of a rank-4 array.

  A rank-4 index is its four coordinates, so a sum over all indices is the fourfold sum over coordinates. A host reduction
  with an add body over axes 1, 2, 3 of an array of extents (n0, n1, n2, n3) keeps the leading coordinate: at `a` it is
  the initial value plus the sum over the other three coordinates of the entry at `(a, b, c, d)`.
-/
import Idealize.ShloMosaic.PureOps.Ideal.Laws
import Idealize.ShloMosaic.Lib.ValueIdx

noncomputable section

namespace Cert.Lib

open Idealize.ShloMosaic Idealize.ShloMosaic.ValueIdx

/-- A rank-4 index set is the product of its four coordinate ranges. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over all rank-4 indices is the sum over the four coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  -- re-index the sum along the bijection with the product of the coordinate ranges, then split the product sum
  rw [← Equiv.sum_comp (idxEquiv4 (n0 := n0) (n1 := n1) (n2 := n2) (n3 := n3)).symm f]
  simp only [Fintype.sum_prod_type]
  rfl

/-- Dropping the three trailing axes of a rank-4 index leaves its leading coordinate. -/
theorem drop_tail3_ix4 {n0 n1 n2 n3 : Nat} (h : (⟨4, ![n0, n1, n2, n3]⟩ : Shape).ReducesTo [1, 2, 3] ⟨1, ![n0]⟩)
    (a : Fin n0) (b : Fin n1) (c : Fin n2) (d : Fin n3) : h.drop (ix4 a b c d) = ix1 a := by
  -- the only axis outside 1, 2, 3 is axis 0, whatever the extents are
  have hk : (⟨4, ![n0, n1, n2, n3]⟩ : Shape).kept [1, 2, 3] = [0] := rfl
  funext e
  match e with
  | ⟨0, _⟩ =>
    exact Fin.ext (h.drop_apply_val_of_eq (ix4 a b c d) ⟨0, Nat.one_pos⟩ 0 (by rw [hk]; exact Nat.one_pos) (by simp [hk]))

/-- The host's sum over the three trailing axes, at the kept leading coordinate. -/
theorem hostReduceAdd_tail3 {n0 n1 n2 n3 : Nat} (h : (⟨4, ![n0, n1, n2, n3]⟩ : Shape).ReducesTo [1, 2, 3] ⟨1, ![n0]⟩)
    (x : (⟨4, ![n0, n1, n2, n3]⟩ : Shape).Idx → EReal) (init : EReal) (a : Fin n0) :
    Ideal.hostReduceAdd h x init (ix1 a) = init + ∑ b : Fin n1, ∑ c : Fin n2, ∑ d : Fin n3, x (ix4 a b c d) := by
  unfold Ideal.hostReduceAdd
  congr 1
  -- the filtered sum is a sum of an indicator; over coordinates, only the leading coordinate `a` contributes
  rw [Finset.sum_filter, sum_idx4, Finset.sum_eq_single a]
  · simp only [drop_tail3_ix4, if_true]
  · intro a' _ hne
    have hne' : ¬ (ix1 a' = ix1 a) := fun he => hne (congrFun he 0)
    simp only [drop_tail3_ix4, hne', if_false, Finset.sum_const_zero]
  · intro hn
    exact absurd (Finset.mem_univ a) hn

end Cert.Lib

end
-- ==== Proof.RefStageA.lean ====
/-
  The reference, read stage by stage at one batch row `b`: first part, up to the first rectifier.

  The reference works on arrays of extents (64, 512, 512, 2): batch row, sublane, lane, slice. At a fixed `b` its values are the
  specification's stages of row `b`: the normalised row entries; then, through the joint normalisation of the two slices (a sum
  over sublanes, lanes AND slices, which is the sum of the two planes' totals) and the rectifier, the planes `h0` and `h1`.
-/
import proofs.«167910_j23965917511984_1_alg».proof.Proof.RefReadP
import proofs.«167910_j23965917511984_1_alg».proof.Proof.Spec
import proofs.«167910_j23965917511984_1_alg».proof.Proof.LibSum4

noncomputable section

namespace Cert.ReferenceIdeal.Stages

open Cert.ReferenceIdeal Cert.ReferenceIdeal.Gen Cert.ReferenceIdeal.ReadP Idealize.ShloMosaic Idealize.ShloMosaic.TcCoe Idealize.ShloMosaic.ValueIdx

variable (x0 : (⟨S64x512, .f32⟩ : BufTy).Contents (Elt Ideal)) (x1 x2 x3 x4 : (⟨S1x512x512x2, .f32⟩ : BufTy).Contents (Elt Ideal)) (x5 x6 : (⟨S1x512x512x1, .f32⟩ : BufTy).Contents (Elt Ideal)) (x7 : (⟨S1x512x512x2, .f32⟩ : BufTy).Contents (Elt Ideal)) (x8 : (⟨S1x512x512x1, .f32⟩ : BufTy).Contents (Elt Ideal)) (x9 x10 x11 : (⟨S512, .f32⟩ : BufTy).Contents (Elt Ideal)) (x12 x13 x14 x15 : (⟨S512x512x2, .f32⟩ : BufTy).Contents (Elt Ideal)) (x16 x17 : (⟨S512x512x1, .f32⟩ : BufTy).Contents (Elt Ideal))

/-- The parameters, from the seventeen parameter arrays. -/
abbrev pars (x1 x2 x3 x4 : (⟨S1x512x512x2, .f32⟩ : BufTy).Contents (Elt Ideal)) (x5 x6 : (⟨S1x512x512x1, .f32⟩ : BufTy).Contents (Elt Ideal)) (x7 : (⟨S1x512x512x2, .f32⟩ : BufTy).Contents (Elt Ideal)) (x8 : (⟨S1x512x512x1, .f32⟩ : BufTy).Contents (Elt Ideal)) (x9 x10 x11 : (⟨S512, .f32⟩ : BufTy).Contents (Elt Ideal)) (x12 x13 x14 x15 : (⟨S512x512x2, .f32⟩ : BufTy).Contents (Elt Ideal)) (x16 x17 : (⟨S512x512x1, .f32⟩ : BufTy).Contents (Elt Ideal)) : Cert.Spec.Params :=
  Cert.Spec.paramsOf x1 x2 x3 x4 x5 x6 x7 x8 x9 x10 x11 x12 x13 x14 x15 x16 x17

/-- Batch row `b` of the input. -/
abbrev row (x0 : (⟨S64x512, .f32⟩ : BufTy).Contents (Elt Ideal)) (b : Fin 64) : Cert.Spec.Lane := fun d => x0 (ix2 b d)

local notation "𝐏" => pars x1 x2 x3 x4 x5 x6 x7 x8 x9 x10 x11 x12 x13 x14 x15 x16 x17

/-! ### The row's own normalisation (operations 0 to 23) -/

/-- The row's mean, at the row's one entry of the (64, 1) array. -/
private theorem mean0_eq (b : Fin 64) :
    val_main_v3 (F := Ideal) x0 (ix2 b 0) = Cert.Spec.mean0 (row x0 b) := by
  rw [val_main_v3_apply, val_main_v1_apply, val_main_v0_apply, val_main_v2_apply, val_main_cst_0_apply,
    val_main_cst_apply]
  simp only [Ideal.hostDivf_def, Ideal.ofBits_def, Ideal.ofBits_zero_f32, zero_add]
  unfold Cert.Spec.mean0 Cert.Spec.nRow
  refine congrArg (Ideal.div · _) (Finset.sum_congr rfl fun k _ => ?_)
  exact congrArg x0 (funext fun a => Fin.ext (by match a with | ⟨0, _⟩ => rfl | ⟨1, _⟩ => rfl))

/-- The centred entry, as the variance's operand reads it. -/
private theorem dev0_eq (b : Fin 64) (d : Fin 512) :
    val_main_v5 (F := Ideal) x0 (ix2 b d) = Cert.Spec.dev0 (row x0 b) d := by
  rw [val_main_v5_apply, val_main_v4_apply,
    show idx_main_v4 (ix2 b d) = ix2 b 0 from
      funext fun a => Fin.ext (by match a with | ⟨0, _⟩ => rfl | ⟨1, _⟩ => rfl),
    mean0_eq]
  rfl

/-- The centred entry again, as the output reads it: the mean is subtracted a second time from the input. -/
private theorem dev0_eq' (b : Fin 64) (d : Fin 512) :
    val_main_v12 (F := Ideal) x0 (ix2 b d) = Cert.Spec.dev0 (row x0 b) d := by
  rw [val_main_v12_apply, val_main_v11_apply,
    show idx_main_v11 (ix2 b d) = ix2 b 0 from
      funext fun a => Fin.ext (by match a with | ⟨0, _⟩ => rfl | ⟨1, _⟩ => rfl),
    mean0_eq]
  rfl

/-- The row's variance. -/
private theorem var0_eq (b : Fin 64) :
    val_main_v10 (F := Ideal) x0 (ix2 b 0) = Cert.Spec.var0 (row x0 b) := by
  rw [val_main_v10_apply, val_main_v8_apply, val_main_v7_apply, val_main_v9_apply, val_main_cst_2_apply,
    val_main_cst_1_apply]
  simp only [Ideal.hostDivf_def, Ideal.ofBits_def, Ideal.ofBits_zero_f32, zero_add]
  unfold Cert.Spec.var0 Cert.Spec.nRow
  refine congrArg (Ideal.div · _) (Finset.sum_congr rfl fun k _ => ?_)
  rw [show idx_main_v7 (idx_main_v8 (ix2 b 0)) k = ix2 b k from
      funext fun a => Fin.ext (by match a with | ⟨0, _⟩ => rfl | ⟨1, _⟩ => rfl),
    val_main_v6_apply, dev0_eq]
  rfl

/-- The normalised row. -/
theorem ref_xn (b : Fin 64) (d : Fin 512) :
    val_main_v23 (F := Ideal) x0 x10 x11 (ix2 b d) = Cert.Spec.xn (pars x1 x2 x3 x4 x5 x6 x7 x8 x9 x10 x11 x12 x13 x14 x15 x16 x17) (row x0 b) d := by
  rw [val_main_v23_apply, val_main_v20_apply, val_main_v17_apply, dev0_eq', val_main_v16_apply,
    show idx_main_v16 (ix2 b d) = ix2 b 0 from
      funext fun a => Fin.ext (by match a with | ⟨0, _⟩ => rfl | ⟨1, _⟩ => rfl),
    val_main_v15_apply, val_main_v14_apply, var0_eq, val_main_v13_apply, val_main_cst_3_apply,
    val_main_v19_apply, val_main_v18_apply,
    show idx_main_v18 (idx_main_v19 (ix2 b d)) = ix1 d from
      funext fun a => Fin.ext (by match a with | ⟨0, _⟩ => rfl),
    val_main_v22_apply, val_main_v21_apply,
    show idx_main_v21 (idx_main_v22 (ix2 b d)) = ix1 d from
      funext fun a => Fin.ext (by match a with | ⟨0, _⟩ => rfl)]
  rfl

/-! ### The two planes and their joint normalisation (operations 24 to 58) -/

/-- An entry of the two planes before their normalisation: the normalised row entry of its sublane times the weight, plus
    the shift, both read at batch coordinate 0. -/
private theorem z_eq (b : Fin 64) (d u : Fin 512) (k : Fin 2) :
    val_main_v29 (F := Ideal) x0 x1 x2 x10 x11 (ix4 b d u k)
      = Cert.Spec.xn 𝐏 (row x0 b) d * x1 (ix4 0 d u k) + x2 (ix4 0 d u k) := by
  rw [val_main_v29_apply, val_main_v27_apply, val_main_v25_apply, val_main_v24_apply,
    show idx_main_v24 (idx_main_v25 (ix4 b d u k)) = ix2 b d from
      funext fun a => Fin.ext (by match a with | ⟨0, _⟩ => rfl | ⟨1, _⟩ => rfl),
    ref_xn x0 x1 x2 x3 x4 x5 x6 x7 x8 x9 x10 x11 x12 x13 x14 x15 x16 x17, val_main_v26_apply, val_main_v28_apply,
    show idx_main_v26 (ix4 b d u k) = ix4 0 d u k from
      funext fun a => Fin.ext (by match a with | ⟨0, _⟩ => rfl | ⟨1, _⟩ => rfl | ⟨2, _⟩ => rfl | ⟨3, _⟩ => rfl),
    show idx_main_v28 (ix4 b d u k) = ix4 0 d u k from
      funext fun a => Fin.ext (by match a with | ⟨0, _⟩ => rfl | ⟨1, _⟩ => rfl | ⟨2, _⟩ => rfl | ⟨3, _⟩ => rfl)]
  rfl

private theorem z0_eq (b : Fin 64) (d u : Fin 512) :
    val_main_v29 (F := Ideal) x0 x1 x2 x10 x11 (ix4 b d u 0) = Cert.Spec.z0 𝐏 (row x0 b) d u := by
  rw [z_eq x0 x1 x2 x3 x4 x5 x6 x7 x8 x9 x10 x11 x12 x13 x14 x15 x16 x17]; rfl

private theorem z1_eq (b : Fin 64) (d u : Fin 512) :
    val_main_v29 (F := Ideal) x0 x1 x2 x10 x11 (ix4 b d u 1) = Cert.Spec.z1 𝐏 (row x0 b) d u := by
  rw [z_eq x0 x1 x2 x3 x4 x5 x6 x7 x8 x9 x10 x11 x12 x13 x14 x15 x16 x17]; rfl

/-- The sum over sublanes, lanes and slices is the sum of the two planes' totals. -/
private theorem tot1_eq (b : Fin 64) :
    val_main_v30 (F := Ideal) x0 x1 x2 x10 x11 (ix1 b)
      = Cert.Spec.tot (Cert.Spec.z0 𝐏 (row x0 b)) + Cert.Spec.tot (Cert.Spec.z1 𝐏 (row x0 b)) := by
  unfold val_main_v30
  simp only [Host.reduceAdd, Ideal.hostReduceAdd_def]
  rw [Cert.Lib.hostReduceAdd_tail3, val_main_cst_4_apply]
  simp only [Ideal.ofBits_def, Ideal.ofBits_zero_f32, zero_add, Fin.sum_univ_two, z0_eq x0 x1 x2 x3 x4 x5 x6 x7 x8 x9 x10 x11 x12 x13 x14 x15 x16 x17, z1_eq x0 x1 x2 x3 x4 x5 x6 x7 x8 x9 x10 x11 x12 x13 x14 x15 x16 x17,
    Finset.sum_add_distrib]
  rfl

/-- The joint mean of the two planes. -/
private theorem mean1_eq (b : Fin 64) :
    val_main_v33 (F := Ideal) x0 x1 x2 x10 x11 (ix4 b 0 0 0) = Cert.Spec.mean1 𝐏 (row x0 b) := by
  rw [val_main_v33_apply, val_main_v31_apply,
    show idx_main_v31 (ix4 b 0 0 0) = ix1 b from
      funext fun a => Fin.ext (by match a with | ⟨0, _⟩ => rfl),
    tot1_eq x0 x1 x2 x3 x4 x5 x6 x7 x8 x9 x10 x11 x12 x13 x14 x15 x16 x17, val_main_v32_apply, val_main_cst_5_apply]
  rfl

/-- The centred planes, as the variance's operand reads them. -/
private theorem c0_eq (b : Fin 64) (d u : Fin 512) :
    val_main_v35 (F := Ideal) x0 x1 x2 x10 x11 (ix4 b d u 0) = Cert.Spec.c0 𝐏 (row x0 b) d u := by
  rw [val_main_v35_apply, z0_eq x0 x1 x2 x3 x4 x5 x6 x7 x8 x9 x10 x11 x12 x13 x14 x15 x16 x17, val_main_v34_apply,
    show idx_main_v34 (ix4 b d u 0) = ix4 b 0 0 0 from
      funext fun a => Fin.ext (by match a with | ⟨0, _⟩ => rfl | ⟨1, _⟩ => rfl | ⟨2, _⟩ => rfl | ⟨3, _⟩ => rfl),
    mean1_eq x0 x1 x2 x3 x4 x5 x6 x7 x8 x9 x10 x11 x12 x13 x14 x15 x16 x17]
  rfl

private theorem c1_eq (b : Fin 64) (d u : Fin 512) :
    val_main_v35 (F := Ideal) x0 x1 x2 x10 x11 (ix4 b d u 1) = Cert.Spec.c1 𝐏 (row x0 b) d u := by
  rw [val_main_v35_apply, z1_eq x0 x1 x2 x3 x4 x5 x6 x7 x8 x9 x10 x11 x12 x13 x14 x15 x16 x17, val_main_v34_apply,
    show idx_main_v34 (ix4 b d u 1) = ix4 b 0 0 0 from
      funext fun a => Fin.ext (by match a with | ⟨0, _⟩ => rfl | ⟨1, _⟩ => rfl | ⟨2, _⟩ => rfl | ⟨3, _⟩ => rfl),
    mean1_eq x0 x1 x2 x3 x4 x5 x6 x7 x8 x9 x10 x11 x12 x13 x14 x15 x16 x17]
  rfl

/-- The centred planes again, as the output reads them: the mean is subtracted a second time. -/
private theorem c0_eq' (b : Fin 64) (d u : Fin 512) :
    val_main_v42 (F := Ideal) x0 x1 x2 x10 x11 (ix4 b d u 0) = Cert.Spec.c0 𝐏 (row x0 b) d u := by
  rw [val_main_v42_apply, z0_eq x0 x1 x2 x3 x4 x5 x6 x7 x8 x9 x10 x11 x12 x13 x14 x15 x16 x17, val_main_v41_apply,
    show idx_main_v41 (ix4 b d u 0) = ix4 b 0 0 0 from
      funext fun a => Fin.ext (by match a with | ⟨0, _⟩ => rfl | ⟨1, _⟩ => rfl | ⟨2, _⟩ => rfl | ⟨3, _⟩ => rfl),
    mean1_eq x0 x1 x2 x3 x4 x5 x6 x7 x8 x9 x10 x11 x12 x13 x14 x15 x16 x17]
  rfl

private theorem c1_eq' (b : Fin 64) (d u : Fin 512) :
    val_main_v42 (F := Ideal) x0 x1 x2 x10 x11 (ix4 b d u 1) = Cert.Spec.c1 𝐏 (row x0 b) d u := by
  rw [val_main_v42_apply, z1_eq x0 x1 x2 x3 x4 x5 x6 x7 x8 x9 x10 x11 x12 x13 x14 x15 x16 x17, val_main_v41_apply,
    show idx_main_v41 (ix4 b d u 1) = ix4 b 0 0 0 from
      funext fun a => Fin.ext (by match a with | ⟨0, _⟩ => rfl | ⟨1, _⟩ => rfl | ⟨2, _⟩ => rfl | ⟨3, _⟩ => rfl),
    mean1_eq x0 x1 x2 x3 x4 x5 x6 x7 x8 x9 x10 x11 x12 x13 x14 x15 x16 x17]
  rfl

/-- The joint variance of the two planes. -/
private theorem var1_eq (b : Fin 64) :
    val_main_v40 (F := Ideal) x0 x1 x2 x10 x11 (ix4 b 0 0 0) = Cert.Spec.var1 𝐏 (row x0 b) := by
  rw [val_main_v40_apply, val_main_v38_apply,
    show idx_main_v38 (ix4 b 0 0 0) = ix1 b from
      funext fun a => Fin.ext (by match a with | ⟨0, _⟩ => rfl),
    val_main_v39_apply, val_main_cst_7_apply]
  unfold val_main_v37
  simp only [Host.reduceAdd, Ideal.hostReduceAdd_def]
  rw [Cert.Lib.hostReduceAdd_tail3, val_main_cst_6_apply]
  simp only [Ideal.ofBits_def, Ideal.ofBits_zero_f32, zero_add, Fin.sum_univ_two, val_main_v36_apply, c0_eq x0 x1 x2 x3 x4 x5 x6 x7 x8 x9 x10 x11 x12 x13 x14 x15 x16 x17,
    c1_eq x0 x1 x2 x3 x4 x5 x6 x7 x8 x9 x10 x11 x12 x13 x14 x15 x16 x17, Finset.sum_add_distrib]
  rfl

/-- The normalised planes before the rectifier. -/
private theorem n0_eq (b : Fin 64) (d u : Fin 512) :
    val_main_v53 (F := Ideal) x0 x1 x2 x10 x11 x12 x13 (ix4 b d u 0)
      = Cert.Spec.c0 𝐏 (row x0 b) d u * Cert.Spec.istd (Cert.Spec.var1 𝐏 (row x0 b)) * (𝐏).g1_0 d u + (𝐏).be1_0 d u := by
  rw [val_main_v53_apply, val_main_v50_apply, val_main_v47_apply, c0_eq' x0 x1 x2 x3 x4 x5 x6 x7 x8 x9 x10 x11 x12 x13 x14 x15 x16 x17, val_main_v46_apply,
    show idx_main_v46 (ix4 b d u 0) = ix4 b 0 0 0 from
      funext fun a => Fin.ext (by match a with | ⟨0, _⟩ => rfl | ⟨1, _⟩ => rfl | ⟨2, _⟩ => rfl | ⟨3, _⟩ => rfl),
    val_main_v45_apply, val_main_v44_apply, var1_eq x0 x1 x2 x3 x4 x5 x6 x7 x8 x9 x10 x11 x12 x13 x14 x15 x16 x17, val_main_v43_apply, val_main_cst_8_apply,
    val_main_v49_apply, val_main_v48_apply,
    show idx_main_v48 (idx_main_v49 (ix4 b d u 0)) = ix3 d u 0 from
      funext fun a => Fin.ext (by match a with | ⟨0, _⟩ => rfl | ⟨1, _⟩ => rfl | ⟨2, _⟩ => rfl),
    val_main_v52_apply, val_main_v51_apply,
    show idx_main_v51 (idx_main_v52 (ix4 b d u 0)) = ix3 d u 0 from
      funext fun a => Fin.ext (by match a with | ⟨0, _⟩ => rfl | ⟨1, _⟩ => rfl | ⟨2, _⟩ => rfl)]
  rfl

private theorem n1_eq (b : Fin 64) (d u : Fin 512) :
    val_main_v53 (F := Ideal) x0 x1 x2 x10 x11 x12 x13 (ix4 b d u 1)
      = Cert.Spec.c1 𝐏 (row x0 b) d u * Cert.Spec.istd (Cert.Spec.var1 𝐏 (row x0 b)) * (𝐏).g1_1 d u + (𝐏).be1_1 d u := by
  rw [val_main_v53_apply, val_main_v50_apply, val_main_v47_apply, c1_eq' x0 x1 x2 x3 x4 x5 x6 x7 x8 x9 x10 x11 x12 x13 x14 x15 x16 x17, val_main_v46_apply,
    show idx_main_v46 (ix4 b d u 1) = ix4 b 0 0 0 from
      funext fun a => Fin.ext (by match a with | ⟨0, _⟩ => rfl | ⟨1, _⟩ => rfl | ⟨2, _⟩ => rfl | ⟨3, _⟩ => rfl),
    val_main_v45_apply, val_main_v44_apply, var1_eq x0 x1 x2 x3 x4 x5 x6 x7 x8 x9 x10 x11 x12 x13 x14 x15 x16 x17, val_main_v43_apply, val_main_cst_8_apply,
    val_main_v49_apply, val_main_v48_apply,
    show idx_main_v48 (idx_main_v49 (ix4 b d u 1)) = ix3 d u 1 from
      funext fun a => Fin.ext (by match a with | ⟨0, _⟩ => rfl | ⟨1, _⟩ => rfl | ⟨2, _⟩ => rfl),
    val_main_v52_apply, val_main_v51_apply,
    show idx_main_v51 (idx_main_v52 (ix4 b d u 1)) = ix3 d u 1 from
      funext fun a => Fin.ext (by match a with | ⟨0, _⟩ => rfl | ⟨1, _⟩ => rfl | ⟨2, _⟩ => rfl)]
  rfl

/-- After the first joint normalisation and the rectifier: slice 0. -/
theorem ref_h0 (b : Fin 64) (d u : Fin 512) :
    val_main_v58 (F := Ideal) x0 x1 x2 x10 x11 x12 x13 (ix4 b d u 0) = Cert.Spec.h0 (pars x1 x2 x3 x4 x5 x6 x7 x8 x9 x10 x11 x12 x13 x14 x15 x16 x17) (row x0 b) d u := by
  rw [val_main_v58_apply, val_main_v55_apply, val_main_v57_apply, val_main_v54_apply, val_main_cst_9_apply,
    val_main_v56_apply, val_main_cst_10_apply, n0_eq x0 x1 x2 x3 x4 x5 x6 x7 x8 x9 x10 x11 x12 x13 x14 x15 x16 x17]
  rfl

/-- After the first joint normalisation and the rectifier: slice 1. -/
theorem ref_h1 (b : Fin 64) (d u : Fin 512) :
    val_main_v58 (F := Ideal) x0 x1 x2 x10 x11 x12 x13 (ix4 b d u 1) = Cert.Spec.h1 (pars x1 x2 x3 x4 x5 x6 x7 x8 x9 x10 x11 x12 x13 x14 x15 x16 x17) (row x0 b) d u := by
  rw [val_main_v58_apply, val_main_v55_apply, val_main_v57_apply, val_main_v54_apply, val_main_cst_9_apply,
    val_main_v56_apply, val_main_cst_10_apply, n1_eq x0 x1 x2 x3 x4 x5 x6 x7 x8 x9 x10 x11 x12 x13 x14 x15 x16 x17]
  rfl

end Cert.ReferenceIdeal.Stages

end
-- ==== Proof.RefStageB.lean ====
/-
  The reference at one batch row: second part, the two product-sums over the slice axis, their joint normalisation and the
  second rectifier. The sum over the slice axis (length two) of `h · w` is `h0 · w_0 + h1 · w_1`; the two results are joined
  along the slice axis before they are normalised together.
-/
import proofs.«167910_j23965917511984_1_alg».proof.Proof.RefStageA

noncomputable section

namespace Cert.ReferenceIdeal.Stages

open Cert.ReferenceIdeal Cert.ReferenceIdeal.Gen Cert.ReferenceIdeal.ReadP Idealize.ShloMosaic Idealize.ShloMosaic.TcCoe Idealize.ShloMosaic.ValueIdx

variable (x0 : (⟨S64x512, .f32⟩ : BufTy).Contents (Elt Ideal)) (x1 x2 x3 x4 : (⟨S1x512x512x2, .f32⟩ : BufTy).Contents (Elt Ideal)) (x5 x6 : (⟨S1x512x512x1, .f32⟩ : BufTy).Contents (Elt Ideal)) (x7 : (⟨S1x512x512x2, .f32⟩ : BufTy).Contents (Elt Ideal)) (x8 : (⟨S1x512x512x1, .f32⟩ : BufTy).Contents (Elt Ideal)) (x9 x10 x11 : (⟨S512, .f32⟩ : BufTy).Contents (Elt Ideal)) (x12 x13 x14 x15 : (⟨S512x512x2, .f32⟩ : BufTy).Contents (Elt Ideal)) (x16 x17 : (⟨S512x512x1, .f32⟩ : BufTy).Contents (Elt Ideal))

/-- The parameters read from the seventeen parameter arrays. -/
local notation "PP" => pars x1 x2 x3 x4 x5 x6 x7 x8 x9 x10 x11 x12 x13 x14 x15 x16 x17

/-! ### Composed index functions at explicit coordinates -/

private theorem idx59_at (b : Fin 64) (d u : Fin 512) (k : Fin 2) : idx_main_v59 (ix4 b d u k) = ix4 0 d u k :=
  funext fun a => Fin.ext (by match a with | ⟨0, _⟩ => rfl | ⟨1, _⟩ => rfl | ⟨2, _⟩ => rfl | ⟨3, _⟩ => rfl)
private theorem idx65_at (b : Fin 64) (d u : Fin 512) (k : Fin 2) : idx_main_v65 (ix4 b d u k) = ix4 0 d u k :=
  funext fun a => Fin.ext (by match a with | ⟨0, _⟩ => rfl | ⟨1, _⟩ => rfl | ⟨2, _⟩ => rfl | ⟨3, _⟩ => rfl)
private theorem idx61_at (b : Fin 64) (d u : Fin 512) (k : Fin 2) : idx_main_v61 (ix3 b d u) k = ix4 b d u k :=
  funext fun a => Fin.ext (by match a with | ⟨0, _⟩ => rfl | ⟨1, _⟩ => rfl | ⟨2, _⟩ => rfl | ⟨3, _⟩ => rfl)
private theorem idx67_at (b : Fin 64) (d u : Fin 512) (k : Fin 2) : idx_main_v67 (ix3 b d u) k = ix4 b d u k :=
  funext fun a => Fin.ext (by match a with | ⟨0, _⟩ => rfl | ⟨1, _⟩ => rfl | ⟨2, _⟩ => rfl | ⟨3, _⟩ => rfl)
private theorem idx62_at (b : Fin 64) (d u : Fin 512) : idx_main_v62 (ix4 b d u 0) = ix3 b d u :=
  funext fun a => Fin.ext (by match a with | ⟨0, _⟩ => rfl | ⟨1, _⟩ => rfl | ⟨2, _⟩ => rfl)
private theorem idx68_at (b : Fin 64) (d u : Fin 512) : idx_main_v68 (ix4 b d u 0) = ix3 b d u :=
  funext fun a => Fin.ext (by match a with | ⟨0, _⟩ => rfl | ⟨1, _⟩ => rfl | ⟨2, _⟩ => rfl)
private theorem idx63_at (b : Fin 64) (d u : Fin 512) : idx_main_v63 (ix4 b d u 0) = ix4 0 d u 0 :=
  funext fun a => Fin.ext (by match a with | ⟨0, _⟩ => rfl | ⟨1, _⟩ => rfl | ⟨2, _⟩ => rfl | ⟨3, _⟩ => rfl)
private theorem idx69_at (b : Fin 64) (d u : Fin 512) : idx_main_v69 (ix4 b d u 0) = ix4 0 d u 0 :=
  funext fun a => Fin.ext (by match a with | ⟨0, _⟩ => rfl | ⟨1, _⟩ => rfl | ⟨2, _⟩ => rfl | ⟨3, _⟩ => rfl)

/-! ### The two product-sums over the slice axis -/

/-- The rectified plane times the first weight, entry by entry. -/
private theorem v60_at (b : Fin 64) (d u : Fin 512) (k : Fin 2) :
    val_main_v60 (F := Ideal) x0 x1 x2 x3 x10 x11 x12 x13 (ix4 b d u k)
      = val_main_v58 (F := Ideal) x0 x1 x2 x10 x11 x12 x13 (ix4 b d u k) * x3 (ix4 0 d u k) := by
  rw [val_main_v60_apply, val_main_v59_apply, idx59_at]
  rfl

/-- The rectified plane times the second weight, entry by entry. -/
private theorem v66_at (b : Fin 64) (d u : Fin 512) (k : Fin 2) :
    val_main_v66 (F := Ideal) x0 x1 x2 x4 x10 x11 x12 x13 (ix4 b d u k)
      = val_main_v58 (F := Ideal) x0 x1 x2 x10 x11 x12 x13 (ix4 b d u k) * x4 (ix4 0 d u k) := by
  rw [val_main_v66_apply, val_main_v65_apply, idx65_at]
  rfl

/-- The first product-sum over the slice axis: the two slices' products added. -/
private theorem v61_at (b : Fin 64) (d u : Fin 512) :
    val_main_v61 (F := Ideal) x0 x1 x2 x3 x10 x11 x12 x13 (ix3 b d u)
      = Cert.Spec.h0 PP (row x0 b) d u * x3 (ix4 0 d u 0) + Cert.Spec.h1 PP (row x0 b) d u * x3 (ix4 0 d u 1) := by
  rw [val_main_v61_apply, Fin.sum_univ_two, idx61_at, idx61_at, v60_at, v60_at,
    ref_h0 x0 x1 x2 x3 x4 x5 x6 x7 x8 x9 x10 x11 x12 x13 x14 x15 x16 x17,
    ref_h1 x0 x1 x2 x3 x4 x5 x6 x7 x8 x9 x10 x11 x12 x13 x14 x15 x16 x17, val_main_cst_11_apply]
  show Ideal.ofBits .f32 0x00000000#32 + _ = _
  rw [Ideal.ofBits_zero_f32, zero_add]

/-- The second product-sum over the slice axis. -/
private theorem v67_at (b : Fin 64) (d u : Fin 512) :
    val_main_v67 (F := Ideal) x0 x1 x2 x4 x10 x11 x12 x13 (ix3 b d u)
      = Cert.Spec.h0 PP (row x0 b) d u * x4 (ix4 0 d u 0) + Cert.Spec.h1 PP (row x0 b) d u * x4 (ix4 0 d u 1) := by
  rw [val_main_v67_apply, Fin.sum_univ_two, idx67_at, idx67_at, v66_at, v66_at,
    ref_h0 x0 x1 x2 x3 x4 x5 x6 x7 x8 x9 x10 x11 x12 x13 x14 x15 x16 x17,
    ref_h1 x0 x1 x2 x3 x4 x5 x6 x7 x8 x9 x10 x11 x12 x13 x14 x15 x16 x17, val_main_cst_12_apply]
  show Ideal.ofBits .f32 0x00000000#32 + _ = _
  rw [Ideal.ofBits_zero_f32, zero_add]

/-- The first product-sum, shifted. -/
theorem ref_p0 (b : Fin 64) (d u : Fin 512) :
    val_main_v64 (F := Ideal) x0 x1 x2 x3 x5 x10 x11 x12 x13 (ix4 b d u 0) = Cert.Spec.p0 (pars x1 x2 x3 x4 x5 x6 x7 x8 x9 x10 x11 x12 x13 x14 x15 x16 x17) (row x0 b) d u := by
  rw [val_main_v64_apply, val_main_v62_apply, val_main_v63_apply, idx62_at, idx63_at,
    v61_at x0 x1 x2 x3 x4 x5 x6 x7 x8 x9 x10 x11 x12 x13 x14 x15 x16 x17]
  rfl

/-- The second product-sum, shifted. -/
theorem ref_p1 (b : Fin 64) (d u : Fin 512) :
    val_main_v70 (F := Ideal) x0 x1 x2 x4 x6 x10 x11 x12 x13 (ix4 b d u 0) = Cert.Spec.p1 (pars x1 x2 x3 x4 x5 x6 x7 x8 x9 x10 x11 x12 x13 x14 x15 x16 x17) (row x0 b) d u := by
  rw [val_main_v70_apply, val_main_v68_apply, val_main_v69_apply, idx68_at, idx69_at,
    v67_at x0 x1 x2 x3 x4 x5 x6 x7 x8 x9 x10 x11 x12 x13 x14 x15 x16 x17]
  rfl

/-! ### The two results joined along the slice axis, and their total -/

/-- Slice 0 of the joined array is the first product-sum. -/
private theorem v71_at0 (b : Fin 64) (d u : Fin 512) :
    val_main_v71 (F := Ideal) x0 x1 x2 x3 x4 x5 x6 x10 x11 x12 x13 (ix4 b d u 0)
      = val_main_v64 (F := Ideal) x0 x1 x2 x3 x5 x10 x11 x12 x13 (ix4 b d u 0) := by
  unfold val_main_v71
  exact concatenate_pair_apply_left 3 _ _ concatenates_S64x512x512x1_S64x512x512x1_S64x512x512x2_d3 (ix4 b d u 0) rfl
    (ix4 b d u 0) (fun a => match a with | ⟨0, _⟩ => rfl | ⟨1, _⟩ => rfl | ⟨2, _⟩ => rfl | ⟨3, _⟩ => rfl)

/-- Slice 1 of the joined array is the second product-sum. -/
private theorem v71_at1 (b : Fin 64) (d u : Fin 512) :
    val_main_v71 (F := Ideal) x0 x1 x2 x3 x4 x5 x6 x10 x11 x12 x13 (ix4 b d u 1)
      = val_main_v70 (F := Ideal) x0 x1 x2 x4 x6 x10 x11 x12 x13 (ix4 b d u 0) := by
  unfold val_main_v71
  exact concatenate_pair_apply_right 3 _ _ concatenates_S64x512x512x1_S64x512x512x1_S64x512x512x2_d3 (ix4 b d u 1) rfl rfl
    (ix4 b d u 0)
    (fun a => match a with
      | ⟨0, _⟩ => fun _ => rfl | ⟨1, _⟩ => fun _ => rfl | ⟨2, _⟩ => fun _ => rfl | ⟨3, _⟩ => fun h => absurd rfl h)
    rfl

/-- The sum over sublanes, lanes and slices of the joined array, at row `b`. -/
private theorem v72_sum (b : Fin 64) :
    val_main_v72 (F := Ideal) x0 x1 x2 x3 x4 x5 x6 x10 x11 x12 x13 (ix1 b)
      = val_main_cst_13 (F := Ideal) (Shape.Idx.first h_S_)
        + ∑ d : Fin 512, ∑ u : Fin 512, ∑ k : Fin 2, val_main_v71 (F := Ideal) x0 x1 x2 x3 x4 x5 x6 x10 x11 x12 x13 (ix4 b d u k) := by
  unfold val_main_v72
  generalize val_main_v71 (F := Ideal) x0 x1 x2 x3 x4 x5 x6 x10 x11 x12 x13 = y
  simp only [Host.reduceAdd, Ideal.hostReduceAdd_def]
  exact Cert.Lib.hostReduceAdd_tail3 reducesTo_S64x512x512x2_S64_d1_2_3 y _ b

/-- The joined array's total is the two planes' totals added. -/
private theorem v72_at (b : Fin 64) :
    val_main_v72 (F := Ideal) x0 x1 x2 x3 x4 x5 x6 x10 x11 x12 x13 (ix1 b)
      = Cert.Spec.tot (Cert.Spec.p0 PP (row x0 b)) + Cert.Spec.tot (Cert.Spec.p1 PP (row x0 b)) := by
  rw [v72_sum, val_main_cst_13_apply]
  simp only [Fin.sum_univ_two, v71_at0, v71_at1,
    ref_p0 x0 x1 x2 x3 x4 x5 x6 x7 x8 x9 x10 x11 x12 x13 x14 x15 x16 x17,
    ref_p1 x0 x1 x2 x3 x4 x5 x6 x7 x8 x9 x10 x11 x12 x13 x14 x15 x16 x17, Finset.sum_add_distrib]
  show Ideal.ofBits .f32 0x00000000#32 + _ = _
  rw [Ideal.ofBits_zero_f32, zero_add]
  rfl

/-! ### The joint mean, the centred planes, the joint variance -/

private theorem idx73_at (b : Fin 64) : idx_main_v73 (ix4 b 0 0 0) = ix1 b :=
  funext fun a => Fin.ext (by match a with | ⟨0, _⟩ => rfl)
private theorem idx80_at (b : Fin 64) : idx_main_v80 (ix4 b 0 0 0) = ix1 b :=
  funext fun a => Fin.ext (by match a with | ⟨0, _⟩ => rfl)
private theorem idx76_at (b : Fin 64) (d u : Fin 512) (k : Fin 2) : idx_main_v76 (ix4 b d u k) = ix4 b 0 0 0 :=
  funext fun a => Fin.ext (by match a with | ⟨0, _⟩ => rfl | ⟨1, _⟩ => rfl | ⟨2, _⟩ => rfl | ⟨3, _⟩ => rfl)
private theorem idx83_at (b : Fin 64) (d u : Fin 512) (k : Fin 2) : idx_main_v83 (ix4 b d u k) = ix4 b 0 0 0 :=
  funext fun a => Fin.ext (by match a with | ⟨0, _⟩ => rfl | ⟨1, _⟩ => rfl | ⟨2, _⟩ => rfl | ⟨3, _⟩ => rfl)
private theorem idx88_at (b : Fin 64) (d u : Fin 512) (k : Fin 2) : idx_main_v88 (ix4 b d u k) = ix4 b 0 0 0 :=
  funext fun a => Fin.ext (by match a with | ⟨0, _⟩ => rfl | ⟨1, _⟩ => rfl | ⟨2, _⟩ => rfl | ⟨3, _⟩ => rfl)

/-- The joint mean of the two planes. -/
private theorem v75_at (b : Fin 64) :
    val_main_v75 (F := Ideal) x0 x1 x2 x3 x4 x5 x6 x10 x11 x12 x13 (ix4 b 0 0 0) = Cert.Spec.mean2 PP (row x0 b) := by
  rw [val_main_v75_apply, val_main_v73_apply, idx73_at,
    v72_at x0 x1 x2 x3 x4 x5 x6 x7 x8 x9 x10 x11 x12 x13 x14 x15 x16 x17, val_main_v74_apply, val_main_cst_14_apply]
  rfl

/-- Slice 0, centred (the copy the variance is taken of). -/
private theorem v77_at0 (b : Fin 64) (d u : Fin 512) :
    val_main_v77 (F := Ideal) x0 x1 x2 x3 x4 x5 x6 x10 x11 x12 x13 (ix4 b d u 0) = Cert.Spec.e0 PP (row x0 b) d u := by
  rw [val_main_v77_apply, val_main_v76_apply, idx76_at,
    v75_at x0 x1 x2 x3 x4 x5 x6 x7 x8 x9 x10 x11 x12 x13 x14 x15 x16 x17, v71_at0,
    ref_p0 x0 x1 x2 x3 x4 x5 x6 x7 x8 x9 x10 x11 x12 x13 x14 x15 x16 x17]
  rfl

/-- Slice 1, centred (the copy the variance is taken of). -/
private theorem v77_at1 (b : Fin 64) (d u : Fin 512) :
    val_main_v77 (F := Ideal) x0 x1 x2 x3 x4 x5 x6 x10 x11 x12 x13 (ix4 b d u 1) = Cert.Spec.e1 PP (row x0 b) d u := by
  rw [val_main_v77_apply, val_main_v76_apply, idx76_at,
    v75_at x0 x1 x2 x3 x4 x5 x6 x7 x8 x9 x10 x11 x12 x13 x14 x15 x16 x17, v71_at1,
    ref_p1 x0 x1 x2 x3 x4 x5 x6 x7 x8 x9 x10 x11 x12 x13 x14 x15 x16 x17]
  rfl

/-- Slice 0, centred (the copy that is scaled). -/
private theorem v84_at0 (b : Fin 64) (d u : Fin 512) :
    val_main_v84 (F := Ideal) x0 x1 x2 x3 x4 x5 x6 x10 x11 x12 x13 (ix4 b d u 0) = Cert.Spec.e0 PP (row x0 b) d u := by
  rw [val_main_v84_apply, val_main_v83_apply, idx83_at,
    v75_at x0 x1 x2 x3 x4 x5 x6 x7 x8 x9 x10 x11 x12 x13 x14 x15 x16 x17, v71_at0,
    ref_p0 x0 x1 x2 x3 x4 x5 x6 x7 x8 x9 x10 x11 x12 x13 x14 x15 x16 x17]
  rfl

/-- Slice 1, centred (the copy that is scaled). -/
private theorem v84_at1 (b : Fin 64) (d u : Fin 512) :
    val_main_v84 (F := Ideal) x0 x1 x2 x3 x4 x5 x6 x10 x11 x12 x13 (ix4 b d u 1) = Cert.Spec.e1 PP (row x0 b) d u := by
  rw [val_main_v84_apply, val_main_v83_apply, idx83_at,
    v75_at x0 x1 x2 x3 x4 x5 x6 x7 x8 x9 x10 x11 x12 x13 x14 x15 x16 x17, v71_at1,
    ref_p1 x0 x1 x2 x3 x4 x5 x6 x7 x8 x9 x10 x11 x12 x13 x14 x15 x16 x17]
  rfl

/-- The sum over sublanes, lanes and slices of the centred squares, at row `b`. -/
private theorem v79_sum (b : Fin 64) :
    val_main_v79 (F := Ideal) x0 x1 x2 x3 x4 x5 x6 x10 x11 x12 x13 (ix1 b)
      = val_main_cst_15 (F := Ideal) (Shape.Idx.first h_S_)
        + ∑ d : Fin 512, ∑ u : Fin 512, ∑ k : Fin 2, val_main_v78 (F := Ideal) x0 x1 x2 x3 x4 x5 x6 x10 x11 x12 x13 (ix4 b d u k) := by
  unfold val_main_v79
  generalize val_main_v78 (F := Ideal) x0 x1 x2 x3 x4 x5 x6 x10 x11 x12 x13 = y
  simp only [Host.reduceAdd, Ideal.hostReduceAdd_def]
  exact Cert.Lib.hostReduceAdd_tail3 reducesTo_S64x512x512x2_S64_d1_2_3 y _ b

/-- The centred squares' total is the two planes' totals of squares added. -/
private theorem v79_at (b : Fin 64) :
    val_main_v79 (F := Ideal) x0 x1 x2 x3 x4 x5 x6 x10 x11 x12 x13 (ix1 b)
      = Cert.Spec.tot (fun d u => Cert.Spec.e0 PP (row x0 b) d u * Cert.Spec.e0 PP (row x0 b) d u)
        + Cert.Spec.tot (fun d u => Cert.Spec.e1 PP (row x0 b) d u * Cert.Spec.e1 PP (row x0 b) d u) := by
  rw [v79_sum, val_main_cst_15_apply]
  simp only [Fin.sum_univ_two, val_main_v78_apply,
    v77_at0 x0 x1 x2 x3 x4 x5 x6 x7 x8 x9 x10 x11 x12 x13 x14 x15 x16 x17,
    v77_at1 x0 x1 x2 x3 x4 x5 x6 x7 x8 x9 x10 x11 x12 x13 x14 x15 x16 x17, Ideal.mulf_def, Finset.sum_add_distrib]
  show Ideal.ofBits .f32 0x00000000#32 + _ = _
  rw [Ideal.ofBits_zero_f32, zero_add]
  rfl

/-- The joint variance of the two planes. -/
private theorem v82_at (b : Fin 64) :
    val_main_v82 (F := Ideal) x0 x1 x2 x3 x4 x5 x6 x10 x11 x12 x13 (ix4 b 0 0 0) = Cert.Spec.var2 PP (row x0 b) := by
  rw [val_main_v82_apply, val_main_v80_apply, idx80_at,
    v79_at x0 x1 x2 x3 x4 x5 x6 x7 x8 x9 x10 x11 x12 x13 x14 x15 x16 x17, val_main_v81_apply, val_main_cst_16_apply]
  rfl

/-- The reciprocal standard deviation. -/
private theorem v87_at (b : Fin 64) :
    val_main_v87 (F := Ideal) x0 x1 x2 x3 x4 x5 x6 x10 x11 x12 x13 (ix4 b 0 0 0)
      = Cert.Spec.istd (Cert.Spec.var2 PP (row x0 b)) := by
  rw [val_main_v87_apply, val_main_v86_apply,
    v82_at x0 x1 x2 x3 x4 x5 x6 x7 x8 x9 x10 x11 x12 x13 x14 x15 x16 x17, val_main_v85_apply, val_main_cst_17_apply]
  rfl

/-! ### Scale, gain, shift, and the rectifier -/

private theorem idx91_at (b : Fin 64) (d u : Fin 512) (k : Fin 2) : idx_main_v91 (ix4 b d u k) = ix4 0 d u k :=
  funext fun a => Fin.ext (by match a with | ⟨0, _⟩ => rfl | ⟨1, _⟩ => rfl | ⟨2, _⟩ => rfl | ⟨3, _⟩ => rfl)
private theorem idx94_at (b : Fin 64) (d u : Fin 512) (k : Fin 2) : idx_main_v94 (ix4 b d u k) = ix4 0 d u k :=
  funext fun a => Fin.ext (by match a with | ⟨0, _⟩ => rfl | ⟨1, _⟩ => rfl | ⟨2, _⟩ => rfl | ⟨3, _⟩ => rfl)
private theorem idx90_at (d u : Fin 512) (k : Fin 2) : idx_main_v90 (ix4 0 d u k) = ix3 d u k :=
  funext fun a => Fin.ext (by match a with | ⟨0, _⟩ => rfl | ⟨1, _⟩ => rfl | ⟨2, _⟩ => rfl)
private theorem idx93_at (d u : Fin 512) (k : Fin 2) : idx_main_v93 (ix4 0 d u k) = ix3 d u k :=
  funext fun a => Fin.ext (by match a with | ⟨0, _⟩ => rfl | ⟨1, _⟩ => rfl | ⟨2, _⟩ => rfl)

/-- The gain, read at (sublane, lane, slice). -/
private theorem v91_at (b : Fin 64) (d u : Fin 512) (k : Fin 2) :
    val_main_v91 (F := Ideal) x14 (ix4 b d u k) = x14 (ix3 d u k) := by
  rw [val_main_v91_apply, idx91_at, val_main_v90_apply, idx90_at]

/-- The shift, read at (sublane, lane, slice). -/
private theorem v94_at (b : Fin 64) (d u : Fin 512) (k : Fin 2) :
    val_main_v94 (F := Ideal) x15 (ix4 b d u k) = x15 (ix3 d u k) := by
  rw [val_main_v94_apply, idx94_at, val_main_v93_apply, idx93_at]

/-- Slice 0, normalised with gain and shift. -/
private theorem v95_at0 (b : Fin 64) (d u : Fin 512) :
    val_main_v95 (F := Ideal) x0 x1 x2 x3 x4 x5 x6 x10 x11 x12 x13 x14 x15 (ix4 b d u 0)
      = Cert.Spec.e0 PP (row x0 b) d u * Cert.Spec.istd (Cert.Spec.var2 PP (row x0 b)) * x14 (ix3 d u 0) + x15 (ix3 d u 0) := by
  rw [val_main_v95_apply, val_main_v92_apply, val_main_v89_apply, val_main_v88_apply, idx88_at,
    v87_at x0 x1 x2 x3 x4 x5 x6 x7 x8 x9 x10 x11 x12 x13 x14 x15 x16 x17,
    v84_at0 x0 x1 x2 x3 x4 x5 x6 x7 x8 x9 x10 x11 x12 x13 x14 x15 x16 x17, v91_at, v94_at]
  rfl

/-- Slice 1, normalised with gain and shift. -/
private theorem v95_at1 (b : Fin 64) (d u : Fin 512) :
    val_main_v95 (F := Ideal) x0 x1 x2 x3 x4 x5 x6 x10 x11 x12 x13 x14 x15 (ix4 b d u 1)
      = Cert.Spec.e1 PP (row x0 b) d u * Cert.Spec.istd (Cert.Spec.var2 PP (row x0 b)) * x14 (ix3 d u 1) + x15 (ix3 d u 1) := by
  rw [val_main_v95_apply, val_main_v92_apply, val_main_v89_apply, val_main_v88_apply, idx88_at,
    v87_at x0 x1 x2 x3 x4 x5 x6 x7 x8 x9 x10 x11 x12 x13 x14 x15 x16 x17,
    v84_at1 x0 x1 x2 x3 x4 x5 x6 x7 x8 x9 x10 x11 x12 x13 x14 x15 x16 x17, v91_at, v94_at]
  rfl

/-- The rectifier at an entry: the choice between the entry and the slope times the entry, on the comparison with zero. -/
private theorem v100_at (b : Fin 64) (d u : Fin 512) (k : Fin 2) :
    val_main_v100 (F := Ideal) x0 x1 x2 x3 x4 x5 x6 x10 x11 x12 x13 x14 x15 (ix4 b d u k)
      = Cert.Spec.lrelu (val_main_v95 (F := Ideal) x0 x1 x2 x3 x4 x5 x6 x10 x11 x12 x13 x14 x15 (ix4 b d u k)) := by
  rw [val_main_v100_apply, val_main_v97_apply, val_main_v99_apply, val_main_v96_apply, val_main_v98_apply,
    val_main_cst_18_apply, val_main_cst_19_apply]
  rfl

/-- After the second joint normalisation and the rectifier: slice 0. -/
theorem ref_q0 (b : Fin 64) (d u : Fin 512) :
    val_main_v100 (F := Ideal) x0 x1 x2 x3 x4 x5 x6 x10 x11 x12 x13 x14 x15 (ix4 b d u 0) = Cert.Spec.q0 (pars x1 x2 x3 x4 x5 x6 x7 x8 x9 x10 x11 x12 x13 x14 x15 x16 x17) (row x0 b) d u := by
  rw [v100_at, v95_at0 x0 x1 x2 x3 x4 x5 x6 x7 x8 x9 x10 x11 x12 x13 x14 x15 x16 x17]
  rfl

/-- After the second joint normalisation and the rectifier: slice 1. -/
theorem ref_q1 (b : Fin 64) (d u : Fin 512) :
    val_main_v100 (F := Ideal) x0 x1 x2 x3 x4 x5 x6 x10 x11 x12 x13 x14 x15 (ix4 b d u 1) = Cert.Spec.q1 (pars x1 x2 x3 x4 x5 x6 x7 x8 x9 x10 x11 x12 x13 x14 x15 x16 x17) (row x0 b) d u := by
  rw [v100_at, v95_at1 x0 x1 x2 x3 x4 x5 x6 x7 x8 x9 x10 x11 x12 x13 x14 x15 x16 x17]
  rfl

end Cert.ReferenceIdeal.Stages

end
-- ==== Proof.RefStageC.lean ====
/-
  The reference at one batch row: last part. The third product-sum, normalised alone over its 512 · 512 entries, plus the
  normalised row entry of its sublane; the sum over sublanes, the bias, the rectifier; and the whole result array.
-/
import proofs.«167910_j23965917511984_1_alg».proof.Proof.RefStageB

noncomputable section

namespace Cert.ReferenceIdeal.Stages

open Cert.ReferenceIdeal Cert.ReferenceIdeal.Gen Cert.ReferenceIdeal.ReadP Idealize.ShloMosaic Idealize.ShloMosaic.TcCoe Idealize.ShloMosaic.ValueIdx

variable (x0 : (⟨S64x512, .f32⟩ : BufTy).Contents (Elt Ideal)) (x1 x2 x3 x4 : (⟨S1x512x512x2, .f32⟩ : BufTy).Contents (Elt Ideal)) (x5 x6 : (⟨S1x512x512x1, .f32⟩ : BufTy).Contents (Elt Ideal)) (x7 : (⟨S1x512x512x2, .f32⟩ : BufTy).Contents (Elt Ideal)) (x8 : (⟨S1x512x512x1, .f32⟩ : BufTy).Contents (Elt Ideal)) (x9 x10 x11 : (⟨S512, .f32⟩ : BufTy).Contents (Elt Ideal)) (x12 x13 x14 x15 : (⟨S512x512x2, .f32⟩ : BufTy).Contents (Elt Ideal)) (x16 x17 : (⟨S512x512x1, .f32⟩ : BufTy).Contents (Elt Ideal))

/-! ### The third product-sum -/

/-- The sum over the slice axis of the rectified pair times the third weights. -/
private theorem v103_at (b : Fin 64) (d u : Fin 512) :
    val_main_v103 (F := Ideal) x0 x1 x2 x3 x4 x5 x6 x7 x10 x11 x12 x13 x14 x15 (ix3 b d u)
      = Cert.Spec.q0 (pars x1 x2 x3 x4 x5 x6 x7 x8 x9 x10 x11 x12 x13 x14 x15 x16 x17) (row x0 b) d u * x7 (ix4 0 d u 0) + Cert.Spec.q1 (pars x1 x2 x3 x4 x5 x6 x7 x8 x9 x10 x11 x12 x13 x14 x15 x16 x17) (row x0 b) d u * x7 (ix4 0 d u 1) := by
  have e0 : idx_main_v103 (ix3 b d u) 0 = ix4 b d u 0 := funext fun a => Fin.ext (by match a with | ⟨0, _⟩ => rfl | ⟨1, _⟩ => rfl | ⟨2, _⟩ => rfl | ⟨3, _⟩ => rfl)
  have e1 : idx_main_v103 (ix3 b d u) 1 = ix4 b d u 1 := funext fun a => Fin.ext (by match a with | ⟨0, _⟩ => rfl | ⟨1, _⟩ => rfl | ⟨2, _⟩ => rfl | ⟨3, _⟩ => rfl)
  have w0 : idx_main_v101 (ix4 b d u (0 : Fin 2)) = ix4 0 d u 0 := funext fun a => Fin.ext (by match a with | ⟨0, _⟩ => rfl | ⟨1, _⟩ => rfl | ⟨2, _⟩ => rfl | ⟨3, _⟩ => rfl)
  have w1 : idx_main_v101 (ix4 b d u (1 : Fin 2)) = ix4 0 d u 1 := funext fun a => Fin.ext (by match a with | ⟨0, _⟩ => rfl | ⟨1, _⟩ => rfl | ⟨2, _⟩ => rfl | ⟨3, _⟩ => rfl)
  rw [val_main_v103_apply, Fin.sum_univ_two, e0, e1, val_main_v102_apply, val_main_v102_apply, val_main_v101_apply,
    val_main_v101_apply, w0, w1, ref_q0 x0 x1 x2 x3 x4 x5 x6 x7 x8 x9 x10 x11 x12 x13 x14 x15 x16 x17, ref_q1 x0 x1 x2 x3 x4 x5 x6 x7 x8 x9 x10 x11 x12 x13 x14 x15 x16 x17, val_main_cst_20_apply, Ideal.ofBits_def,
    Ideal.ofBits_zero_f32, zero_add, Ideal.mulf_def, Ideal.mulf_def]

/-- The third product-sum, shifted. -/
theorem ref_s3 (b : Fin 64) (d u : Fin 512) :
    val_main_v106 (F := Ideal) x0 x1 x2 x3 x4 x5 x6 x7 x8 x10 x11 x12 x13 x14 x15 (ix4 b d u 0) = Cert.Spec.s3 (pars x1 x2 x3 x4 x5 x6 x7 x8 x9 x10 x11 x12 x13 x14 x15 x16 x17) (row x0 b) d u := by
  have e : idx_main_v104 (ix4 b d u (0 : Fin 1)) = ix3 b d u := funext fun a => Fin.ext (by match a with | ⟨0, _⟩ => rfl | ⟨1, _⟩ => rfl | ⟨2, _⟩ => rfl)
  have f : idx_main_v105 (ix4 b d u (0 : Fin 1)) = ix4 0 d u 0 := funext fun a => Fin.ext (by match a with | ⟨0, _⟩ => rfl | ⟨1, _⟩ => rfl | ⟨2, _⟩ => rfl | ⟨3, _⟩ => rfl)
  rw [val_main_v106_apply, val_main_v104_apply, val_main_v105_apply, e, f, v103_at, Ideal.addf_def]
  rfl

/-! ### Its normalisation over the one plane -/

/-- The host's sum over sublane, lane and the slice axis of length one, from the zero word: the double sum over the plane. -/
private theorem sum_plane (y : (⟨S64x512x512x1, .f32⟩ : BufTy).Contents (Elt Ideal)) (b : Fin 64) :
    Ideal.hostReduceAdd reducesTo_S64x512x512x1_S64_d1_2_3 y (Ideal.ofBits .f32 0x00000000#32) (ix1 b)
      = ∑ d : Fin 512, ∑ u : Fin 512, y (ix4 b d u 0) := by
  rw [Cert.Lib.hostReduceAdd_tail3, Ideal.ofBits_zero_f32, zero_add]
  simp only [Fin.sum_univ_one]

/-- The plane's total. -/
private theorem v107_at (b : Fin 64) :
    val_main_v107 (F := Ideal) x0 x1 x2 x3 x4 x5 x6 x7 x8 x10 x11 x12 x13 x14 x15 (ix1 b) = Cert.Spec.tot (Cert.Spec.s3 (pars x1 x2 x3 x4 x5 x6 x7 x8 x9 x10 x11 x12 x13 x14 x15 x16 x17) (row x0 b)) := by
  unfold val_main_v107
  simp only [Host.reduceAdd, Ideal.hostReduceAdd_def]
  rw [val_main_cst_21_apply, Ideal.ofBits_def, sum_plane]
  simp only [ref_s3 x0 x1 x2 x3 x4 x5 x6 x7 x8 x9 x10 x11 x12 x13 x14 x15 x16 x17]
  rfl

/-- The plane's mean. -/
private theorem v110_at (b : Fin 64) :
    val_main_v110 (F := Ideal) x0 x1 x2 x3 x4 x5 x6 x7 x8 x10 x11 x12 x13 x14 x15 (ix4 b 0 0 0) = Cert.Spec.mean3 (pars x1 x2 x3 x4 x5 x6 x7 x8 x9 x10 x11 x12 x13 x14 x15 x16 x17) (row x0 b) := by
  have e : idx_main_v108 (ix4 b (0 : Fin 1) (0 : Fin 1) (0 : Fin 1)) = ix1 b := funext fun a => Fin.ext (by match a with | ⟨0, _⟩ => rfl)
  rw [val_main_v110_apply, val_main_v108_apply, e, v107_at, val_main_v109_apply, val_main_cst_22_apply, Ideal.ofBits_def,
    Ideal.hostDivf_def]
  rfl

/-- Centred: the plane minus its mean (the program's first copy of this subtraction; it feeds the variance). -/
private theorem v112_at (b : Fin 64) (d u : Fin 512) :
    val_main_v112 (F := Ideal) x0 x1 x2 x3 x4 x5 x6 x7 x8 x10 x11 x12 x13 x14 x15 (ix4 b d u 0) = Cert.Spec.f3 (pars x1 x2 x3 x4 x5 x6 x7 x8 x9 x10 x11 x12 x13 x14 x15 x16 x17) (row x0 b) d u := by
  have e : idx_main_v111 (ix4 b d u (0 : Fin 1)) = ix4 b 0 0 0 := funext fun a => Fin.ext (by match a with | ⟨0, _⟩ => rfl | ⟨1, _⟩ => rfl | ⟨2, _⟩ => rfl | ⟨3, _⟩ => rfl)
  rw [val_main_v112_apply, val_main_v111_apply, e, v110_at, ref_s3 x0 x1 x2 x3 x4 x5 x6 x7 x8 x9 x10 x11 x12 x13 x14 x15 x16 x17, Ideal.subf_def]
  rfl

/-- Centred: the program's second copy of the same subtraction; it feeds the normalised value. -/
private theorem v119_at (b : Fin 64) (d u : Fin 512) :
    val_main_v119 (F := Ideal) x0 x1 x2 x3 x4 x5 x6 x7 x8 x10 x11 x12 x13 x14 x15 (ix4 b d u 0) = Cert.Spec.f3 (pars x1 x2 x3 x4 x5 x6 x7 x8 x9 x10 x11 x12 x13 x14 x15 x16 x17) (row x0 b) d u := by
  have e : idx_main_v118 (ix4 b d u (0 : Fin 1)) = ix4 b 0 0 0 := funext fun a => Fin.ext (by match a with | ⟨0, _⟩ => rfl | ⟨1, _⟩ => rfl | ⟨2, _⟩ => rfl | ⟨3, _⟩ => rfl)
  rw [val_main_v119_apply, val_main_v118_apply, e, v110_at, ref_s3 x0 x1 x2 x3 x4 x5 x6 x7 x8 x9 x10 x11 x12 x13 x14 x15 x16 x17, Ideal.subf_def]
  rfl

/-- The plane's variance. -/
private theorem v117_at (b : Fin 64) :
    val_main_v117 (F := Ideal) x0 x1 x2 x3 x4 x5 x6 x7 x8 x10 x11 x12 x13 x14 x15 (ix4 b 0 0 0) = Cert.Spec.var3 (pars x1 x2 x3 x4 x5 x6 x7 x8 x9 x10 x11 x12 x13 x14 x15 x16 x17) (row x0 b) := by
  have e : idx_main_v115 (ix4 b (0 : Fin 1) (0 : Fin 1) (0 : Fin 1)) = ix1 b := funext fun a => Fin.ext (by match a with | ⟨0, _⟩ => rfl)
  have t : val_main_v114 (F := Ideal) x0 x1 x2 x3 x4 x5 x6 x7 x8 x10 x11 x12 x13 x14 x15 (ix1 b)
      = Cert.Spec.tot (fun d u => Cert.Spec.f3 (pars x1 x2 x3 x4 x5 x6 x7 x8 x9 x10 x11 x12 x13 x14 x15 x16 x17) (row x0 b) d u * Cert.Spec.f3 (pars x1 x2 x3 x4 x5 x6 x7 x8 x9 x10 x11 x12 x13 x14 x15 x16 x17) (row x0 b) d u) := by
    unfold val_main_v114
    simp only [Host.reduceAdd, Ideal.hostReduceAdd_def]
    rw [val_main_cst_23_apply, Ideal.ofBits_def, sum_plane]
    simp only [val_main_v113_apply, v112_at x0 x1 x2 x3 x4 x5 x6 x7 x8 x9 x10 x11 x12 x13 x14 x15 x16 x17, Ideal.mulf_def]
    rfl
  rw [val_main_v117_apply, val_main_v115_apply, e, t, val_main_v116_apply, val_main_cst_24_apply, Ideal.ofBits_def,
    Ideal.hostDivf_def]
  rfl

/-- The reciprocal standard deviation. -/
private theorem v122_at (b : Fin 64) :
    val_main_v122 (F := Ideal) x0 x1 x2 x3 x4 x5 x6 x7 x8 x10 x11 x12 x13 x14 x15 (ix4 b 0 0 0) = Cert.Spec.istd (Cert.Spec.var3 (pars x1 x2 x3 x4 x5 x6 x7 x8 x9 x10 x11 x12 x13 x14 x15 x16 x17) (row x0 b)) := by
  rw [val_main_v122_apply, val_main_v121_apply, v117_at, val_main_v120_apply, val_main_cst_25_apply, Ideal.ofBits_def,
    Ideal.addf_def, Ideal.hostUnary_rsqrt_def]
  rfl

/-- Normalised, with gain and shift. -/
private theorem v130_at (b : Fin 64) (d u : Fin 512) :
    val_main_v130 (F := Ideal) x0 x1 x2 x3 x4 x5 x6 x7 x8 x10 x11 x12 x13 x14 x15 x16 x17 (ix4 b d u 0)
      = Cert.Spec.f3 (pars x1 x2 x3 x4 x5 x6 x7 x8 x9 x10 x11 x12 x13 x14 x15 x16 x17) (row x0 b) d u * Cert.Spec.istd (Cert.Spec.var3 (pars x1 x2 x3 x4 x5 x6 x7 x8 x9 x10 x11 x12 x13 x14 x15 x16 x17) (row x0 b)) * x16 (ix3 d u 0) + x17 (ix3 d u 0) := by
  have e : idx_main_v123 (ix4 b d u (0 : Fin 1)) = ix4 b 0 0 0 := funext fun a => Fin.ext (by match a with | ⟨0, _⟩ => rfl | ⟨1, _⟩ => rfl | ⟨2, _⟩ => rfl | ⟨3, _⟩ => rfl)
  have g : idx_main_v125 (idx_main_v126 (ix4 b d u (0 : Fin 1))) = ix3 d u 0 := funext fun a => Fin.ext (by match a with | ⟨0, _⟩ => rfl | ⟨1, _⟩ => rfl | ⟨2, _⟩ => rfl)
  have h : idx_main_v128 (idx_main_v129 (ix4 b d u (0 : Fin 1))) = ix3 d u 0 := funext fun a => Fin.ext (by match a with | ⟨0, _⟩ => rfl | ⟨1, _⟩ => rfl | ⟨2, _⟩ => rfl)
  rw [val_main_v130_apply, val_main_v127_apply, val_main_v124_apply, v119_at, val_main_v123_apply, e, v122_at,
    val_main_v126_apply, val_main_v125_apply, g, val_main_v129_apply, val_main_v128_apply, h, Ideal.mulf_def,
    Ideal.mulf_def, Ideal.addf_def]

/-- Normalised, with the row entry added. -/
theorem ref_pre (b : Fin 64) (d u : Fin 512) :
    val_main_v132 (F := Ideal) x0 x1 x2 x3 x4 x5 x6 x7 x8 x10 x11 x12 x13 x14 x15 x16 x17 (ix4 b d u 0) = Cert.Spec.pre (pars x1 x2 x3 x4 x5 x6 x7 x8 x9 x10 x11 x12 x13 x14 x15 x16 x17) (row x0 b) d u := by
  have e : idx_main_v24 (idx_main_v131 (ix4 b d u (0 : Fin 1))) = ix2 b d := funext fun a => Fin.ext (by match a with | ⟨0, _⟩ => rfl | ⟨1, _⟩ => rfl)
  rw [val_main_v132_apply, v130_at, val_main_v131_apply, val_main_v24_apply, e, ref_xn x0 x1 x2 x3 x4 x5 x6 x7 x8 x9 x10 x11 x12 x13 x14 x15 x16 x17, Ideal.addf_def]
  rfl

/-! ### The sum over sublanes, the bias, the rectifier -/

/-- The sum over sublanes at lane `u`. -/
private theorem v133_at (b : Fin 64) (u : Fin 512) :
    val_main_v133 (F := Ideal) x0 x1 x2 x3 x4 x5 x6 x7 x8 x10 x11 x12 x13 x14 x15 x16 x17 (ix3 b u 0) = ∑ d : Fin 512, Cert.Spec.pre (pars x1 x2 x3 x4 x5 x6 x7 x8 x9 x10 x11 x12 x13 x14 x15 x16 x17) (row x0 b) d u := by
  have e : ∀ k : Fin 512, idx_main_v133 (ix3 b u (0 : Fin 1)) k = ix4 b k u 0 := fun k => funext fun a => Fin.ext (by match a with | ⟨0, _⟩ => rfl | ⟨1, _⟩ => rfl | ⟨2, _⟩ => rfl | ⟨3, _⟩ => rfl)
  rw [val_main_v133_apply, val_main_cst_26_apply, Ideal.ofBits_def, Ideal.ofBits_zero_f32, zero_add]
  simp only [e, ref_pre x0 x1 x2 x3 x4 x5 x6 x7 x8 x9 x10 x11 x12 x13 x14 x15 x16 x17]

/-- With the bias. -/
private theorem v137_at (b : Fin 64) (u : Fin 512) :
    val_main_v137 (F := Ideal) x0 x1 x2 x3 x4 x5 x6 x7 x8 x9 x10 x11 x12 x13 x14 x15 x16 x17 (ix3 b u 0) = (∑ d : Fin 512, Cert.Spec.pre (pars x1 x2 x3 x4 x5 x6 x7 x8 x9 x10 x11 x12 x13 x14 x15 x16 x17) (row x0 b) d u) + x9 (ix1 u) := by
  have e : idx_main_v134 (idx_main_v135 (idx_main_v136 (ix3 b u (0 : Fin 1)))) = ix1 u := funext fun a => Fin.ext (by match a with | ⟨0, _⟩ => rfl)
  rw [val_main_v137_apply, v133_at, val_main_v136_apply, val_main_v135_apply, val_main_v134_apply, e, Ideal.addf_def]

/-- Rectified. -/
private theorem v142_at (b : Fin 64) (u : Fin 512) :
    val_main_v142 (F := Ideal) x0 x1 x2 x3 x4 x5 x6 x7 x8 x9 x10 x11 x12 x13 x14 x15 x16 x17 (ix3 b u 0) = Cert.Spec.rowOut (pars x1 x2 x3 x4 x5 x6 x7 x8 x9 x10 x11 x12 x13 x14 x15 x16 x17) (row x0 b) u := by
  rw [val_main_v142_apply, val_main_v139_apply, val_main_v141_apply, v137_at, val_main_v138_apply, val_main_cst_27_apply,
    val_main_v140_apply, val_main_cst_28_apply, Ideal.ofBits_def, Ideal.ofBits_def, Ideal.mulf_def]
  rfl

/-- The result at (b, u). -/
theorem ref_out (b : Fin 64) (u : Fin 512) :
    val_main_v143 (F := Ideal) x0 x1 x2 x3 x4 x5 x6 x7 x8 x9 x10 x11 x12 x13 x14 x15 x16 x17 (ix2 b u) = Cert.Spec.rowOut (pars x1 x2 x3 x4 x5 x6 x7 x8 x9 x10 x11 x12 x13 x14 x15 x16 x17) (row x0 b) u := by
  -- the re-laid index: (b · 512 + u) / 512 = b and (b · 512 + u) mod 512 = u
  have e : idx_main_v143 (ix2 b u) = ix3 b u 0 := funext fun a => Fin.ext (by
    match a with
    | ⟨0, _⟩ => show (b.val * 512 + u.val) / 512 = b.val; omega
    | ⟨1, _⟩ => show (b.val * 512 + u.val) / 1 % 512 = u.val; omega
    | ⟨2, _⟩ => rfl)
  rw [val_main_v143_apply, e, v142_at]

/-- The reference's result is the specification's array. -/
theorem ref_G :
    val_main_v143 (F := Ideal) x0 x1 x2 x3 x4 x5 x6 x7 x8 x9 x10 x11 x12 x13 x14 x15 x16 x17 = Cert.Spec.G x0 x1 x2 x3 x4 x5 x6 x7 x8 x9 x10 x11 x12 x13 x14 x15 x16 x17 := by
  funext j
  rw [eq_ix2 j]
  exact ref_out x0 x1 x2 x3 x4 x5 x6 x7 x8 x9 x10 x11 x12 x13 x14 x15 x16 x17 (j 0) (j 1)

end Cert.ReferenceIdeal.Stages

end
-- ==== Proof.lean ====
/-
  The certificate: the kernel and the reference compute, on every batch row, the same function of the arguments.

  Both programs normalise each input row, broadcast it against two weight planes, and pass the result through three
  normalisations over whole planes with a leaky rectifier and a two-term product-sum between them, before summing over
  sublanes. The kernel keeps the two slices of every parameter's trailing axis as separate 512 × 512 planes and sums along
  lanes, then along sublanes; the reference keeps them on a fourth axis and sums over three axes at once. Over the extended
  reals those are the same sums regrouped, so both result arrays are the array `Spec.G` of the arguments, entry by entry.
  No step uses more of addition than commutativity and associativity, so the precondition (finite inputs) is not used.

  The frames of the two kernel programs come from the generated frame modules; the reference's run is read window by window
  (its frame is that run with the result dropped); `preserves` has no conjunct, the idealized kernel being the kernel's own text.
-/
import proofs.«167910_j23965917511984_1_alg».proof.Defs
import proofs.«167910_j23965917511984_1_alg».proof.Proof.Gen.Kernel
import proofs.«167910_j23965917511984_1_alg».proof.Proof.Gen.KernelIdeal
import proofs.«167910_j23965917511984_1_alg».proof.Proof.Gen.ReferenceIdeal
import proofs.«167910_j23965917511984_1_alg».proof.Proof.Gen.Pre_finite_inputs
import proofs.«167910_j23965917511984_1_alg».proof.Proof.KernelFrameP
import proofs.«167910_j23965917511984_1_alg».proof.Proof.KernelValue
import proofs.«167910_j23965917511984_1_alg».proof.Proof.RefRun
import proofs.«167910_j23965917511984_1_alg».proof.Proof.RefStageC
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Stages.run (F := Ideal) m ρ)

/-- Both result arrays are the specification's array of the arguments, and the arguments agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Stages.run (F := Ideal) m' ρ')
  rw [Cert.ReferenceIdeal.Stages.ref_G]
  obtain ⟨h0, h1, h2, h3, h4, h5, h6, h7, h8, h9, h10, h11, h12, h13, h14, h15, h16, h17⟩ := hagree c
  rw [h0, h1, h2, h3, h4, h5, h6, h7, h8, h9, h10, h11, h12, h13, h14, h15, h16, h17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
